-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x64 : Shape := ⟨2, ![800000, 64]⟩
abbrev S3x64x128 : Shape := ⟨3, ![3, 64, 128]⟩
abbrev S3x128 : Shape := ⟨2, ![3, 128]⟩
abbrev S3x128x128 : Shape := ⟨3, ![3, 128, 128]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S3x64x128 : S_.BroadcastsInDim S3x64x128 (![] : Fin 0 → Fin S3x64x128.rank)
  reducesTo_S3x64x128_S_d0_1_2 : S3x64x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x800000 : S_.BroadcastsInDim S2x800000 (![] : Fin 0 → Fin S2x800000.rank)
  reducesTo_S2x800000_S_d0_1 : S2x800000.ReducesTo [0, 1] S_

variable [Facts]

def fn_part3 {F : FTy → Type} [FloatOps F] (main_arg1 : IVec S2x800000 32) (main_arg12 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_c_22 : IVec S_ 32 := constantI S_ 32 0#32
  let main_v59 : IVec S2x800000 32 := broadcastInDim S2x800000 ![] bcast_S_S2x800000 main_c_22
  let main_v60 : IVec S2x800000 1 := cmpi .sge main_arg1 main_v59
  let main_c_23 : IVec S_ 32 := constantI S_ 32 50000#32
  let main_v61 : IVec S2x800000 32 := broadcastInDim S2x800000 ![] bcast_S_S2x800000 main_c_23
  let main_v62 : IVec S2x800000 1 := cmpi .slt main_arg1 main_v61
  let main_v63 : IVec S2x800000 1 := andi main_v60 main_v62
  let main_c_24 : IVec S_ 1 := constantI S_ 1 1#1
  let main_v64 : IVec S_ 1 := (fun x v => Host.reduce IntOp.andi x v reducesTo_S2x800000_S_d0_1 h_S_) main_v63 main_c_24
  let main_v65 : IVec S_ 1 := andi main_v58 main_v64
  main_v65

def fn_part2 {F : FTy → Type} [FloatOps F] (main_arg1 : IVec S2x800000 32) (main_arg8 : FVec F S3x128 .f32) (main_arg9 : FVec F S256x128 .f32) (main_arg10 : FVec F S128 .f32) (main_arg11 : FVec F S128x1 .f32) (main_arg12 : FVec F S1 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg11
  let main_cst_18 : FVec F S_ .f32 := constant S_ .f32 0x7F800000#32
  let main_v50 : FVec F S128x1 .f32 := broadcastInDim S128x1 ![] bcast_S_S128x1 main_cst_18
  fn_part3 (F := F) main_arg1 main_arg12 main_v48 main_v49 main_v50

def fn_part1 {F : FTy → Type} [FloatOps F] (main_arg1 : IVec S2x800000 32) (main_arg5 : FVec F S3x128x128 .f32) (main_arg6 : FVec F S3x128 .f32) (main_arg7 : FVec F S3x128x128 .f32) (main_arg8 : FVec F S3x128 .f32) (main_arg9 : FVec F S256x128 .f32) (main_arg10 : FVec F S128 .f32) (main_arg11 : FVec F S128x1 .f32) (main_arg12 : FVec F S1 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg5
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128x128 .f32 := Host.absf main_arg7
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S50000x128 .f32) (main_arg1 : IVec S2x800000 32) (main_arg2 : FVec F S800000x64 .f32) (main_arg3 : FVec F S3x64x128 .f32) (main_arg4 : FVec F S3x128 .f32) (main_arg5 : FVec F S3x128x128 .f32) (main_arg6 : FVec F S3x128 .f32) (main_arg7 : FVec F S3x128x128 .f32) (main_arg8 : FVec F S3x128 .f32) (main_arg9 : FVec F S256x128 .f32) (main_arg10 : FVec F S128 .f32) (main_arg11 : FVec F S128x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S3x64x128 .f32 := Host.absf main_arg3
  let main_cst_2 : FVec F S_ .f32 := constant S_ .f32 0x7F800000#32
  let main_v10 : FVec F S3x64x128 .f32 := broadcastInDim S3x64x128 ![] bcast_S_S3x64x128 main_cst_2
  let main_v11 : IVec S3x64x128 1 := cmpf .olt main_v9 main_v10
  let main_c_3 : IVec S_ 1 := constantI S_ 1 1#1
  let main_v12 : IVec S_ 1 := (fun x v => Host.reduce IntOp.andi x v reducesTo_S3x64x128_S_d0_1_2 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg1 main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S800000x64 : Shape := ⟨2, ![800000, 64]⟩
abbrev S3x64x128 : Shape := ⟨3, ![3, 64, 128]⟩
abbrev S3x128 : Shape := ⟨2, ![3, 128]⟩
abbrev S3x128x128 : Shape := ⟨3, ![3, 128, 128]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x1 : Shape := ⟨2, ![1, 1]⟩
abbrev S800000x128 : Shape := ⟨2, ![800000, 128]⟩
abbrev S1x64x128 : Shape := ⟨3, ![1, 64, 128]⟩
abbrev S64x128 : Shape := ⟨2, ![64, 128]⟩
abbrev S1x128 : Shape := ⟨2, ![1, 128]⟩
abbrev S4000x64 : Shape := ⟨2, ![4000, 64]⟩
abbrev S4000x128 : Shape := ⟨2, ![4000, 128]⟩
abbrev S1x128x128 : Shape := ⟨3, ![1, 128, 128]⟩
abbrev S128x128 : Shape := ⟨2, ![128, 128]⟩
abbrev S2000x128 : Shape := ⟨2, ![2000, 128]⟩
abbrev S2 : Shape := ⟨1, ![2]⟩

abbrev nBuf : Space → Nat
  | .hbm => 229
  | .vmem => 65
  | .smem => 0
  | _ => 0

abbrev hbmTy0_0 (i : Nat) : BufTy := match i % 128 with
  | 0 => ⟨S50000x128, .f32⟩
  | 1 => ⟨S2x800000, .i32⟩
  | 2 => ⟨S800000x64, .f32⟩
  | 3 => ⟨S3x64x128, .f32⟩
  | 4 => ⟨S3x128, .f32⟩
  | 5 => ⟨S3x128x128, .f32⟩
  | 6 => ⟨S3x128, .f32⟩
  | 7 => ⟨S3x128x128, .f32⟩
  | 8 => ⟨S3x128, .f32⟩
  | 9 => ⟨S256x128, .f32⟩
  | 10 => ⟨S128, .f32⟩
  | 11 => ⟨S128x1, .f32⟩
  | 12 => ⟨S1, .f32⟩
  | 13 => ⟨S1x800000, .i32⟩
  | 14 => ⟨S800000, .i32⟩
  | 15 => ⟨S1x800000, .i32⟩
  | 16 => ⟨S800000, .i32⟩
  | 17 => ⟨S800000x64, .bf16⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S1, .i32⟩
  | 27 => ⟨S_, .i32⟩
  | 28 => ⟨S800000x1, .i32⟩
  | 29 => ⟨S800000x1, .i1⟩
  | 30 => ⟨S1x1, .i32⟩
  | 31 => ⟨S800000x1, .i32⟩
  | 32 => ⟨S800000x1, .i1⟩
  | 33 => ⟨S800000x1, .i1⟩
  | 34 => ⟨S_, .i1⟩
  | 35 => ⟨S800000, .i1⟩
  | 36 => ⟨S800000x128, .f32⟩
  | 37 => ⟨S800000x128, .i1⟩
  | 38 => ⟨S_, .f32⟩
  | 39 => ⟨S800000x128, .f32⟩
  | 40 => ⟨S800000x128, .f32⟩
  | 41 => ⟨S1x64x128, .f32⟩
  | 42 => ⟨S64x128, .f32⟩
  | 43 => ⟨S64x128, .bf16⟩
  | 44 => ⟨S1x128, .f32⟩
  | 45 => ⟨S128, .f32⟩
  | 46 => ⟨S1x128, .f32⟩
  | 47 => ⟨S800000x128, .f32⟩
  | 48 => ⟨S_, .f32⟩
  | 49 => ⟨S50000x128, .f32⟩
  | 50 => ⟨S800000x1, .i32⟩
  | 51 => ⟨S50000x128, .f32⟩
  | 52 => ⟨S1x128x128, .f32⟩
  | 53 => ⟨S128x128, .f32⟩
  | 54 => ⟨S128x128, .bf16⟩
  | 55 => ⟨S1x128, .f32⟩
  | 56 => ⟨S128, .f32⟩
  | 57 => ⟨S1x128, .f32⟩
  | 58 => ⟨S1x128x128, .f32⟩
  | 59 => ⟨S128x128, .f32⟩
  | 60 => ⟨S128x128, .bf16⟩
  | 61 => ⟨S1x128, .f32⟩
  | 62 => ⟨S128, .f32⟩
  | 63 => ⟨S1x128, .f32⟩
  | 64 => ⟨S50000x128, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S1, .i32⟩
  | 74 => ⟨S_, .i32⟩
  | 75 => ⟨S800000x1, .i32⟩
  | 76 => ⟨S800000x1, .i1⟩
  | 77 => ⟨S1x1, .i32⟩
  | 78 => ⟨S800000x1, .i32⟩
  | 79 => ⟨S800000x1, .i1⟩
  | 80 => ⟨S800000x1, .i1⟩
  | 81 => ⟨S_, .i1⟩
  | 82 => ⟨S800000, .i1⟩
  | 83 => ⟨S800000x128, .f32⟩
  | 84 => ⟨S800000x128, .i1⟩
  | 85 => ⟨S_, .f32⟩
  | 86 => ⟨S800000x128, .f32⟩
  | 87 => ⟨S800000x128, .f32⟩
  | 88 => ⟨S1x64x128, .f32⟩
  | 89 => ⟨S64x128, .f32⟩
  | 90 => ⟨S64x128, .bf16⟩
  | 91 => ⟨S1x128, .f32⟩
  | 92 => ⟨S128, .f32⟩
  | 93 => ⟨S1x128, .f32⟩
  | 94 => ⟨S800000x128, .f32⟩
  | 95 => ⟨S_, .f32⟩
  | 96 => ⟨S50000x128, .f32⟩
  | 97 => ⟨S800000x1, .i32⟩
  | 98 => ⟨S50000x128, .f32⟩
  | 99 => ⟨S1x128x128, .f32⟩
  | 100 => ⟨S128x128, .f32⟩
  | 101 => ⟨S128x128, .bf16⟩
  | 102 => ⟨S1x128, .f32⟩
  | 103 => ⟨S128, .f32⟩
  | 104 => ⟨S1x128, .f32⟩
  | 105 => ⟨S1x128x128, .f32⟩
  | 106 => ⟨S128x128, .f32⟩
  | 107 => ⟨S128x128, .bf16⟩
  | 108 => ⟨S1x128, .f32⟩
  | 109 => ⟨S128, .f32⟩
  | 110 => ⟨S1x128, .f32⟩
  | 111 => ⟨S50000x128, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S1, .i32⟩
  | 121 => ⟨S_, .i32⟩
  | 122 => ⟨S800000x1, .i32⟩
  | 123 => ⟨S800000x1, .i1⟩
  | 124 => ⟨S1x1, .i32⟩
  | 125 => ⟨S800000x1, .i32⟩
  | 126 => ⟨S800000x1, .i1⟩
  | 127 => ⟨S800000x1, .i1⟩
  | _ => ⟨S50000x128, .f32⟩

abbrev hbmTy0_1 (i : Nat) : BufTy := match i % 128 with
  | 0 => ⟨S_, .i1⟩
  | 1 => ⟨S800000, .i1⟩
  | 2 => ⟨S800000x128, .f32⟩
  | 3 => ⟨S800000x128, .i1⟩
  | 4 => ⟨S_, .f32⟩
  | 5 => ⟨S800000x128, .f32⟩
  | 6 => ⟨S800000x128, .f32⟩
  | 7 => ⟨S1x64x128, .f32⟩
  | 8 => ⟨S64x128, .f32⟩
  | 9 => ⟨S64x128, .bf16⟩
  | 10 => ⟨S1x128, .f32⟩
  | 11 => ⟨S128, .f32⟩
  | 12 => ⟨S1x128, .f32⟩
  | 13 => ⟨S800000x128, .f32⟩
  | 14 => ⟨S_, .f32⟩
  | 15 => ⟨S50000x128, .f32⟩
  | 16 => ⟨S800000x1, .i32⟩
  | 17 => ⟨S50000x128, .f32⟩
  | 18 => ⟨S1x128x128, .f32⟩
  | 19 => ⟨S128x128, .f32⟩
  | 20 => ⟨S128x128, .bf16⟩
  | 21 => ⟨S1x128, .f32⟩
  | 22 => ⟨S128, .f32⟩
  | 23 => ⟨S1x128, .f32⟩
  | 24 => ⟨S1x128x128, .f32⟩
  | 25 => ⟨S128x128, .f32⟩
  | 26 => ⟨S128x128, .bf16⟩
  | 27 => ⟨S1x128, .f32⟩
  | 28 => ⟨S128, .f32⟩
  | 29 => ⟨S1x128, .f32⟩
  | 30 => ⟨S50000x128, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S1, .i32⟩
  | 40 => ⟨S_, .i32⟩
  | 41 => ⟨S800000x1, .i32⟩
  | 42 => ⟨S800000x1, .i1⟩
  | 43 => ⟨S1x1, .i32⟩
  | 44 => ⟨S800000x1, .i32⟩
  | 45 => ⟨S800000x1, .i1⟩
  | 46 => ⟨S800000x1, .i1⟩
  | 47 => ⟨S_, .i1⟩
  | 48 => ⟨S800000, .i1⟩
  | 49 => ⟨S800000x128, .f32⟩
  | 50 => ⟨S800000x128, .i1⟩
  | 51 => ⟨S_, .f32⟩
  | 52 => ⟨S800000x128, .f32⟩
  | 53 => ⟨S800000x128, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S1, .i32⟩
  | 63 => ⟨S_, .i32⟩
  | 64 => ⟨S800000x1, .i32⟩
  | 65 => ⟨S800000x1, .i1⟩
  | 66 => ⟨S1x1, .i32⟩
  | 67 => ⟨S800000x1, .i32⟩
  | 68 => ⟨S800000x1, .i1⟩
  | 69 => ⟨S800000x1, .i1⟩
  | 70 => ⟨S_, .i1⟩
  | 71 => ⟨S800000, .i1⟩
  | 72 => ⟨S800000x128, .f32⟩
  | 73 => ⟨S800000x128, .i1⟩
  | 74 => ⟨S_, .f32⟩
  | 75 => ⟨S800000x128, .f32⟩
  | 76 => ⟨S800000x128, .f32⟩
  | 77 => ⟨S128x128, .f32⟩
  | 78 => ⟨S128x128, .bf16⟩
  | 79 => ⟨S128x128, .f32⟩
  | 80 => ⟨S128x128, .bf16⟩
  | 81 => ⟨S1x128, .f32⟩
  | 82 => ⟨S128, .f32⟩
  | 83 => ⟨S128, .bf16⟩
  | 84 => ⟨S_, .bf16⟩
  | 85 => ⟨S128x128, .bf16⟩
  | 86 => ⟨S_, .i32⟩
  | 87 => ⟨S1, .i32⟩
  | 88 => ⟨S128x128, .bf16⟩
  | 89 => ⟨S_, .f32⟩
  | 90 => ⟨S1x128, .f32⟩
  | 91 => ⟨S_, .f32⟩
  | 92 => ⟨S_, .i32⟩
  | 93 => ⟨S1, .i32⟩
  | 94 => ⟨S_, .i32⟩
  | 95 => ⟨S1, .i32⟩
  | 96 => ⟨S2, .i32⟩
  | 97 => ⟨S1x128, .f32⟩
  | 98 => ⟨S800000x128, .f32⟩
  | 99 => ⟨S800000x1, .f32⟩
  | 100 => ⟨S800000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S4000x64, .bf16⟩
  | .local _ .vmem, ⟨1, _⟩ => ⟨S4000x64, .bf16⟩
  | .local _ .vmem, ⟨2, _⟩ => ⟨S4000x128, .f32⟩
  | .local _ .vmem, ⟨3, _⟩ => ⟨S4000x128, .f32⟩
  | .local _ .vmem, ⟨4, _⟩ => ⟨S64x128, .bf16⟩
  | .local _ .vmem, ⟨5, _⟩ => ⟨S1x128, .f32⟩
  | .local _ .vmem, ⟨6, _⟩ => ⟨S4000x128, .f32⟩
  | .local _ .vmem, ⟨7, _⟩ => ⟨S4000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .bf16⟩
  | .local _ .vmem, ⟨13, _⟩ => ⟨S1x128, .f32⟩
  | .local _ .vmem, ⟨14, _⟩ => ⟨S128x128, .bf16⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S4000x64, .bf16⟩
  | .local _ .vmem, ⟨19, _⟩ => ⟨S4000x64, .bf16⟩
  | .local _ .vmem, ⟨20, _⟩ => ⟨S4000x128, .f32⟩
  | .local _ .vmem, ⟨21, _⟩ => ⟨S4000x128, .f32⟩
  | .local _ .vmem, ⟨22, _⟩ => ⟨S64x128, .bf16⟩
  | .local _ .vmem, ⟨23, _⟩ => ⟨S1x128, .f32⟩
  | .local _ .vmem, ⟨24, _⟩ => ⟨S4000x128, .f32⟩
  | .local _ .vmem, ⟨25, _⟩ => ⟨S4000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .bf16⟩
  | .local _ .vmem, ⟨31, _⟩ => ⟨S1x128, .f32⟩
  | .local _ .vmem, ⟨32, _⟩ => ⟨S128x128, .bf16⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S4000x64, .bf16⟩
  | .local _ .vmem, ⟨37, _⟩ => ⟨S4000x64, .bf16⟩
  | .local _ .vmem, ⟨38, _⟩ => ⟨S4000x128, .f32⟩
  | .local _ .vmem, ⟨39, _⟩ => ⟨S4000x128, .f32⟩
  | .local _ .vmem, ⟨40, _⟩ => ⟨S64x128, .bf16⟩
  | .local _ .vmem, ⟨41, _⟩ => ⟨S1x128, .f32⟩
  | .local _ .vmem, ⟨42, _⟩ => ⟨S4000x128, .f32⟩
  | .local _ .vmem, ⟨43, _⟩ => ⟨S4000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S128x128, .bf16⟩
  | .local _ .vmem, ⟨49, _⟩ => ⟨S1x128, .f32⟩
  | .local _ .vmem, ⟨50, _⟩ => ⟨S128x128, .bf16⟩
  | .local _ .vmem, ⟨51, _⟩ => ⟨S1x128, .f32⟩
  | .local _ .vmem, ⟨52, _⟩ => ⟨S2000x128, .f32⟩
  | .local _ .vmem, ⟨53, _⟩ => ⟨S2000x128, .f32⟩
  | .local _ .vmem, ⟨54, _⟩ => ⟨S4000x128, .f32⟩
  | .local _ .vmem, ⟨55, _⟩ => ⟨S4000x128, .f32⟩
  | .local _ .vmem, ⟨56, _⟩ => ⟨S4000x128, .f32⟩
  | .local _ .vmem, ⟨57, _⟩ => ⟨S4000x128, .f32⟩
  | .local _ .vmem, ⟨58, _⟩ => ⟨S128x128, .bf16⟩
  | .local _ .vmem, ⟨59, _⟩ => ⟨S128x128, .bf16⟩
  | .local _ .vmem, ⟨60, _⟩ => ⟨S1x128, .f32⟩
  | .local _ .vmem, ⟨61, _⟩ => ⟨S128x128, .bf16⟩
  | .local _ .vmem, ⟨62, _⟩ => ⟨S1x128, .f32⟩
  | .local _ .vmem, ⟨63, _⟩ => ⟨S4000x128, .f32⟩
  | .local _ .vmem, ⟨64, _⟩ => ⟨S4000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_cst : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_call1_c : Ref sig .tc := ⟨.hbm, 65, rfl⟩
abbrev main_call1_v0 : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_c_1 : Ref sig .tc := ⟨.hbm, 73, rfl⟩
abbrev main_call1_c_2 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_3 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_call1_cst : Ref sig .tc := ⟨.hbm, 85, rfl⟩
abbrev main_call1_v15 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_cst_0 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_call2_c : Ref sig .tc := ⟨.hbm, 112, rfl⟩
abbrev main_call2_v0 : Ref sig .tc := ⟨.hbm, 113, rfl⟩
abbrev main_call2_v1 : Ref sig .tc := ⟨.hbm, 114, rfl⟩
abbrev main_call2_c_0 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_v5 : Ref sig .tc := ⟨.hbm, 119, rfl⟩
abbrev main_call2_c_1 : Ref sig .tc := ⟨.hbm, 120, rfl⟩
abbrev main_call2_c_2 : Ref sig .tc := ⟨.hbm, 121, rfl⟩
abbrev main_call2_v6 : Ref sig .tc := ⟨.hbm, 122, rfl⟩
abbrev main_call2_v7 : Ref sig .tc := ⟨.hbm, 123, rfl⟩
abbrev main_call2_v8 : Ref sig .tc := ⟨.hbm, 124, rfl⟩
abbrev main_call2_v9 : Ref sig .tc := ⟨.hbm, 125, rfl⟩
abbrev main_call2_v10 : Ref sig .tc := ⟨.hbm, 126, rfl⟩
abbrev main_call2_v11 : Ref sig .tc := ⟨.hbm, 127, rfl⟩
abbrev main_call2_c_3 : Ref sig .tc := ⟨.hbm, 128, rfl⟩
abbrev main_call2_v12 : Ref sig .tc := ⟨.hbm, 129, rfl⟩
abbrev main_call2_v13 : Ref sig .tc := ⟨.hbm, 130, rfl⟩
abbrev main_call2_v14 : Ref sig .tc := ⟨.hbm, 131, rfl⟩
abbrev main_call2_cst : Ref sig .tc := ⟨.hbm, 132, rfl⟩
abbrev main_call2_v15 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev main_v56 : Ref sig .tc := ⟨.hbm, 137, rfl⟩
abbrev main_v57 : Ref sig .tc := ⟨.hbm, 138, rfl⟩
abbrev main_v58 : Ref sig .tc := ⟨.hbm, 139, rfl⟩
abbrev main_v59 : Ref sig .tc := ⟨.hbm, 140, rfl⟩
abbrev main_v60 : Ref sig .tc := ⟨.hbm, 141, rfl⟩
abbrev main_cst_1 : Ref sig .tc := ⟨.hbm, 142, rfl⟩
abbrev main_v61 : Ref sig .tc := ⟨.hbm, 143, rfl⟩
abbrev main_v62 : Ref sig .tc := ⟨.hbm, 144, rfl⟩
abbrev main_v63 : Ref sig .tc := ⟨.hbm, 145, rfl⟩
abbrev main_v64 : Ref sig .tc := ⟨.hbm, 146, rfl⟩
abbrev main_v65 : Ref sig .tc := ⟨.hbm, 147, rfl⟩
abbrev main_v66 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_v70 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_call3_c : Ref sig .tc := ⟨.hbm, 159, rfl⟩
abbrev main_call3_v0 : Ref sig .tc := ⟨.hbm, 160, rfl⟩
abbrev main_call3_v1 : Ref sig .tc := ⟨.hbm, 161, rfl⟩
abbrev main_call3_c_0 : Ref sig .tc := ⟨.hbm, 162, rfl⟩
abbrev main_call3_v2 : Ref sig .tc := ⟨.hbm, 163, rfl⟩
abbrev main_call3_v3 : Ref sig .tc := ⟨.hbm, 164, rfl⟩
abbrev main_call3_v4 : Ref sig .tc := ⟨.hbm, 165, rfl⟩
abbrev main_call3_v5 : Ref sig .tc := ⟨.hbm, 166, rfl⟩
abbrev main_call3_c_1 : Ref sig .tc := ⟨.hbm, 167, rfl⟩
abbrev main_call3_c_2 : Ref sig .tc := ⟨.hbm, 168, rfl⟩
abbrev main_call3_v6 : Ref sig .tc := ⟨.hbm, 169, rfl⟩
abbrev main_call3_v7 : Ref sig .tc := ⟨.hbm, 170, rfl⟩
abbrev main_call3_v8 : Ref sig .tc := ⟨.hbm, 171, rfl⟩
abbrev main_call3_v9 : Ref sig .tc := ⟨.hbm, 172, rfl⟩
abbrev main_call3_v10 : Ref sig .tc := ⟨.hbm, 173, rfl⟩
abbrev main_call3_v11 : Ref sig .tc := ⟨.hbm, 174, rfl⟩
abbrev main_call3_c_3 : Ref sig .tc := ⟨.hbm, 175, rfl⟩
abbrev main_call3_v12 : Ref sig .tc := ⟨.hbm, 176, rfl⟩
abbrev main_call3_v13 : Ref sig .tc := ⟨.hbm, 177, rfl⟩
abbrev main_call3_v14 : Ref sig .tc := ⟨.hbm, 178, rfl⟩
abbrev main_call3_cst : Ref sig .tc := ⟨.hbm, 179, rfl⟩
abbrev main_call3_v15 : Ref sig .tc := ⟨.hbm, 180, rfl⟩
abbrev main_v77 : Ref sig .tc := ⟨.hbm, 181, rfl⟩
abbrev main_call4_c : Ref sig .tc := ⟨.hbm, 182, rfl⟩
abbrev main_call4_v0 : Ref sig .tc := ⟨.hbm, 183, rfl⟩
abbrev main_call4_v1 : Ref sig .tc := ⟨.hbm, 184, rfl⟩
abbrev main_call4_c_0 : Ref sig .tc := ⟨.hbm, 185, rfl⟩
abbrev main_call4_v2 : Ref sig .tc := ⟨.hbm, 186, rfl⟩
abbrev main_call4_v3 : Ref sig .tc := ⟨.hbm, 187, rfl⟩
abbrev main_call4_v4 : Ref sig .tc := ⟨.hbm, 188, rfl⟩
abbrev main_call4_v5 : Ref sig .tc := ⟨.hbm, 189, rfl⟩
abbrev main_call4_c_1 : Ref sig .tc := ⟨.hbm, 190, rfl⟩
abbrev main_call4_c_2 : Ref sig .tc := ⟨.hbm, 191, rfl⟩
abbrev main_call4_v6 : Ref sig .tc := ⟨.hbm, 192, rfl⟩
abbrev main_call4_v7 : Ref sig .tc := ⟨.hbm, 193, rfl⟩
abbrev main_call4_v8 : Ref sig .tc := ⟨.hbm, 194, rfl⟩
abbrev main_call4_v9 : Ref sig .tc := ⟨.hbm, 195, rfl⟩
abbrev main_call4_v10 : Ref sig .tc := ⟨.hbm, 196, rfl⟩
abbrev main_call4_v11 : Ref sig .tc := ⟨.hbm, 197, rfl⟩
abbrev main_call4_c_3 : Ref sig .tc := ⟨.hbm, 198, rfl⟩
abbrev main_call4_v12 : Ref sig .tc := ⟨.hbm, 199, rfl⟩
abbrev main_call4_v13 : Ref sig .tc := ⟨.hbm, 200, rfl⟩
abbrev main_call4_v14 : Ref sig .tc := ⟨.hbm, 201, rfl⟩
abbrev main_call4_cst : Ref sig .tc := ⟨.hbm, 202, rfl⟩
abbrev main_call4_v15 : Ref sig .tc := ⟨.hbm, 203, rfl⟩
abbrev main_v78 : Ref sig .tc := ⟨.hbm, 204, rfl⟩
abbrev main_v79 : Ref sig .tc := ⟨.hbm, 205, rfl⟩
abbrev main_v80 : Ref sig .tc := ⟨.hbm, 206, rfl⟩
abbrev main_v81 : Ref sig .tc := ⟨.hbm, 207, rfl⟩
abbrev main_v82 : Ref sig .tc := ⟨.hbm, 208, rfl⟩
abbrev main_v83 : Ref sig .tc := ⟨.hbm, 209, rfl⟩
abbrev main_v84 : Ref sig .tc := ⟨.hbm, 210, rfl⟩
abbrev main_v85 : Ref sig .tc := ⟨.hbm, 211, rfl⟩
abbrev main_cst_2 : Ref sig .tc := ⟨.hbm, 212, rfl⟩
abbrev main_v86 : Ref sig .tc := ⟨.hbm, 213, rfl⟩
abbrev main_c : Ref sig .tc := ⟨.hbm, 214, rfl⟩
abbrev main_v87 : Ref sig .tc := ⟨.hbm, 215, rfl⟩
abbrev main_v88 : Ref sig .tc := ⟨.hbm, 216, rfl⟩
abbrev main_cst_3 : Ref sig .tc := ⟨.hbm, 217, rfl⟩
abbrev main_v89 : Ref sig .tc := ⟨.hbm, 218, rfl⟩
abbrev main_v90 : Ref sig .tc := ⟨.hbm, 219, rfl⟩
abbrev main_c_4 : Ref sig .tc := ⟨.hbm, 220, rfl⟩
abbrev main_v91 : Ref sig .tc := ⟨.hbm, 221, rfl⟩
abbrev main_c_5 : Ref sig .tc := ⟨.hbm, 222, rfl⟩
abbrev main_v92 : Ref sig .tc := ⟨.hbm, 223, rfl⟩
abbrev main_v93 : Ref sig .tc := ⟨.hbm, 224, rfl⟩
abbrev main_v94 : Ref sig .tc := ⟨.hbm, 225, rfl⟩
abbrev main_v95 : Ref sig .tc := ⟨.hbm, 226, rfl⟩
abbrev main_v96 : Ref sig .tc := ⟨.hbm, 227, rfl⟩
abbrev main_v97 : Ref sig .tc := ⟨.hbm, 228, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg4_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg5_0 : Ref sig .tc := ⟨.vmem, 51, rfl⟩
abbrev cc5_stg6_0 : Ref sig .tc := ⟨.vmem, 52, rfl⟩
abbrev cc5_stg6_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg6_0 : Ref sig .tc := ⟨.vmem, 62, rfl⟩
abbrev cc6_stg7_0 : Ref sig .tc := ⟨.vmem, 63, rfl⟩
abbrev cc6_stg7_1 : Ref sig .tc := ⟨.vmem, 64, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem4_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem3_0 : DmaSem sig := 49
abbrev cc5_sem4_0 : DmaSem sig := 50
abbrev cc5_sem5_0 : DmaSem sig := 51
abbrev cc5_sem6_0 : DmaSem sig := 52
abbrev cc5_sem6_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem5_0 : DmaSem sig := 61
abbrev cc6_sem6_0 : DmaSem sig := 62
abbrev cc6_sem7_0 : DmaSem sig := 63
abbrev cc6_sem7_1 : DmaSem sig := 64

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S4000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![200], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .bf16 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S4000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  slices_S3x64x128_S1x64x128_0_0_0 : S3x64x128.Slices ![0, 0, 0] S1x64x128
  shapeCasts_S1x64x128_S64x128 : S1x64x128.ShapeCasts S64x128
  slices_S3x128_S1x128_0_0 : S3x128.Slices ![0, 0] S1x128
  shapeCasts_S1x128_S128 : S1x128.ShapeCasts S128
  shapeCasts_S128_S1x128 : S128.ShapeCasts S1x128
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S2000x128 : S1x128.Broadcasts S2000x128
  slices_S3x64x128_S1x64x128_1_0_0 : S3x64x128.Slices ![1, 0, 0] S1x64x128
  slices_S3x128_S1x128_1_0 : S3x128.Slices ![1, 0] S1x128
  slices_S3x128x128_S1x128x128_1_0_0 : S3x128x128.Slices ![1, 0, 0] S1x128x128
  slices_S3x64x128_S1x64x128_2_0_0 : S3x64x128.Slices ![2, 0, 0] S1x64x128
  slices_S3x128_S1x128_2_0 : S3x128.Slices ![2, 0] S1x128
  slices_S3x128x128_S1x128x128_2_0_0 : S3x128x128.Slices ![2, 0, 0] S1x128x128
  slices_S256x128_S128x128_0_0 : S256x128.Slices ![0, 0] S128x128
  slices_S256x128_S128x128_128_0 : S256x128.Slices ![128, 0] S128x128
  shapeCasts_S128x1_S128 : S128x1.ShapeCasts S128
  bcast_S_S128x128 : S_.BroadcastsInDim S128x128 (![] : Fin 0 → Fin S128x128.rank)
  bcast_S_S1 : S_.BroadcastsInDim S1 (![] : Fin 0 → Fin S1.rank)
  bcast_S_S1x128 : S_.BroadcastsInDim S1x128 (![] : Fin 0 → Fin S1x128.rank)
  shapeCasts_S1_S_ : S1.ShapeCasts S_
  concatenates_S1_S1_S2_d0 : Shape.Concatenates [S1, S1] S2 0
  slices_S800000x128_S800000x1_0_0 : S800000x128.Slices ![0, 0] S800000x1
  shapeCasts_S800000x1_S800000 : S800000x1.ShapeCasts S800000
  gather_S50000x128_S800000x1_S800000x128_1_0_n_n_0_1_1128_wf : GatherDims.WF S50000x128 S800000x1 S800000x128 [1] [0] [] [0] [] 1 ![1, 128]
  dot_S4000x64_S64x128_S4000x128_1_0_0_1_n_n_wf : DotDims.WF S4000x64 S64x128 S4000x128 [1] [0] [0] [1] [] []
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  scatter_S128x128_S1_S128_0_1_1_0_wf : ScatterDims.WF S128x128 S1 S128 [0] [1] [1] 0
  scatter_S1x128_S2_S__n_01_01_0_wf : ScatterDims.WF S1x128 S2 S_ [] [0, 1] [0, 1] 0
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S800000x64.size a
  hwx0_0 : ∀ i : grid0.Coords, EltTy.bits .bf16 = 32 ∨ (Rect.block (s := S800000x64) S4000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .f32 = 32 ∨ (Rect.block (s := S800000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .bf16 = 32 ∨ (Rect.block (s := S64x128) S64x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S800000x128.size a
  hwx0_4 : ∀ i : grid0.Coords, EltTy.bits .f32 = 32 ∨ (Rect.block (s := S800000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S800000x64.size a
  hwx2_0 : ∀ i : grid2.Coords, EltTy.bits .bf16 = 32 ∨ (Rect.block (s := S800000x64) S4000x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S800000x128.size a
  hwx2_1 : ∀ i : grid2.Coords, EltTy.bits .f32 = 32 ∨ (Rect.block (s := S800000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .bf16 = 32 ∨ (Rect.block (s := S64x128) S64x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S800000x128.size a
  hwx2_4 : ∀ i : grid2.Coords, EltTy.bits .f32 = 32 ∨ (Rect.block (s := S800000x128) S4000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .bf16 = 32 ∨ (Rect.block (s := S128x128) S128x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .bf16 = 32 ∨ (Rect.block (s := S128x128) S128x128.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S800000x64.size a
  hwx4_0 : ∀ i : grid4.Coords, EltTy.bits .bf16 = 32 ∨ (Rect.block (s := S800000x64) S4000x64.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S800000x128.size a
  hwx4_1 : ∀ i : grid4.Coords, EltTy.bits .f32 = 32 ∨ (Rect.block (s := S800000x128) S4000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .bf16 = 32 ∨ (Rect.block (s := S64x128) S64x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x128.size a ≤ S800000x128.size a
  hwx4_4 : ∀ i : grid4.Coords, EltTy.bits .f32 = 32 ∨ (Rect.block (s := S800000x128) S4000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .bf16 = 32 ∨ (Rect.block (s := S128x128) S128x128.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .bf16 = 32 ∨ (Rect.block (s := S128x128) S128x128.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S50000x128.size a
  hwx5_6 : ∀ i : grid5.Coords, EltTy.bits .f32 = 32 ∨ (Rect.block (s := S50000x128) S2000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S800000x128.size a
  hwx6_0 : ∀ i : grid6.Coords, EltTy.bits .f32 = 32 ∨ (Rect.block (s := S800000x128) S4000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x128.size a ≤ S800000x128.size a
  hwx6_1 : ∀ i : grid6.Coords, EltTy.bits .f32 = 32 ∨ (Rect.block (s := S800000x128) S4000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .bf16 = 32 ∨ (Rect.block (s := S128x128) S128x128.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .bf16 = 32 ∨ (Rect.block (s := S128x128) S128x128.size (cc6_transform_3 i) (hinb6_3 i)).WholeWords (EltTy.packing .bf16)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .bf16 = 32 ∨ (Rect.block (s := S128x128) S128x128.size (cc6_transform_5 i) (hinb6_5 i)).WholeWords (EltTy.packing .bf16)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S4000x128.size a ≤ S800000x128.size a
  hwx6_7 : ∀ i : grid6.Coords, EltTy.bits .f32 = 32 ∨ (Rect.block (s := S800000x128) S4000x128.size (cc6_transform_7 i) (hinb6_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S128x128_S1_S128_0_1_1_0 : ScatterDims S128x128 S1 S128 where
  updateWindowDims := [0]
  insertedWindowDims := [1]
  scatterDimsToOperandDims := [1]
  indexVectorDim := 0
  wf := scatter_S128x128_S1_S128_0_1_1_0_wf
def scatter_S1x128_S2_S__n_01_01_0 : ScatterDims S1x128 S2 S_ where
  updateWindowDims := []
  insertedWindowDims := [0, 1]
  scatterDimsToOperandDims := [0, 1]
  indexVectorDim := 0
  wf := scatter_S1x128_S2_S__n_01_01_0_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v4) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v4) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S4000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v28) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v51) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v52) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v4) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v56) S64x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v59) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v60) S4000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v52) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v63) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v66) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v69) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v72) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v75) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v76) S2000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v77) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v78) S4000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v80) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v82) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v83) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v88) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v94) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v95) S4000x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x64 : Shape := ⟨2, ![800000, 64]⟩
abbrev S3x64x128 : Shape := ⟨3, ![3, 64, 128]⟩
abbrev S3x128 : Shape := ⟨2, ![3, 128]⟩
abbrev S3x128x128 : Shape := ⟨3, ![3, 128, 128]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S1x64x128 : Shape := ⟨3, ![1, 64, 128]⟩
abbrev S64x128 : Shape := ⟨2, ![64, 128]⟩
abbrev S800000x128 : Shape := ⟨2, ![800000, 128]⟩
abbrev S1x128 : Shape := ⟨2, ![1, 128]⟩
abbrev S_ : Shape := ⟨0, ![]⟩
abbrev S800000x1 : Shape := ⟨2, ![800000, 1]⟩
abbrev S1x128x128 : Shape := ⟨3, ![1, 128, 128]⟩
abbrev S128x128 : Shape := ⟨2, ![128, 128]⟩
abbrev S800000x256 : Shape := ⟨2, ![800000, 256]⟩
abbrev S1x1 : Shape := ⟨2, ![1, 1]⟩

abbrev nBuf : Space → Nat
  | .hbm => 192
  | .vmem => 0
  | .smem => 0
  | _ => 0

abbrev hbmTy0_0 (i : Nat) : BufTy := match i % 128 with
  | 0 => ⟨S50000x128, .f32⟩
  | 1 => ⟨S2x800000, .i32⟩
  | 2 => ⟨S800000x64, .f32⟩
  | 3 => ⟨S3x64x128, .f32⟩
  | 4 => ⟨S3x128, .f32⟩
  | 5 => ⟨S3x128x128, .f32⟩
  | 6 => ⟨S3x128, .f32⟩
  | 7 => ⟨S3x128x128, .f32⟩
  | 8 => ⟨S3x128, .f32⟩
  | 9 => ⟨S256x128, .f32⟩
  | 10 => ⟨S128, .f32⟩
  | 11 => ⟨S128x1, .f32⟩
  | 12 => ⟨S1, .f32⟩
  | 13 => ⟨S1x800000, .i32⟩
  | 14 => ⟨S800000, .i32⟩
  | 15 => ⟨S1x800000, .i32⟩
  | 16 => ⟨S800000, .i32⟩
  | 17 => ⟨S1x64x128, .f32⟩
  | 18 => ⟨S64x128, .f32⟩
  | 19 => ⟨S800000x128, .f32⟩
  | 20 => ⟨S1x128, .f32⟩
  | 21 => ⟨S128, .f32⟩
  | 22 => ⟨S1x128, .f32⟩
  | 23 => ⟨S800000x128, .f32⟩
  | 24 => ⟨S800000x128, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S800000x128, .f32⟩
  | 35 => ⟨S_, .f32⟩
  | 36 => ⟨S800000x128, .f32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S50000x128, .f32⟩
  | 43 => ⟨S1x128x128, .f32⟩
  | 44 => ⟨S128x128, .f32⟩
  | 45 => ⟨S50000x128, .f32⟩
  | 46 => ⟨S1x128, .f32⟩
  | 47 => ⟨S128, .f32⟩
  | 48 => ⟨S1x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S1x128x128, .f32⟩
  | 55 => ⟨S128x128, .f32⟩
  | 56 => ⟨S50000x128, .f32⟩
  | 57 => ⟨S1x128, .f32⟩
  | 58 => ⟨S128, .f32⟩
  | 59 => ⟨S1x128, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S1x64x128, .f32⟩
  | 66 => ⟨S64x128, .f32⟩
  | 67 => ⟨S800000x128, .f32⟩
  | 68 => ⟨S1x128, .f32⟩
  | 69 => ⟨S128, .f32⟩
  | 70 => ⟨S1x128, .f32⟩
  | 71 => ⟨S800000x128, .f32⟩
  | 72 => ⟨S800000x128, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x128, .f32⟩
  | 82 => ⟨S800000x128, .f32⟩
  | 83 => ⟨S_, .f32⟩
  | 84 => ⟨S800000x128, .f32⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S50000x128, .f32⟩
  | 91 => ⟨S1x128x128, .f32⟩
  | 92 => ⟨S128x128, .f32⟩
  | 93 => ⟨S50000x128, .f32⟩
  | 94 => ⟨S1x128, .f32⟩
  | 95 => ⟨S128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S1x128x128, .f32⟩
  | 103 => ⟨S128x128, .f32⟩
  | 104 => ⟨S50000x128, .f32⟩
  | 105 => ⟨S1x128, .f32⟩
  | 106 => ⟨S128, .f32⟩
  | 107 => ⟨S1x128, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S1x64x128, .f32⟩
  | 114 => ⟨S64x128, .f32⟩
  | 115 => ⟨S800000x128, .f32⟩
  | 116 => ⟨S1x128, .f32⟩
  | 117 => ⟨S128, .f32⟩
  | 118 => ⟨S1x128, .f32⟩
  | 119 => ⟨S800000x128, .f32⟩
  | 120 => ⟨S800000x128, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x128, .f32⟩

abbrev hbmTy0_1 (i : Nat) : BufTy := match i % 128 with
  | 0 => ⟨S800000x1, .i32⟩
  | 1 => ⟨S800000x128, .f32⟩
  | 2 => ⟨S800000x128, .f32⟩
  | 3 => ⟨S_, .f32⟩
  | 4 => ⟨S800000x128, .f32⟩
  | 5 => ⟨S800000x128, .f32⟩
  | 6 => ⟨S_, .f32⟩
  | 7 => ⟨S50000x128, .f32⟩
  | 8 => ⟨S800000x1, .i32⟩
  | 9 => ⟨S50000x128, .f32⟩
  | 10 => ⟨S50000x128, .f32⟩
  | 11 => ⟨S1x128x128, .f32⟩
  | 12 => ⟨S128x128, .f32⟩
  | 13 => ⟨S50000x128, .f32⟩
  | 14 => ⟨S1x128, .f32⟩
  | 15 => ⟨S128, .f32⟩
  | 16 => ⟨S1x128, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S1x128x128, .f32⟩
  | 23 => ⟨S128x128, .f32⟩
  | 24 => ⟨S50000x128, .f32⟩
  | 25 => ⟨S1x128, .f32⟩
  | 26 => ⟨S128, .f32⟩
  | 27 => ⟨S1x128, .f32⟩
  | 28 => ⟨S50000x128, .f32⟩
  | 29 => ⟨S50000x128, .f32⟩
  | 30 => ⟨S_, .f32⟩
  | 31 => ⟨S50000x128, .f32⟩
  | 32 => ⟨S50000x128, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x128, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S800000x256, .f32⟩
  | 52 => ⟨S800000x128, .f32⟩
  | 53 => ⟨S1x128, .f32⟩
  | 54 => ⟨S800000x128, .f32⟩
  | 55 => ⟨S800000x128, .f32⟩
  | 56 => ⟨S_, .f32⟩
  | 57 => ⟨S800000x128, .f32⟩
  | 58 => ⟨S800000x128, .f32⟩
  | 59 => ⟨S800000x1, .f32⟩
  | 60 => ⟨S1x1, .f32⟩
  | 61 => ⟨S800000x1, .f32⟩
  | 62 => ⟨S800000x1, .f32⟩
  | 63 => ⟨S800000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_cst : Ref sig .tc := ⟨.hbm, 35, rfl⟩
abbrev main_call0_v0 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call1_cst : Ref sig .tc := ⟨.hbm, 51, rfl⟩
abbrev main_call1_v0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_call2_cst : Ref sig .tc := ⟨.hbm, 62, rfl⟩
abbrev main_call2_v0 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_1 : Ref sig .tc := ⟨.hbm, 73, rfl⟩
abbrev main_v51 : Ref sig .tc := ⟨.hbm, 74, rfl⟩
abbrev main_v52 : Ref sig .tc := ⟨.hbm, 75, rfl⟩
abbrev main_c_2 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call3_cst : Ref sig .tc := ⟨.hbm, 83, rfl⟩
abbrev main_call3_v0 : Ref sig .tc := ⟨.hbm, 84, rfl⟩
abbrev main_v59 : Ref sig .tc := ⟨.hbm, 85, rfl⟩
abbrev main_cst_3 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_call4_cst : Ref sig .tc := ⟨.hbm, 99, rfl⟩
abbrev main_call4_v0 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_call5_cst : Ref sig .tc := ⟨.hbm, 110, rfl⟩
abbrev main_call5_v0 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_c_4 : Ref sig .tc := ⟨.hbm, 121, rfl⟩
abbrev main_v90 : Ref sig .tc := ⟨.hbm, 122, rfl⟩
abbrev main_v91 : Ref sig .tc := ⟨.hbm, 123, rfl⟩
abbrev main_c_5 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_call6_cst : Ref sig .tc := ⟨.hbm, 131, rfl⟩
abbrev main_call6_v0 : Ref sig .tc := ⟨.hbm, 132, rfl⟩
abbrev main_v98 : Ref sig .tc := ⟨.hbm, 133, rfl⟩
abbrev main_cst_6 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_call7_cst : Ref sig .tc := ⟨.hbm, 147, rfl⟩
abbrev main_call7_v0 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_call8_cst : Ref sig .tc := ⟨.hbm, 158, rfl⟩
abbrev main_call8_v0 : Ref sig .tc := ⟨.hbm, 159, rfl⟩
abbrev main_v120 : Ref sig .tc := ⟨.hbm, 160, rfl⟩
abbrev main_c_7 : Ref sig .tc := ⟨.hbm, 161, rfl⟩
abbrev main_v121 : Ref sig .tc := ⟨.hbm, 162, rfl⟩
abbrev main_v122 : Ref sig .tc := ⟨.hbm, 163, rfl⟩
abbrev main_c_8 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_c_9 : Ref sig .tc := ⟨.hbm, 170, rfl⟩
abbrev main_v128 : Ref sig .tc := ⟨.hbm, 171, rfl⟩
abbrev main_v129 : Ref sig .tc := ⟨.hbm, 172, rfl⟩
abbrev main_c_10 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_call9_cst : Ref sig .tc := ⟨.hbm, 184, rfl⟩
abbrev main_call9_v0 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x64x128_S1x64x128_0_0_0 : S3x64x128.Slices ![0, 0, 0] S1x64x128
  shapeCasts_S1x64x128_S64x128 : S1x64x128.ShapeCasts S64x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  bcast_S1x128_S50000x128_0_1 : S1x128.BroadcastsInDim S50000x128 (![0, 1] : Fin 2 → Fin S50000x128.rank)
  slices_S3x64x128_S1x64x128_1_0_0 : S3x64x128.Slices ![1, 0, 0] S1x64x128
  slices_S3x128_S1x128_1_0 : S3x128.Slices ![1, 0] S1x128
  slices_S3x128x128_S1x128x128_1_0_0 : S3x128x128.Slices ![1, 0, 0] S1x128x128
  slices_S3x64x128_S1x64x128_2_0_0 : S3x64x128.Slices ![2, 0, 0] S1x64x128
  slices_S3x128_S1x128_2_0 : S3x128.Slices ![2, 0] S1x128
  slices_S3x128x128_S1x128x128_2_0_0 : S3x128x128.Slices ![2, 0, 0] S1x128x128
  concatenates_S800000x128_S800000x128_S800000x256_d1 : Shape.Concatenates [S800000x128, S800000x128] S800000x256 1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  shapeCasts_S800000x1_S800000 : S800000x1.ShapeCasts S800000
  dot_S800000x64_S64x128_S800000x128_1_0_0_1_n_n_wf : DotDims.WF S800000x64 S64x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S800000x256_S256x128_S800000x128_1_0_0_1_n_n_wf : DotDims.WF S800000x256 S256x128 S800000x128 [1] [0] [0] [1] [] []
  dot_S800000x128_S128x1_S800000x1_1_0_0_1_n_n_wf : DotDims.WF S800000x128 S128x1 S800000x1 [1] [0] [0] [1] [] []

variable [Facts₀]

def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf

class Facts : Prop extends Facts₀ where

variable [Facts]
-- ==== Proof.Spec.lean ====
/-
  The network as plain index-by-index functions on extended reals.

  A graph network with three message-passing layers and an edge scorer.  One layer: every edge e forms the message
  max (x[src e] + edge_attr e · W + b, 0); the messages are summed into their destination nodes; every node then goes
  through a two-layer perceptron, max (max ((x + aggr) · W1 + b1, 0) · W2 + b2, 0).  The scorer reads the final node
  features at both ends of an edge: max (x[src] · P1_top + x[dst] · P1_bottom + pb1, 0) · p2 + pb2.
  The gather of node rows along edges and the scatter-add of edge rows into nodes enter as parameters: both programs
  compute them by the same operation of the same operands, so nothing here looks inside them.
-/
import Idealize.ShloMosaic.PureOps.Ideal
import Idealize.ShloMosaic.Lib.ValueIdx

noncomputable section

open scoped BigOperators

namespace Cert.Gnn

open Idealize.ShloMosaic Idealize.ShloMosaic.ValueIdx

/-- A rank-1, rank-2, rank-3 array of extended reals. -/
abbrev A1 (n : Nat) : Type := (⟨1, ![n]⟩ : Shape).Idx → EReal
abbrev A2 (n0 n1 : Nat) : Type := (⟨2, ![n0, n1]⟩ : Shape).Idx → EReal
abbrev A3 (n0 n1 n2 : Nat) : Type := (⟨3, ![n0, n1, n2]⟩ : Shape).Idx → EReal

/-! ## The three dense pieces -/

/-- The message of edge e, feature j: max (xs e j + Σ_k ea e k · w k j + b j, 0); the bias is a one-row matrix. -/
def msg (ea : A2 800000 64) (xs : A2 800000 128) (w : A2 64 128) (brow : A2 1 128) : A2 800000 128 :=
  fun i => max ((xs i + ∑ k : Fin 64, ea (ix2 (i 0 : Fin 800000) k) * w (ix2 k (i 1 : Fin 128)))
    + brow (ix2 (0 : Fin 1) (i 1 : Fin 128))) 0

/-- The hidden row of node n: max (Σ_k' (x n k' + ag n k') · w1 k' k + b1 k, 0). -/
def ginHidden (x ag : A2 50000 128) (w1 : A2 128 128) (b1row : A2 1 128) (n : Fin 50000) (k : Fin 128) : EReal :=
  max ((∑ k' : Fin 128, (x (ix2 n k') + ag (ix2 n k')) * w1 (ix2 k' k)) + b1row (ix2 (0 : Fin 1) k)) 0

/-- The node update: max (Σ_k hidden n k · w2 k j + b2 j, 0). -/
def gin (x ag : A2 50000 128) (w1 : A2 128 128) (b1row : A2 1 128) (w2 : A2 128 128) (b2row : A2 1 128) : A2 50000 128 :=
  fun i => max ((∑ k : Fin 128, ginHidden x ag w1 b1row (i 0 : Fin 50000) k * w2 (ix2 k (i 1 : Fin 128)))
    + b2row (ix2 (0 : Fin 1) (i 1 : Fin 128))) 0

/-- The scorer's hidden row of edge e: max (Σ_k' xs e k' · wa k' k + Σ_k' xd e k' · wb k' k + b1 k, 0). -/
def predHidden (xs xd : A2 800000 128) (wa wb : A2 128 128) (b1row : A2 1 128) (e : Fin 800000) (k : Fin 128) : EReal :=
  max (((∑ k' : Fin 128, xs (ix2 e k') * wa (ix2 k' k)) + (∑ k' : Fin 128, xd (ix2 e k') * wb (ix2 k' k)))
    + b1row (ix2 (0 : Fin 1) k)) 0

/-- The scorer with a square second weight and a row bias (all 128 output columns). -/
def pred2d (xs xd : A2 800000 128) (wa wb : A2 128 128) (b1row : A2 1 128) (w2 : A2 128 128) (b2row : A2 1 128) :
    A2 800000 128 :=
  fun i => (∑ k : Fin 128, predHidden xs xd wa wb b1row (i 0 : Fin 800000) k * w2 (ix2 k (i 1 : Fin 128)))
    + b2row (ix2 (0 : Fin 1) (i 1 : Fin 128))

/-- The score of edge e: Σ_k hidden e k · p2 k + pb2. -/
def predCol (xs xd : A2 800000 128) (wa wb : A2 128 128) (b1row : A2 1 128) (w2col : A1 128) (b2 : EReal) : A1 800000 :=
  fun e => (∑ k : Fin 128, predHidden xs xd wa wb b1row (e 0 : Fin 800000) k * w2col (ix1 k)) + b2

/-- Column 0 of the padded scorer is the scorer, when the padded weight's column 0 is p2 and the padded bias's
    entry 0 is pb2. -/
theorem pred2d_col0 (xs xd : A2 800000 128) (wa wb : A2 128 128) (b1row : A2 1 128) (w2 : A2 128 128) (b2row : A2 1 128)
    (w2col : A1 128) (b2 : EReal) (hw : ∀ k : Fin 128, w2 (ix2 k (0 : Fin 128)) = w2col (ix1 k))
    (hb : b2row (ix2 (0 : Fin 1) (0 : Fin 128)) = b2) (e : Fin 800000) :
    pred2d xs xd wa wb b1row w2 b2row (ix2 e (0 : Fin 128)) = predCol xs xd wa wb b1row w2col b2 (ix1 e) := by
  unfold pred2d predCol
  simp only [hw, hb]

/-! ## The parameters read out of the stacked inputs -/

/-- Layer l's edge weight, bias row, and the two perceptron weights and bias rows. -/
def wE (a3 : A3 3 64 128) (l : Fin 3) : A2 64 128 := fun i => a3 (ix3 l (i 0 : Fin 64) (i 1 : Fin 128))
def wN (a5 : A3 3 128 128) (l : Fin 3) : A2 128 128 := fun i => a5 (ix3 l (i 0 : Fin 128) (i 1 : Fin 128))
def bRow (a4 : A2 3 128) (l : Fin 3) : A2 1 128 := fun i => a4 (ix2 l (i 1 : Fin 128))
/-- The scorer's first weight, top and bottom halves; its bias as a row; its second weight as a vector; its last bias. -/
def pTop (a9 : A2 256 128) : A2 128 128 := fun i => a9 (ix2 (⟨(i 0 : Fin 128).val, Nat.lt_of_lt_of_le (i 0 : Fin 128).isLt (by decide)⟩ : Fin 256) (i 1 : Fin 128))
def pBot (a9 : A2 256 128) : A2 128 128 := fun i => a9 (ix2 (⟨128 + (i 0 : Fin 128).val, Nat.add_lt_add_left (i 0 : Fin 128).isLt 128⟩ : Fin 256) (i 1 : Fin 128))
def vRow (a10 : A1 128) : A2 1 128 := fun i => a10 (ix1 (i 1 : Fin 128))
def pCol (a11 : A2 128 1) : A1 128 := fun j => a11 (ix2 (j 0 : Fin 128) (0 : Fin 1))

/-! ## The whole network -/

/-- One layer over a gather GS (node rows along the edges' sources) and a scatter-add SC (edge rows into nodes). -/
def layer (GS : A2 50000 128 → A2 800000 128) (SC : A2 800000 128 → A2 50000 128)
    (a2 : A2 800000 64) (a3 : A3 3 64 128) (a4 : A2 3 128) (a5 : A3 3 128 128) (a6 : A2 3 128) (a7 : A3 3 128 128)
    (a8 : A2 3 128) (l : Fin 3) (x : A2 50000 128) : A2 50000 128 :=
  gin x (SC (msg a2 (GS x) (wE a3 l) (bRow a4 l))) (wN a5 l) (bRow a6 l) (wN a7 l) (bRow a8 l)

/-- The scores of all edges: three layers, then the scorer on the rows gathered at sources (GS) and destinations (GD). -/
def out (GS GD : A2 50000 128 → A2 800000 128) (SC : A2 800000 128 → A2 50000 128)
    (a0 : A2 50000 128) (a2 : A2 800000 64) (a3 : A3 3 64 128) (a4 : A2 3 128) (a5 : A3 3 128 128) (a6 : A2 3 128)
    (a7 : A3 3 128 128) (a8 : A2 3 128) (a9 : A2 256 128) (a10 : A1 128) (a11 : A2 128 1) (a12 : A1 1) : A1 800000 :=
  let x3 := layer GS SC a2 a3 a4 a5 a6 a7 a8 2 (layer GS SC a2 a3 a4 a5 a6 a7 a8 1 (layer GS SC a2 a3 a4 a5 a6 a7 a8 0 a0))
  predCol (GS x3) (GD x3) (pTop a9) (pBot a9) (vRow a10) (pCol a11) (a12 (ix1 (0 : Fin 1)))

end Cert.Gnn

end
-- ==== Proof.KDefs.lean ====
/-
  The index vectors of the edges, the row gather in fill mode, and the accumulating scatter, as the kernel's host code
  spells them.

  Row 0 of the edge list holds the source node of every edge and row 1 its destination.  A gather of node rows along
  an index vector first wraps negative entries by the number of nodes (50000) and reads the table at the result, the
  start row clamped into range; in fill mode it then keeps a row only where the wrapped index lies in [0, 49999]
  and puts the NaN pattern elsewhere.  The sum of edge rows into their destination nodes starts from a zero table.
-/
import proofs.«402358_j61787399520742_1_alg».proof.KernelIdeal
import proofs.«402358_j61787399520742_1_alg».proof.Proof.Gen.KernelIdeal
import Idealize.ShloMosaic.PureOps.Ideal

noncomputable section

namespace Cert.KernelIdeal.Host

open Cert.KernelIdeal Cert.KernelIdeal.Facts₀ Cert.KernelIdeal.Facts Idealize.ShloMosaic

/-- The edges' source nodes: row 0 of the edge list, as a vector. -/
def srcOf (a1 : IVec S2x800000 32) : IVec S800000 32 :=
  shapeCast S800000 (extractStridedSlice S1x800000 ![0, 0] a1 slices_S2x800000_S1x800000_0_0) shapeCasts_S1x800000_S800000

/-- The edges' destination nodes: row 1 of the edge list, as a vector. -/
def dstOf (a1 : IVec S2x800000 32) : IVec S800000 32 :=
  shapeCast S800000 (extractStridedSlice S1x800000 ![1, 0] a1 slices_S2x800000_S1x800000_1_0) shapeCasts_S1x800000_S800000

/-- The start-index column of a row gather: negative entries wrapped by 50000, one index per row. -/
def idxCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The row gather: row e of the result is the table's row at the (clamped) start index of e. -/
def rowGather (x : FVec Ideal S50000x128 .f32) (s : IVec S800000 32) : FVec Ideal S800000x128 .f32 :=
  Host.gather gather_S50000x128_S800000x1_S800000x128_1_0_n_n_0_1_1128 x (idxCol s)

/-- The row mask of fill mode: 1 where the wrapped index is in [0, 49999]. -/
def inRange (s : IVec S800000 32) : IVec S800000 1 :=
  Host.reduce IntOp.andi
    (andi (cmpi .sge (idxCol s) (broadcastInDim S800000x1 ![] bcast_S_S800000x1 (constantI S_ 32 0#32)))
      (cmpi .sle (idxCol s) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The row gather in fill mode: the gathered row where the index is in range, the NaN pattern elsewhere. -/
def takeFill (x : FVec Ideal S50000x128 .f32) (s : IVec S800000 32) : FVec Ideal S800000x128 .f32 :=
  select (broadcastInDim S800000x128 ![0] bcast_S800000_S800000x128_0 (inRange s))
    (rowGather x s)
    (broadcastInDim S800000x128 ![] bcast_S_S800000x128 (constant S_ .f32 0x7FC00000#32))

/-- The edge rows u summed into the nodes d names, from a zero table. -/
def scatAdd (d : IVec S800000 32) (u : FVec Ideal S800000x128 .f32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d) u

end Cert.KernelIdeal.Host

end
-- ==== Proof.KRegion0.lean ====
/-
  The edge messages of one layer, as the layer's edge-message launch leaves them.

  The launch walks the 800000 edges in 200 blocks of 4000 rows.  At block t it stages rows 4000·t … 4000·t + 3999 of
  the edge attributes and of the node rows gathered along the edges' sources, the whole 64 × 128 weight and the one-row
  bias, and stores max (xs + ea · W + b, 0) for those rows: the product is a sum over the 64 attribute columns into a
  zero accumulator, the bias row is spread over the rows.  Every entry it stores is the message of its edge
  (row p of block t is edge 4000·t + p), the 200 blocks tile the array, so the array ends holding the messages of all
  edges, whatever it held before.
-/
import proofs.«402358_j61787399520742_1_alg».proof.Proof.Gen.KernelIdeal.Frame
import proofs.«402358_j61787399520742_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-! ## The product inside the body: the dot's operand indices, axis by axis -/

theorem lhs_mm0_0 (i : S4000x128.Idx) (q : dot_S4000x64_S64x128_S4000x128_1_0_0_1_n_n.contr.Idx) :
    (dot_S4000x64_S64x128_S4000x128_1_0_0_1_n_n.lhsIdx i q 0).val = (i 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
theorem lhs_mm0_1 (i : S4000x128.Idx) (q : dot_S4000x64_S64x128_S4000x128_1_0_0_1_n_n.contr.Idx) :
    (dot_S4000x64_S64x128_S4000x128_1_0_0_1_n_n.lhsIdx i q 1).val = (q ⟨0, by decide⟩).val :=
  dot_S4000x64_S64x128_S4000x128_1_0_0_1_n_n.lhsIdx_val_of_single rfl i q
theorem rhs_mm0_0 (i : S4000x128.Idx) (q : dot_S4000x64_S64x128_S4000x128_1_0_0_1_n_n.contr.Idx) :
    (dot_S4000x64_S64x128_S4000x128_1_0_0_1_n_n.rhsIdx i q 0).val = (q ⟨0, by decide⟩).val :=
  dot_S4000x64_S64x128_S4000x128_1_0_0_1_n_n.rhsIdx_val_of_single rfl i q
theorem rhs_mm0_1 (i : S4000x128.Idx) (q : dot_S4000x64_S64x128_S4000x128_1_0_0_1_n_n.contr.Idx) :
    (dot_S4000x64_S64x128_S4000x128_1_0_0_1_n_n.rhsIdx i q 1).val = (i 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

/-- The block product into a zero accumulator, at row p and column q: Σ_k l p k · r k q. -/
theorem mm0_apply (l : FVec Ideal S4000x64 .bf16) (r : FVec Ideal S64x128 .bf16) (p : Fin 4000) (q : Fin 128) :
    matmul dot_S4000x64_S64x128_S4000x128_1_0_0_1_n_n none l r (constant (F := Ideal) S4000x128 .f32 0x00000000#32) (ix2 p q)
      = ∑ k : Fin 64, l (ix2 p k) * r (ix2 k q) := by
  show FloatOps.matmul dot_S4000x64_S64x128_S4000x128_1_0_0_1_n_n none l r (constant (F := Ideal) S4000x128 .f32 0x00000000#32) (ix2 p q) = _
  rw [Ideal.matmul_constant_zero_apply, ← Equiv.sum_comp (ValueIdx.contrEquiv1 dot_S4000x64_S64x128_S4000x128_1_0_0_1_n_n 64 rfl rfl).symm]
  refine Finset.sum_congr rfl fun k _ => ?_
  have hk := ValueIdx.contrEquiv1_symm_val dot_S4000x64_S64x128_S4000x128_1_0_0_1_n_n 64 rfl rfl k
  have el : dot_S4000x64_S64x128_S4000x128_1_0_0_1_n_n.lhsIdx (ix2 p q) ((ValueIdx.contrEquiv1 dot_S4000x64_S64x128_S4000x128_1_0_0_1_n_n 64 rfl rfl).symm k) = ix2 p k := funext fun a => Fin.ext (by
    match a with
    | ⟨0, _⟩ => exact lhs_mm0_0 _ _
    | ⟨1, _⟩ => exact (lhs_mm0_1 _ _).trans hk)
  have er : dot_S4000x64_S64x128_S4000x128_1_0_0_1_n_n.rhsIdx (ix2 p q) ((ValueIdx.contrEquiv1 dot_S4000x64_S64x128_S4000x128_1_0_0_1_n_n 64 rfl rfl).symm k) = ix2 k q := funext fun a => Fin.ext (by
    match a with
    | ⟨0, _⟩ => exact (rhs_mm0_0 _ _).trans hk
    | ⟨1, _⟩ => exact rhs_mm0_1 _ _)
  rw [el, er]

/-- The bias row spread over the block's rows, at row p and column q: the row's entry q. -/
theorem brow0_apply (b : FVec Ideal S1x128 .f32) (p : Fin 4000) (q : Fin 128) :
    broadcastTo S4000x128 b broadcasts_S1x128_S4000x128 (ix2 p q) = b (ix2 (0 : Fin 1) q) := by
  refine broadcastTo_apply b broadcasts_S1x128_S4000x128 (ix2 p q) (ix2 (0 : Fin 1) q) fun a => ?_
  match a with
  | ⟨0, _⟩ => rfl
  | ⟨1, _⟩ => rfl

/-- The body's stored block at row p and column q:
    max (xs p q + Σ_k ea p k · w k q + b 0 q, 0). -/
theorem pay0_apply (x0 : FVec Ideal S4000x64 .bf16) (x2 : FVec Ideal S64x128 .bf16) (x5 : FVec Ideal S4000x128 .f32)
    (x8 : FVec Ideal S1x128 .f32) (p : Fin 4000) (q : Fin 128) :
    k0_pay1 (F := Ideal) x0 x2 x5 x8 (ix2 p q)
      = max ((x5 (ix2 p q) + ∑ k : Fin 64, x0 (ix2 p k) * x2 (ix2 k q)) + x8 (ix2 (0 : Fin 1) q)) 0 := by
  unfold k0_pay1
  simp only [shapeCast_self]
  rw [maximumf_apply, addf_apply, addf_apply, broadcast_apply, mm0_apply, brow0_apply]
  show max _ (Ideal.ofBits .f32 0x00000000#32) = _
  rw [Ideal.ofBits_zero_f32]

variable (V : (c : Dev nD) → (b : Ref sig .tc) → Buf (Elt Ideal) ((c : Thread nD τ).loc b))

/-! ## One stored entry is one edge's message -/

/-- Row p of block r is edge r · 4000 + p: when the staged blocks hold those rows of the edge attributes and of the
    gathered node rows, and the weight and the bias row whole, the stored entry (p, q) is the message of that edge at
    feature q. -/
theorem pay0_msg (x0 : FVec Ideal S4000x64 .bf16) (x1 : FVec Ideal S4000x128 .f32) (x2 : FVec Ideal S64x128 .bf16)
    (x3 : FVec Ideal S1x128 .f32) (ea : Cert.Gnn.A2 800000 64) (xs : Cert.Gnn.A2 800000 128) (w : Cert.Gnn.A2 64 128)
    (b : Cert.Gnn.A2 1 128) (r : Nat)
    (h0 : ∀ (p : Fin 4000) (k : Fin 64) (e : Fin 800000), e.val = r * 4000 + p.val → x0 (ix2 p k) = ea (ix2 e k))
    (h1 : ∀ (p : Fin 4000) (q : Fin 128) (e : Fin 800000), e.val = r * 4000 + p.val → x1 (ix2 p q) = xs (ix2 e q))
    (h2 : ∀ (k : Fin 64) (q : Fin 128), x2 (ix2 k q) = w (ix2 k q))
    (h3 : ∀ q : Fin 128, x3 (ix2 (0 : Fin 1) q) = b (ix2 (0 : Fin 1) q))
    (j : S4000x128.Idx) (i : S800000x128.Idx) (hi0 : (i 0).val = r * 4000 + (j 0).val) (hi1 : (i 1).val = (j 1).val) :
    k0_pay1 (F := Ideal) x0 x2 x1 x3 j = Cert.Gnn.msg ea xs w b i := by
  obtain ⟨p, q, rfl⟩ : ∃ (p : Fin 4000) (q : Fin 128), j = ix2 p q := ⟨j 0, j 1, eq_ix2 j⟩
  obtain ⟨e, q', rfl⟩ : ∃ (e : Fin 800000) (q' : Fin 128), i = ix2 e q' := ⟨i 0, i 1, eq_ix2 i⟩
  obtain rfl : q' = q := Fin.ext hi1
  have he : e.val = r * 4000 + p.val := hi0
  have hs : (∑ k : Fin 64, x0 (ix2 p k) * x2 (ix2 k q')) = ∑ k : Fin 64, ea (ix2 e k) * w (ix2 k q') :=
    Finset.sum_congr rfl fun k _ => by rw [h0 p k e he, h2 k q']
  rw [pay0_apply, hs, h1 p q' e he, h3 q']
  rfl

/-! ## From blocks to the array -/

theorem hz0 : (![0, 0] : Fin 2 → Nat) = fun _ => 0 := funext fun a => by fin_cases a <;> rfl

/-- The block indices over the grid: at point t the edge attributes', the gathered rows' and the result's blocks are
    block row t, the weight and the bias row are whole. -/
theorem idx_facts0 : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point t writes back is block t of the messages of the arrays as the region finds them. -/
theorem flushed0_eq (c : Dev nD) (t : Fin cfg0.N) :
    (dat0 (F := Ideal) V c).flushed 4 t = ((cfg0.win 4).blk t).view.read (Elt Ideal)
      (Cert.Gnn.msg (V c main_v4 : S800000x64.Idx → EReal) (V c main_v5 : S800000x128.Idx → EReal)
        (V c main_v8 : S64x128.Idx → EReal) (V c main_v11 : S1x128.Idx → EReal)) := by
  show (cfg0.win 4).cut (grid0.coords t) ((dat0 (F := Ideal) V c).after 4 t) = _
  rw [after0_4]
  unfold out0_4
  rw [View.canon_unit_zero hz0]
  simp only [View.ld_unit_zero (S := S4000x64) hz0, View.ld_unit_zero (S := S64x128) hz0,
    View.ld_unit_zero (S := S4000x128) hz0, View.ld_unit_zero (S := S1x128) hz0]
  obtain ⟨f00, f01, f10, f11, f20, f21, f30, f31, f40, f41⟩ := idx_facts0 t
  funext j
  have hj0 : (j 0).val < 4000 := (j 0).isLt
  have hj1 : (j 1).val < 128 := (j 1).isLt
  refine pay0_msg (iblk0 V c 0 t) (iblk0 V c 1 t) (iblk0 V c 2 t) (iblk0 V c 3 t) (V c main_v4) (V c main_v5)
    (V c main_v8) (V c main_v11) (win0_4.index t (0 : Fin 2)) ?_ ?_ ?_ ?_
    ((cfg0.win 4).xinj (grid0.coords t) j) (((cfg0.win 4).blk t).view.emb j) ?_ ?_
  · intro p k e he
    show V c main_v4 (((cfg0.win 0).blk t).view.emb (ix2 p k)) = V c main_v4 (ix2 e k)
    refine congrArg _ (funext fun a => Fin.ext ?_)
    match a with
    | ⟨0, _⟩ => show win0_0.index t (0 : Fin 2) * 4000 + 1 * p.val = e.val; omega
    | ⟨1, _⟩ => show win0_0.index t (1 : Fin 2) * 64 + 1 * k.val = k.val; omega
  · intro p q e he
    show V c main_v5 (((cfg0.win 1).blk t).view.emb (ix2 p q)) = V c main_v5 (ix2 e q)
    refine congrArg _ (funext fun a => Fin.ext ?_)
    match a with
    | ⟨0, _⟩ => show win0_1.index t (0 : Fin 2) * 4000 + 1 * p.val = e.val; omega
    | ⟨1, _⟩ => show win0_1.index t (1 : Fin 2) * 128 + 1 * q.val = q.val; omega
  · intro k q
    show V c main_v8 (((cfg0.win 2).blk t).view.emb (ix2 k q)) = V c main_v8 (ix2 k q)
    refine congrArg _ (funext fun a => Fin.ext ?_)
    match a with
    | ⟨0, _⟩ => show win0_2.index t (0 : Fin 2) * 64 + 1 * k.val = k.val; omega
    | ⟨1, _⟩ => show win0_2.index t (1 : Fin 2) * 128 + 1 * q.val = q.val; omega
  · intro q
    show V c main_v11 (((cfg0.win 3).blk t).view.emb (ix2 (0 : Fin 1) q)) = V c main_v11 (ix2 (0 : Fin 1) q)
    refine congrArg _ (funext fun a => Fin.ext ?_)
    match a with
    | ⟨0, _⟩ => show win0_3.index t (0 : Fin 2) * 1 + 1 * 0 = 0; omega
    | ⟨1, _⟩ => show win0_3.index t (1 : Fin 2) * 128 + 1 * q.val = q.val; omega
  · show win0_4.index t (0 : Fin 2) * 4000 + 1 * (j 0).val = win0_4.index t (0 : Fin 2) * 4000 + (j 0).val; omega
  · show win0_4.index t (1 : Fin 2) * 128 + 1 * (j 1).val = (j 1).val; omega

/-- An edge-feature index is in point t's block iff each coordinate is in the block's range on its axis. -/
theorem mem_blk0 (t : Fin cfg0.N) (i : S800000x128.Idx) :
    i ∈ ((cfg0.win 4).blk t).view.set ↔ ∀ a : Fin 2, win0_4.index t a * S4000x128.size a ≤ (i a).val
      ∧ (i a).val < win0_4.index t a * S4000x128.size a + S4000x128.size a := by
  show i ∈ ((View.whole main_v12).slice (win0_4.rect t)).set ↔ _
  rw [View.set_slice_whole, Rect.mem_set_unit]
  exact Iff.rfl

/-- Edge e lies in the block of point e / 4000, which is written back. -/
theorem cover0 (i : S800000x128.Idx) :
    ∃ t : Fin cfg0.N, (cfg0.win 4).flush t = true ∧ i ∈ ((cfg0.win 4).blk t).view.set := by
  have hi0 : (i 0).val < 800000 := (i 0).isLt
  have hi1 : (i 1).val < 128 := (i 1).isLt
  obtain ⟨t, ht⟩ : ∃ t : Fin cfg0.N, t.val = (i 0).val / 4000 :=
    ⟨⟨(i 0).val / 4000, by rw [show cfg0.N = 200 from N_0]; omega⟩, rfl⟩
  obtain ⟨-, -, -, -, -, -, -, -, f40, f41⟩ := idx_facts0 t
  refine ⟨t, flush0_4 t, ?_⟩
  rw [mem_blk0]
  intro a
  match a with
  | ⟨0, _⟩ =>
    show win0_4.index t (0 : Fin 2) * 4000 ≤ (i 0).val ∧ (i 0).val < win0_4.index t (0 : Fin 2) * 4000 + 4000
    omega
  | ⟨1, _⟩ =>
    show win0_4.index t (1 : Fin 2) * 128 ≤ (i 1).val ∧ (i 1).val < win0_4.index t (1 : Fin 2) * 128 + 128
    omega

/-- The message array after the region: every edge's message, of the arrays as the region finds them. -/
theorem final0 (c : Dev nD) :
    (dat0 (F := Ideal) V c).arrAt 4 cfg0.N
      = Cert.Gnn.msg (V c main_v4 : S800000x64.Idx → EReal) (V c main_v5 : S800000x128.Idx → EReal)
          (V c main_v8 : S64x128.Idx → EReal) (V c main_v11 : S1x128.Idx → EReal) :=
  (dat0 (F := Ideal) V c).arrAt_eq_of_cover 4 _ (fun t _ => flushed0_eq V c t) cover0

end Cert.KernelIdeal.RegionValue

end
-- ==== Proof.KRegion1.lean ====
/-
  The node update of one message-passing layer, as the kernel computes it: the grid walks the 25 row blocks of 2000 nodes;
  at each block the body forms max (max ((x + a) · W1 + b1, 0) · W2 + b2, 0) from the block's rows of the node features x
  and of the aggregated messages a and from the whole weights and bias rows, and writes the block back.  Here: each matrix
  product read at a row and a column as a sum over the 128 contracted entries; the body's result at a row and a column;
  what one grid point writes back as the block of the index-by-index node update Cert.Gnn.gin of the arrays the region
  finds; every row of the node array in the block of grid point row / 2000; hence the array after the region is gin of
  the arrays the region finds.
-/
import proofs.«402358_j61787399520742_1_alg».proof.Proof.Gen.KernelIdeal.Frame
import proofs.«402358_j61787399520742_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-! ## The matrix product of a row block, read at an index -/

theorem lhs_gin1_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_gin1_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_gin1_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_gin1_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000,128] by [128,128] product into a zero accumulator, at row p and column q: Σ_k l p k · r k q. -/
theorem matmul_gin1 (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_gin1_0 _ _
    | ⟨1, _⟩ => exact (lhs_gin1_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_gin1_0 _ _).trans hk
    | ⟨1, _⟩ => exact rhs_gin1_1 _ _)
  rw [el, er]

/-- A [1,128] row spread over 2000 rows, at row p and column q, is the row's entry q. -/
theorem rowbc_gin1 (x : FVec Ideal S1x128 .f32) (p : Fin 2000) (q : Fin 128) :
    broadcastTo S2000x128 x broadcasts_S1x128_S2000x128 (ix2 p q) = x (ix2 (0 : Fin 1) q) :=
  broadcastTo_apply x broadcasts_S1x128_S2000x128 (ix2 p q) (ix2 (0 : Fin 1) q) (fun a => match a with
    | ⟨0, _⟩ => rfl
    | ⟨1, _⟩ => rfl)

theorem zero_gin1 : Scalar.ofBits (F := Ideal) .f32 0x00000000#32 = (0 : EReal) := Ideal.ofBits_zero_f32

/-! ## The body's payload at an index -/

/-- The node update of one row block: max (Σ_k max (Σ_k' (x + a) p k' · w1 k' k + b1 k, 0) · w2 k q + b2 q, 0). -/
theorem pay_gin1 (v0 v1 : Vec Ideal S2000x128 .f32) (v5 : Vec Ideal S128x128 .bf16) (v8 : Vec Ideal S1x128 .f32)
    (v15 : Vec Ideal S128x128 .bf16) (v18 : Vec Ideal S1x128 .f32) (p : Fin 2000) (q : Fin 128) :
    k1_pay1 (F := Ideal) v0 v1 v5 v8 v15 v18 (ix2 p q)
      = max ((∑ k : Fin 128, (max ((∑ k' : Fin 128, (v0 (ix2 p k') + v1 (ix2 p k')) * v5 (ix2 k' k)) + v8 (ix2 (0 : Fin 1) k)) 0) * v15 (ix2 k q))
          + v18 (ix2 (0 : Fin 1) q)) 0 := by
  unfold k1_pay1
  simp only [shapeCast_self]
  simp only [maximumf_apply, addf_apply, truncf_apply, broadcast_apply, matmul_gin1, rowbc_gin1, zero_gin1]

/-! ## One grid point's block -/

variable (V : (c : Dev nD) → (b : Ref sig .tc) → Buf (Elt Ideal) ((c : Thread nD τ).loc b))

theorem hz_gin1 : (![0, 0] : Fin 2 → Nat) = fun _ => 0 := funext fun a => by fin_cases a <;> rfl

/-- The payload of a row block whose rows are rows r·2000 … r·2000 + 1999 of the node arrays, the weights whole. -/
theorem point_gin1 (x ag : S50000x128.Idx → EReal) (w1 : S128x128.Idx → EReal) (b1 : S1x128.Idx → EReal)
    (w2 : S128x128.Idx → EReal) (b2 : S1x128.Idx → EReal)
    (v0 v1 : Vec Ideal S2000x128 .f32) (v5 : Vec Ideal S128x128 .bf16) (v8 : Vec Ideal S1x128 .f32)
    (v15 : Vec Ideal S128x128 .bf16) (v18 : Vec Ideal S1x128 .f32) (r : Nat)
    (h0 : ∀ (y : S2000x128.Idx) (z : S50000x128.Idx), (z 0).val = r * 2000 + (y 0).val → (z 1).val = (y 1).val → v0 y = x z)
    (h1 : ∀ (y : S2000x128.Idx) (z : S50000x128.Idx), (z 0).val = r * 2000 + (y 0).val → (z 1).val = (y 1).val → v1 y = ag z)
    (h5 : v5 = w1) (h8 : v8 = b1) (h15 : v15 = w2) (h18 : v18 = b2)
    (j : S2000x128.Idx) (i : S50000x128.Idx) (hi0 : (i 0).val = r * 2000 + (j 0).val) (hi1 : (i 1).val = (j 1).val) :
    k1_pay1 (F := Ideal) v0 v1 v5 v8 v15 v18 j = Cert.Gnn.gin x ag w1 b1 w2 b2 i := by
  obtain ⟨p, q, rfl⟩ : ∃ (p : Fin 2000) (q : Fin 128), j = ix2 p q := ⟨j 0, j 1, eq_ix2 j⟩
  obtain ⟨n, q', rfl⟩ : ∃ (n : Fin 50000) (q' : Fin 128), i = ix2 n q' := ⟨i 0, i 1, eq_ix2 i⟩
  obtain rfl : q' = q := Fin.ext hi1
  subst h5 h8 h15 h18
  have e0 : ∀ k' : Fin 128, v0 (ix2 p k') = x (ix2 n k') := fun k' => h0 _ _ hi0 rfl
  have e1 : ∀ k' : Fin 128, v1 (ix2 p k') = ag (ix2 n k') := fun k' => h1 _ _ hi0 rfl
  rw [pay_gin1]
  unfold Cert.Gnn.gin Cert.Gnn.ginHidden
  simp only [e0, e1]

/-- The printed index maps over the grid: the two node windows and the output window sit at row block t, column block 0;
    the four parameter windows at block (0, 0). -/
theorem idx_gin1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What grid point t writes back is block t of the node update of the arrays as the region finds them. -/
theorem flushed_gin1 (c : Dev nD) (t : Fin cfg1.N) :
    (dat1 (F := Ideal) V c).flushed 6 t = ((cfg1.win 6).blk t).view.read (Elt Ideal)
      (Cert.Gnn.gin (V c main_arg0 : S50000x128.Idx → EReal) (V c main_v15 : S50000x128.Idx → EReal)
        (V c main_v18 : S128x128.Idx → EReal) (V c main_v21 : S1x128.Idx → EReal)
        (V c main_v24 : S128x128.Idx → EReal) (V c main_v27 : S1x128.Idx → EReal)) := by
  show (cfg1.win 6).cut (grid1.coords t) ((dat1 V c).after 6 t) = _
  rw [after1_6]
  unfold out1_6
  rw [View.canon_unit_zero hz_gin1]
  simp only [View.ld_unit_zero (S := S2000x128) hz_gin1, View.ld_unit_zero (S := S128x128) hz_gin1, View.ld_unit_zero (S := S1x128) hz_gin1]
  obtain ⟨e00, e01, e10, e11, e20, e21, e30, e31, e40, e41, e50, e51, e60, e61⟩ := idx_gin1 t
  funext j
  show k1_pay1 (F := Ideal) (iblk1 V c 0 t) (iblk1 V c 1 t) (iblk1 V c 2 t) (iblk1 V c 3 t) (iblk1 V c 4 t) (iblk1 V c 5 t) j
    = Cert.Gnn.gin (V c main_arg0 : S50000x128.Idx → EReal) (V c main_v15 : S50000x128.Idx → EReal)
        (V c main_v18 : S128x128.Idx → EReal) (V c main_v21 : S1x128.Idx → EReal)
        (V c main_v24 : S128x128.Idx → EReal) (V c main_v27 : S1x128.Idx → EReal) (((cfg1.win 6).blk t).view.emb j)
  refine point_gin1 (V c main_arg0) (V c main_v15) (V c main_v18) (V c main_v21) (V c main_v24) (V c main_v27)
    (iblk1 V c 0 t) (iblk1 V c 1 t) (iblk1 V c 2 t) (iblk1 V c 3 t) (iblk1 V c 4 t) (iblk1 V c 5 t) (win1_6.index t (0 : Fin 2))
    ?_ ?_ ?_ ?_ ?_ ?_ j (((cfg1.win 6).blk t).view.emb j) ?_ ?_
  · intro y z hz0 hz1
    show V c main_arg0 (((cfg1.win 0).blk t).view.emb y) = V c main_arg0 z
    refine congrArg _ (funext fun a => Fin.ext ?_)
    match a with
    | ⟨0, _⟩ => show win1_0.index t (0 : Fin 2) * 2000 + 1 * (y 0).val = (z 0).val; omega
    | ⟨1, _⟩ => show win1_0.index t (1 : Fin 2) * 128 + 1 * (y 1).val = (z 1).val; omega
  · intro y z hz0 hz1
    show V c main_v15 (((cfg1.win 1).blk t).view.emb y) = V c main_v15 z
    refine congrArg _ (funext fun a => Fin.ext ?_)
    match a with
    | ⟨0, _⟩ => show win1_1.index t (0 : Fin 2) * 2000 + 1 * (y 0).val = (z 0).val; omega
    | ⟨1, _⟩ => show win1_1.index t (1 : Fin 2) * 128 + 1 * (y 1).val = (z 1).val; omega
  · funext y
    show V c main_v18 (((cfg1.win 2).blk t).view.emb y) = V c main_v18 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_v21 (((cfg1.win 3).blk t).view.emb y) = V c main_v21 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  · funext y
    show V c main_v24 (((cfg1.win 4).blk t).view.emb y) = V c main_v24 y
    refine congrArg _ (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  · funext y
    show V c main_v27 (((cfg1.win 5).blk t).view.emb y) = V c main_v27 y
    refine congrArg _ (funext fun a => Fin.ext ?_)
    match a with
    | ⟨0, _⟩ => show win1_5.index t (0 : Fin 2) * 1 + 1 * (y 0).val = (y 0).val; omega
    | ⟨1, _⟩ => show win1_5.index t (1 : Fin 2) * 128 + 1 * (y 1).val = (y 1).val; omega
  · show win1_6.index t (0 : Fin 2) * 2000 + 1 * (j 0).val = win1_6.index t (0 : Fin 2) * 2000 + (j 0).val
    omega
  · show win1_6.index t (1 : Fin 2) * 128 + 1 * (j 1).val = (j 1).val
    omega

/-! ## From blocks to the array -/

/-- An index of the node array is in grid point t's block iff each coordinate is in the block's range on its axis. -/
theorem mem_blk_gin1 (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v28).slice (win1_6.rect t)).set ↔ _
  rw [View.set_slice_whole, Rect.mem_set_unit]
  exact Iff.rfl

/-- Row n of the node array lies in the block of grid point n / 2000. -/
theorem cover_gin1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have ht : (i 0).val / 2000 < cfg1.N := by
    show (i 0).val / 2000 < grid1.N
    rw [N_1]; omega
  obtain ⟨-, -, -, -, -, -, -, -, -, -, -, -, e60, e61⟩ := idx_gin1 ⟨(i 0).val / 2000, ht⟩
  have e60' : win1_6.index ⟨(i 0).val / 2000, ht⟩ (0 : Fin 2) = (i 0).val / 2000 := e60
  refine ⟨⟨(i 0).val / 2000, ht⟩, flush1_6 _, ?_⟩
  rw [mem_blk_gin1]
  intro a
  match a with
  | ⟨0, _⟩ =>
    show win1_6.index ⟨(i 0).val / 2000, ht⟩ (0 : Fin 2) * 2000 ≤ (i 0).val ∧ (i 0).val < win1_6.index ⟨(i 0).val / 2000, ht⟩ (0 : Fin 2) * 2000 + 2000
    omega
  | ⟨1, _⟩ =>
    show win1_6.index ⟨(i 0).val / 2000, ht⟩ (1 : Fin 2) * 128 ≤ (i 1).val ∧ (i 1).val < win1_6.index ⟨(i 0).val / 2000, ht⟩ (1 : Fin 2) * 128 + 128
    omega

/-- The node array after the region: the node update of the arrays as the region finds them. -/
theorem final1 (c : Dev nD) :
    (dat1 (F := Ideal) V c).arrAt 6 cfg1.N
      = Cert.Gnn.gin (V c main_arg0 : S50000x128.Idx → EReal) (V c main_v15 : S50000x128.Idx → EReal)
          (V c main_v18 : S128x128.Idx → EReal) (V c main_v21 : S1x128.Idx → EReal)
          (V c main_v24 : S128x128.Idx → EReal) (V c main_v27 : S1x128.Idx → EReal) :=
  (dat1 (F := Ideal) V c).arrAt_eq_of_cover 6 _ (fun t _ => flushed_gin1 V c t) cover_gin1

end Cert.KernelIdeal.RegionValue

end
-- ==== Proof.KRegion2.lean ====
/-
  The edge messages of one layer, as the layer's edge-message launch leaves them.

  The launch walks the 800000 edges in 200 blocks of 4000 rows.  At block t it stages rows 4000·t … 4000·t + 3999 of
  the edge attributes and of the node rows gathered along the edges' sources, the whole 64 × 128 weight and the one-row
  bias, and stores max (xs + ea · W + b, 0) for those rows: the product is a sum over the 64 attribute columns into a
  zero accumulator, the bias row is spread over the rows.  Every entry it stores is the message of its edge
  (row p of block t is edge 4000·t + p), the 200 blocks tile the array, so the array ends holding the messages of all
  edges, whatever it held before.
-/
import proofs.«402358_j61787399520742_1_alg».proof.Proof.Gen.KernelIdeal.Frame
import proofs.«402358_j61787399520742_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-! ## The product inside the body: the dot's operand indices, axis by axis -/

theorem lhs_mm2_0 (i : S4000x128.Idx) (q : dot_S4000x64_S64x128_S4000x128_1_0_0_1_n_n.contr.Idx) :
    (dot_S4000x64_S64x128_S4000x128_1_0_0_1_n_n.lhsIdx i q 0).val = (i 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
theorem lhs_mm2_1 (i : S4000x128.Idx) (q : dot_S4000x64_S64x128_S4000x128_1_0_0_1_n_n.contr.Idx) :
    (dot_S4000x64_S64x128_S4000x128_1_0_0_1_n_n.lhsIdx i q 1).val = (q ⟨0, by decide⟩).val :=
  dot_S4000x64_S64x128_S4000x128_1_0_0_1_n_n.lhsIdx_val_of_single rfl i q
theorem rhs_mm2_0 (i : S4000x128.Idx) (q : dot_S4000x64_S64x128_S4000x128_1_0_0_1_n_n.contr.Idx) :
    (dot_S4000x64_S64x128_S4000x128_1_0_0_1_n_n.rhsIdx i q 0).val = (q ⟨0, by decide⟩).val :=
  dot_S4000x64_S64x128_S4000x128_1_0_0_1_n_n.rhsIdx_val_of_single rfl i q
theorem rhs_mm2_1 (i : S4000x128.Idx) (q : dot_S4000x64_S64x128_S4000x128_1_0_0_1_n_n.contr.Idx) :
    (dot_S4000x64_S64x128_S4000x128_1_0_0_1_n_n.rhsIdx i q 1).val = (i 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

/-- The block product into a zero accumulator, at row p and column q: Σ_k l p k · r k q. -/
theorem mm2_apply (l : FVec Ideal S4000x64 .bf16) (r : FVec Ideal S64x128 .bf16) (p : Fin 4000) (q : Fin 128) :
    matmul dot_S4000x64_S64x128_S4000x128_1_0_0_1_n_n none l r (constant (F := Ideal) S4000x128 .f32 0x00000000#32) (ix2 p q)
      = ∑ k : Fin 64, l (ix2 p k) * r (ix2 k q) := by
  show FloatOps.matmul dot_S4000x64_S64x128_S4000x128_1_0_0_1_n_n none l r (constant (F := Ideal) S4000x128 .f32 0x00000000#32) (ix2 p q) = _
  rw [Ideal.matmul_constant_zero_apply, ← Equiv.sum_comp (ValueIdx.contrEquiv1 dot_S4000x64_S64x128_S4000x128_1_0_0_1_n_n 64 rfl rfl).symm]
  refine Finset.sum_congr rfl fun k _ => ?_
  have hk := ValueIdx.contrEquiv1_symm_val dot_S4000x64_S64x128_S4000x128_1_0_0_1_n_n 64 rfl rfl k
  have el : dot_S4000x64_S64x128_S4000x128_1_0_0_1_n_n.lhsIdx (ix2 p q) ((ValueIdx.contrEquiv1 dot_S4000x64_S64x128_S4000x128_1_0_0_1_n_n 64 rfl rfl).symm k) = ix2 p k := funext fun a => Fin.ext (by
    match a with
    | ⟨0, _⟩ => exact lhs_mm2_0 _ _
    | ⟨1, _⟩ => exact (lhs_mm2_1 _ _).trans hk)
  have er : dot_S4000x64_S64x128_S4000x128_1_0_0_1_n_n.rhsIdx (ix2 p q) ((ValueIdx.contrEquiv1 dot_S4000x64_S64x128_S4000x128_1_0_0_1_n_n 64 rfl rfl).symm k) = ix2 k q := funext fun a => Fin.ext (by
    match a with
    | ⟨0, _⟩ => exact (rhs_mm2_0 _ _).trans hk
    | ⟨1, _⟩ => exact rhs_mm2_1 _ _)
  rw [el, er]

/-- The bias row spread over the block's rows, at row p and column q: the row's entry q. -/
theorem brow2_apply (b : FVec Ideal S1x128 .f32) (p : Fin 4000) (q : Fin 128) :
    broadcastTo S4000x128 b broadcasts_S1x128_S4000x128 (ix2 p q) = b (ix2 (0 : Fin 1) q) := by
  refine broadcastTo_apply b broadcasts_S1x128_S4000x128 (ix2 p q) (ix2 (0 : Fin 1) q) fun a => ?_
  match a with
  | ⟨0, _⟩ => rfl
  | ⟨1, _⟩ => rfl

/-- The body's stored block at row p and column q:
    max (xs p q + Σ_k ea p k · w k q + b 0 q, 0). -/
theorem pay2_apply (x0 : FVec Ideal S4000x64 .bf16) (x2 : FVec Ideal S64x128 .bf16) (x5 : FVec Ideal S4000x128 .f32)
    (x8 : FVec Ideal S1x128 .f32) (p : Fin 4000) (q : Fin 128) :
    k2_pay1 (F := Ideal) x0 x2 x5 x8 (ix2 p q)
      = max ((x5 (ix2 p q) + ∑ k : Fin 64, x0 (ix2 p k) * x2 (ix2 k q)) + x8 (ix2 (0 : Fin 1) q)) 0 := by
  unfold k2_pay1
  simp only [shapeCast_self]
  rw [maximumf_apply, addf_apply, addf_apply, broadcast_apply, mm2_apply, brow2_apply]
  show max _ (Ideal.ofBits .f32 0x00000000#32) = _
  rw [Ideal.ofBits_zero_f32]

variable (V : (c : Dev nD) → (b : Ref sig .tc) → Buf (Elt Ideal) ((c : Thread nD τ).loc b))

/-! ## One stored entry is one edge's message -/

/-- Row p of block r is edge r · 4000 + p: when the staged blocks hold those rows of the edge attributes and of the
    gathered node rows, and the weight and the bias row whole, the stored entry (p, q) is the message of that edge at
    feature q. -/
theorem pay2_msg (x0 : FVec Ideal S4000x64 .bf16) (x1 : FVec Ideal S4000x128 .f32) (x2 : FVec Ideal S64x128 .bf16)
    (x3 : FVec Ideal S1x128 .f32) (ea : Cert.Gnn.A2 800000 64) (xs : Cert.Gnn.A2 800000 128) (w : Cert.Gnn.A2 64 128)
    (b : Cert.Gnn.A2 1 128) (r : Nat)
    (h0 : ∀ (p : Fin 4000) (k : Fin 64) (e : Fin 800000), e.val = r * 4000 + p.val → x0 (ix2 p k) = ea (ix2 e k))
    (h1 : ∀ (p : Fin 4000) (q : Fin 128) (e : Fin 800000), e.val = r * 4000 + p.val → x1 (ix2 p q) = xs (ix2 e q))
    (h2 : ∀ (k : Fin 64) (q : Fin 128), x2 (ix2 k q) = w (ix2 k q))
    (h3 : ∀ q : Fin 128, x3 (ix2 (0 : Fin 1) q) = b (ix2 (0 : Fin 1) q))
    (j : S4000x128.Idx) (i : S800000x128.Idx) (hi0 : (i 0).val = r * 4000 + (j 0).val) (hi1 : (i 1).val = (j 1).val) :
    k2_pay1 (F := Ideal) x0 x2 x1 x3 j = Cert.Gnn.msg ea xs w b i := by
  obtain ⟨p, q, rfl⟩ : ∃ (p : Fin 4000) (q : Fin 128), j = ix2 p q := ⟨j 0, j 1, eq_ix2 j⟩
  obtain ⟨e, q', rfl⟩ : ∃ (e : Fin 800000) (q' : Fin 128), i = ix2 e q' := ⟨i 0, i 1, eq_ix2 i⟩
  obtain rfl : q' = q := Fin.ext hi1
  have he : e.val = r * 4000 + p.val := hi0
  have hs : (∑ k : Fin 64, x0 (ix2 p k) * x2 (ix2 k q')) = ∑ k : Fin 64, ea (ix2 e k) * w (ix2 k q') :=
    Finset.sum_congr rfl fun k _ => by rw [h0 p k e he, h2 k q']
  rw [pay2_apply, hs, h1 p q' e he, h3 q']
  rfl

/-! ## From blocks to the array -/

theorem hz2 : (![0, 0] : Fin 2 → Nat) = fun _ => 0 := funext fun a => by fin_cases a <;> rfl

/-- The block indices over the grid: at point t the edge attributes', the gathered rows' and the result's blocks are
    block row t, the weight and the bias row are whole. -/
theorem idx_facts2 : ∀ t : Fin cfg2.N,
    win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point t writes back is block t of the messages of the arrays as the region finds them. -/
theorem flushed2_eq (c : Dev nD) (t : Fin cfg2.N) :
    (dat2 (F := Ideal) V c).flushed 4 t = ((cfg2.win 4).blk t).view.read (Elt Ideal)
      (Cert.Gnn.msg (V c main_v4 : S800000x64.Idx → EReal) (V c main_v29 : S800000x128.Idx → EReal)
        (V c main_v32 : S64x128.Idx → EReal) (V c main_v35 : S1x128.Idx → EReal)) := by
  show (cfg2.win 4).cut (grid2.coords t) ((dat2 (F := Ideal) V c).after 4 t) = _
  rw [after2_4]
  unfold out2_4
  rw [View.canon_unit_zero hz2]
  simp only [View.ld_unit_zero (S := S4000x64) hz2, View.ld_unit_zero (S := S64x128) hz2,
    View.ld_unit_zero (S := S4000x128) hz2, View.ld_unit_zero (S := S1x128) hz2]
  obtain ⟨f00, f01, f10, f11, f20, f21, f30, f31, f40, f41⟩ := idx_facts2 t
  funext j
  have hj0 : (j 0).val < 4000 := (j 0).isLt
  have hj1 : (j 1).val < 128 := (j 1).isLt
  refine pay2_msg (iblk2 V c 0 t) (iblk2 V c 1 t) (iblk2 V c 2 t) (iblk2 V c 3 t) (V c main_v4) (V c main_v29)
    (V c main_v32) (V c main_v35) (win2_4.index t (0 : Fin 2)) ?_ ?_ ?_ ?_
    ((cfg2.win 4).xinj (grid2.coords t) j) (((cfg2.win 4).blk t).view.emb j) ?_ ?_
  · intro p k e he
    show V c main_v4 (((cfg2.win 0).blk t).view.emb (ix2 p k)) = V c main_v4 (ix2 e k)
    refine congrArg _ (funext fun a => Fin.ext ?_)
    match a with
    | ⟨0, _⟩ => show win2_0.index t (0 : Fin 2) * 4000 + 1 * p.val = e.val; omega
    | ⟨1, _⟩ => show win2_0.index t (1 : Fin 2) * 64 + 1 * k.val = k.val; omega
  · intro p q e he
    show V c main_v29 (((cfg2.win 1).blk t).view.emb (ix2 p q)) = V c main_v29 (ix2 e q)
    refine congrArg _ (funext fun a => Fin.ext ?_)
    match a with
    | ⟨0, _⟩ => show win2_1.index t (0 : Fin 2) * 4000 + 1 * p.val = e.val; omega
    | ⟨1, _⟩ => show win2_1.index t (1 : Fin 2) * 128 + 1 * q.val = q.val; omega
  · intro k q
    show V c main_v32 (((cfg2.win 2).blk t).view.emb (ix2 k q)) = V c main_v32 (ix2 k q)
    refine congrArg _ (funext fun a => Fin.ext ?_)
    match a with
    | ⟨0, _⟩ => show win2_2.index t (0 : Fin 2) * 64 + 1 * k.val = k.val; omega
    | ⟨1, _⟩ => show win2_2.index t (1 : Fin 2) * 128 + 1 * q.val = q.val; omega
  · intro q
    show V c main_v35 (((cfg2.win 3).blk t).view.emb (ix2 (0 : Fin 1) q)) = V c main_v35 (ix2 (0 : Fin 1) q)
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * q.val = q.val; omega
  · show win2_4.index t (0 : Fin 2) * 4000 + 1 * (j 0).val = win2_4.index t (0 : Fin 2) * 4000 + (j 0).val; omega
  · show win2_4.index t (1 : Fin 2) * 128 + 1 * (j 1).val = (j 1).val; omega

/-- An edge-feature index is in point t's block iff each coordinate is in the block's range on its axis. -/
theorem mem_blk2 (t : Fin cfg2.N) (i : S800000x128.Idx) :
    i ∈ ((cfg2.win 4).blk t).view.set ↔ ∀ a : Fin 2, win2_4.index t a * S4000x128.size a ≤ (i a).val
      ∧ (i a).val < win2_4.index t a * S4000x128.size a + S4000x128.size a := by
  show i ∈ ((View.whole main_v36).slice (win2_4.rect t)).set ↔ _
  rw [View.set_slice_whole, Rect.mem_set_unit]
  exact Iff.rfl

/-- Edge e lies in the block of point e / 4000, which is written back. -/
theorem cover2 (i : S800000x128.Idx) :
    ∃ t : Fin cfg2.N, (cfg2.win 4).flush t = true ∧ i ∈ ((cfg2.win 4).blk t).view.set := by
  have hi0 : (i 0).val < 800000 := (i 0).isLt
  have hi1 : (i 1).val < 128 := (i 1).isLt
  obtain ⟨t, ht⟩ : ∃ t : Fin cfg2.N, t.val = (i 0).val / 4000 :=
    ⟨⟨(i 0).val / 4000, by rw [show cfg2.N = 200 from N_2]; omega⟩, rfl⟩
  obtain ⟨-, -, -, -, -, -, -, -, f40, f41⟩ := idx_facts2 t
  refine ⟨t, flush2_4 t, ?_⟩
  rw [mem_blk2]
  intro a
  match a with
  | ⟨0, _⟩ =>
    show win2_4.index t (0 : Fin 2) * 4000 ≤ (i 0).val ∧ (i 0).val < win2_4.index t (0 : Fin 2) * 4000 + 4000
    omega
  | ⟨1, _⟩ =>
    show win2_4.index t (1 : Fin 2) * 128 ≤ (i 1).val ∧ (i 1).val < win2_4.index t (1 : Fin 2) * 128 + 128
    omega

/-- The message array after the region: every edge's message, of the arrays as the region finds them. -/
theorem final2 (c : Dev nD) :
    (dat2 (F := Ideal) V c).arrAt 4 cfg2.N
      = Cert.Gnn.msg (V c main_v4 : S800000x64.Idx → EReal) (V c main_v29 : S800000x128.Idx → EReal)
          (V c main_v32 : S64x128.Idx → EReal) (V c main_v35 : S1x128.Idx → EReal) :=
  (dat2 (F := Ideal) V c).arrAt_eq_of_cover 4 _ (fun t _ => flushed2_eq V c t) cover2

end Cert.KernelIdeal.RegionValue

end
-- ==== Proof.KRegion3.lean ====
/-
  The node update of one message-passing layer, as the kernel computes it: the grid walks the 25 row blocks of 2000 nodes;
  at each block the body forms max (max ((x + a) · W1 + b1, 0) · W2 + b2, 0) from the block's rows of the node features x
  and of the aggregated messages a and from the whole weights and bias rows, and writes the block back.  Here: each matrix
  product read at a row and a column as a sum over the 128 contracted entries; the body's result at a row and a column;
  what one grid point writes back as the block of the index-by-index node update Cert.Gnn.gin of the arrays the region
  finds; every row of the node array in the block of grid point row / 2000; hence the array after the region is gin of
  the arrays the region finds.
-/
import proofs.«402358_j61787399520742_1_alg».proof.Proof.Gen.KernelIdeal.Frame
import proofs.«402358_j61787399520742_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-! ## The matrix product of a row block, read at an index -/

theorem lhs_gin3_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_gin3_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_gin3_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_gin3_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000,128] by [128,128] product into a zero accumulator, at row p and column q: Σ_k l p k · r k q. -/
theorem matmul_gin3 (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_gin3_0 _ _
    | ⟨1, _⟩ => exact (lhs_gin3_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_gin3_0 _ _).trans hk
    | ⟨1, _⟩ => exact rhs_gin3_1 _ _)
  rw [el, er]

/-- A [1,128] row spread over 2000 rows, at row p and column q, is the row's entry q. -/
theorem rowbc_gin3 (x : FVec Ideal S1x128 .f32) (p : Fin 2000) (q : Fin 128) :
    broadcastTo S2000x128 x broadcasts_S1x128_S2000x128 (ix2 p q) = x (ix2 (0 : Fin 1) q) :=
  broadcastTo_apply x broadcasts_S1x128_S2000x128 (ix2 p q) (ix2 (0 : Fin 1) q) (fun a => match a with
    | ⟨0, _⟩ => rfl
    | ⟨1, _⟩ => rfl)

theorem zero_gin3 : Scalar.ofBits (F := Ideal) .f32 0x00000000#32 = (0 : EReal) := Ideal.ofBits_zero_f32

/-! ## The body's payload at an index -/

/-- The node update of one row block: max (Σ_k max (Σ_k' (x + a) p k' · w1 k' k + b1 k, 0) · w2 k q + b2 q, 0). -/
theorem pay_gin3 (v0 v1 : Vec Ideal S2000x128 .f32) (v5 : Vec Ideal S128x128 .bf16) (v8 : Vec Ideal S1x128 .f32)
    (v15 : Vec Ideal S128x128 .bf16) (v18 : Vec Ideal S1x128 .f32) (p : Fin 2000) (q : Fin 128) :
    k3_pay1 (F := Ideal) v0 v1 v5 v8 v15 v18 (ix2 p q)
      = max ((∑ k : Fin 128, (max ((∑ k' : Fin 128, (v0 (ix2 p k') + v1 (ix2 p k')) * v5 (ix2 k' k)) + v8 (ix2 (0 : Fin 1) k)) 0) * v15 (ix2 k q))
          + v18 (ix2 (0 : Fin 1) q)) 0 := by
  unfold k3_pay1
  simp only [shapeCast_self]
  simp only [maximumf_apply, addf_apply, truncf_apply, broadcast_apply, matmul_gin3, rowbc_gin3, zero_gin3]

/-! ## One grid point's block -/

variable (V : (c : Dev nD) → (b : Ref sig .tc) → Buf (Elt Ideal) ((c : Thread nD τ).loc b))

theorem hz_gin3 : (![0, 0] : Fin 2 → Nat) = fun _ => 0 := funext fun a => by fin_cases a <;> rfl

/-- The payload of a row block whose rows are rows r·2000 … r·2000 + 1999 of the node arrays, the weights whole. -/
theorem point_gin3 (x ag : S50000x128.Idx → EReal) (w1 : S128x128.Idx → EReal) (b1 : S1x128.Idx → EReal)
    (w2 : S128x128.Idx → EReal) (b2 : S1x128.Idx → EReal)
    (v0 v1 : Vec Ideal S2000x128 .f32) (v5 : Vec Ideal S128x128 .bf16) (v8 : Vec Ideal S1x128 .f32)
    (v15 : Vec Ideal S128x128 .bf16) (v18 : Vec Ideal S1x128 .f32) (r : Nat)
    (h0 : ∀ (y : S2000x128.Idx) (z : S50000x128.Idx), (z 0).val = r * 2000 + (y 0).val → (z 1).val = (y 1).val → v0 y = x z)
    (h1 : ∀ (y : S2000x128.Idx) (z : S50000x128.Idx), (z 0).val = r * 2000 + (y 0).val → (z 1).val = (y 1).val → v1 y = ag z)
    (h5 : v5 = w1) (h8 : v8 = b1) (h15 : v15 = w2) (h18 : v18 = b2)
    (j : S2000x128.Idx) (i : S50000x128.Idx) (hi0 : (i 0).val = r * 2000 + (j 0).val) (hi1 : (i 1).val = (j 1).val) :
    k3_pay1 (F := Ideal) v0 v1 v5 v8 v15 v18 j = Cert.Gnn.gin x ag w1 b1 w2 b2 i := by
  obtain ⟨p, q, rfl⟩ : ∃ (p : Fin 2000) (q : Fin 128), j = ix2 p q := ⟨j 0, j 1, eq_ix2 j⟩
  obtain ⟨n, q', rfl⟩ : ∃ (n : Fin 50000) (q' : Fin 128), i = ix2 n q' := ⟨i 0, i 1, eq_ix2 i⟩
  obtain rfl : q' = q := Fin.ext hi1
  subst h5 h8 h15 h18
  have e0 : ∀ k' : Fin 128, v0 (ix2 p k') = x (ix2 n k') := fun k' => h0 _ _ hi0 rfl
  have e1 : ∀ k' : Fin 128, v1 (ix2 p k') = ag (ix2 n k') := fun k' => h1 _ _ hi0 rfl
  rw [pay_gin3]
  unfold Cert.Gnn.gin Cert.Gnn.ginHidden
  simp only [e0, e1]

/-- The printed index maps over the grid: the two node windows and the output window sit at row block t, column block 0;
    the four parameter windows at block (0, 0). -/
theorem idx_gin3 : ∀ t : Fin cfg3.N,
    win3_0.index t (0 : Fin 2) = win3_6.index t (0 : Fin 2) ∧ win3_0.index t (1 : Fin 2) = 0
    ∧ win3_1.index t (0 : Fin 2) = win3_6.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- What grid point t writes back is block t of the node update of the arrays as the region finds them. -/
theorem flushed_gin3 (c : Dev nD) (t : Fin cfg3.N) :
    (dat3 (F := Ideal) V c).flushed 6 t = ((cfg3.win 6).blk t).view.read (Elt Ideal)
      (Cert.Gnn.gin (V c main_v28 : S50000x128.Idx → EReal) (V c main_v39 : S50000x128.Idx → EReal)
        (V c main_v42 : S128x128.Idx → EReal) (V c main_v45 : S1x128.Idx → EReal)
        (V c main_v48 : S128x128.Idx → EReal) (V c main_v51 : S1x128.Idx → EReal)) := by
  show (cfg3.win 6).cut (grid3.coords t) ((dat3 V c).after 6 t) = _
  rw [after3_6]
  unfold out3_6
  rw [View.canon_unit_zero hz_gin3]
  simp only [View.ld_unit_zero (S := S2000x128) hz_gin3, View.ld_unit_zero (S := S128x128) hz_gin3, View.ld_unit_zero (S := S1x128) hz_gin3]
  obtain ⟨e00, e01, e10, e11, e20, e21, e30, e31, e40, e41, e50, e51, e60, e61⟩ := idx_gin3 t
  funext j
  show k3_pay1 (F := Ideal) (iblk3 V c 0 t) (iblk3 V c 1 t) (iblk3 V c 2 t) (iblk3 V c 3 t) (iblk3 V c 4 t) (iblk3 V c 5 t) j
    = Cert.Gnn.gin (V c main_v28 : S50000x128.Idx → EReal) (V c main_v39 : S50000x128.Idx → EReal)
        (V c main_v42 : S128x128.Idx → EReal) (V c main_v45 : S1x128.Idx → EReal)
        (V c main_v48 : S128x128.Idx → EReal) (V c main_v51 : S1x128.Idx → EReal) (((cfg3.win 6).blk t).view.emb j)
  refine point_gin3 (V c main_v28) (V c main_v39) (V c main_v42) (V c main_v45) (V c main_v48) (V c main_v51)
    (iblk3 V c 0 t) (iblk3 V c 1 t) (iblk3 V c 2 t) (iblk3 V c 3 t) (iblk3 V c 4 t) (iblk3 V c 5 t) (win3_6.index t (0 : Fin 2))
    ?_ ?_ ?_ ?_ ?_ ?_ j (((cfg3.win 6).blk t).view.emb j) ?_ ?_
  · intro y z hz0 hz1
    show V c main_v28 (((cfg3.win 0).blk t).view.emb y) = V c main_v28 z
    refine congrArg _ (funext fun a => Fin.ext ?_)
    match a with
    | ⟨0, _⟩ => show win3_0.index t (0 : Fin 2) * 2000 + 1 * (y 0).val = (z 0).val; omega
    | ⟨1, _⟩ => show win3_0.index t (1 : Fin 2) * 128 + 1 * (y 1).val = (z 1).val; omega
  · intro y z hz0 hz1
    show V c main_v39 (((cfg3.win 1).blk t).view.emb y) = V c main_v39 z
    refine congrArg _ (funext fun a => Fin.ext ?_)
    match a with
    | ⟨0, _⟩ => show win3_1.index t (0 : Fin 2) * 2000 + 1 * (y 0).val = (z 0).val; omega
    | ⟨1, _⟩ => show win3_1.index t (1 : Fin 2) * 128 + 1 * (y 1).val = (z 1).val; omega
  · funext y
    show V c main_v42 (((cfg3.win 2).blk t).view.emb y) = V c main_v42 y
    refine congrArg _ (funext fun a => Fin.ext ?_)
    match a with
    | ⟨0, _⟩ => show win3_2.index t (0 : Fin 2) * 128 + 1 * (y 0).val = (y 0).val; omega
    | ⟨1, _⟩ => show win3_2.index t (1 : Fin 2) * 128 + 1 * (y 1).val = (y 1).val; omega
  · funext y
    show V c main_v45 (((cfg3.win 3).blk t).view.emb y) = V c main_v45 y
    refine congrArg _ (funext fun a => Fin.ext ?_)
    match a with
    | ⟨0, _⟩ => show win3_3.index t (0 : Fin 2) * 1 + 1 * (y 0).val = (y 0).val; omega
    | ⟨1, _⟩ => show win3_3.index t (1 : Fin 2) * 128 + 1 * (y 1).val = (y 1).val; omega
  · funext y
    show V c main_v48 (((cfg3.win 4).blk t).view.emb y) = V c main_v48 y
    refine congrArg _ (funext fun a => Fin.ext ?_)
    match a with
    | ⟨0, _⟩ => show win3_4.index t (0 : Fin 2) * 128 + 1 * (y 0).val = (y 0).val; omega
    | ⟨1, _⟩ => show win3_4.index t (1 : Fin 2) * 128 + 1 * (y 1).val = (y 1).val; omega
  · funext y
    show V c main_v51 (((cfg3.win 5).blk t).view.emb y) = V c main_v51 y
    refine congrArg _ (funext fun a => Fin.ext ?_)
    match a with
    | ⟨0, _⟩ => show win3_5.index t (0 : Fin 2) * 1 + 1 * (y 0).val = (y 0).val; omega
    | ⟨1, _⟩ => show win3_5.index t (1 : Fin 2) * 128 + 1 * (y 1).val = (y 1).val; omega
  · show win3_6.index t (0 : Fin 2) * 2000 + 1 * (j 0).val = win3_6.index t (0 : Fin 2) * 2000 + (j 0).val
    omega
  · show win3_6.index t (1 : Fin 2) * 128 + 1 * (j 1).val = (j 1).val
    omega

/-! ## From blocks to the array -/

/-- An index of the node array is in grid point t's block iff each coordinate is in the block's range on its axis. -/
theorem mem_blk_gin3 (t : Fin cfg3.N) (i : S50000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v52).slice (win3_6.rect t)).set ↔ _
  rw [View.set_slice_whole, Rect.mem_set_unit]
  exact Iff.rfl

/-- Row n of the node array lies in the block of grid point n / 2000. -/
theorem cover_gin3 (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have ht : (i 0).val / 2000 < cfg3.N := by
    show (i 0).val / 2000 < grid3.N
    rw [N_3]; omega
  obtain ⟨-, -, -, -, -, -, -, -, -, -, -, -, e60, e61⟩ := idx_gin3 ⟨(i 0).val / 2000, ht⟩
  have e60' : win3_6.index ⟨(i 0).val / 2000, ht⟩ (0 : Fin 2) = (i 0).val / 2000 := e60
  refine ⟨⟨(i 0).val / 2000, ht⟩, flush3_6 _, ?_⟩
  rw [mem_blk_gin3]
  intro a
  match a with
  | ⟨0, _⟩ =>
    show win3_6.index ⟨(i 0).val / 2000, ht⟩ (0 : Fin 2) * 2000 ≤ (i 0).val ∧ (i 0).val < win3_6.index ⟨(i 0).val / 2000, ht⟩ (0 : Fin 2) * 2000 + 2000
    omega
  | ⟨1, _⟩ =>
    show win3_6.index ⟨(i 0).val / 2000, ht⟩ (1 : Fin 2) * 128 ≤ (i 1).val ∧ (i 1).val < win3_6.index ⟨(i 0).val / 2000, ht⟩ (1 : Fin 2) * 128 + 128
    omega

/-- The node array after the region: the node update of the arrays as the region finds them. -/
theorem final3 (c : Dev nD) :
    (dat3 (F := Ideal) V c).arrAt 6 cfg3.N
      = Cert.Gnn.gin (V c main_v28 : S50000x128.Idx → EReal) (V c main_v39 : S50000x128.Idx → EReal)
          (V c main_v42 : S128x128.Idx → EReal) (V c main_v45 : S1x128.Idx → EReal)
          (V c main_v48 : S128x128.Idx → EReal) (V c main_v51 : S1x128.Idx → EReal) :=
  (dat3 (F := Ideal) V c).arrAt_eq_of_cover 6 _ (fun t _ => flushed_gin3 V c t) cover_gin3

end Cert.KernelIdeal.RegionValue

end
-- ==== Proof.KRegion4.lean ====
/-
  The edge messages of one layer, as the layer's edge-message launch leaves them.

  The launch walks the 800000 edges in 200 blocks of 4000 rows.  At block t it stages rows 4000·t … 4000·t + 3999 of
  the edge attributes and of the node rows gathered along the edges' sources, the whole 64 × 128 weight and the one-row
  bias, and stores max (xs + ea · W + b, 0) for those rows: the product is a sum over the 64 attribute columns into a
  zero accumulator, the bias row is spread over the rows.  Every entry it stores is the message of its edge
  (row p of block t is edge 4000·t + p), the 200 blocks tile the array, so the array ends holding the messages of all
  edges, whatever it held before.
-/
import proofs.«402358_j61787399520742_1_alg».proof.Proof.Gen.KernelIdeal.Frame
import proofs.«402358_j61787399520742_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-! ## The product inside the body: the dot's operand indices, axis by axis -/

theorem lhs_mm4_0 (i : S4000x128.Idx) (q : dot_S4000x64_S64x128_S4000x128_1_0_0_1_n_n.contr.Idx) :
    (dot_S4000x64_S64x128_S4000x128_1_0_0_1_n_n.lhsIdx i q 0).val = (i 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
theorem lhs_mm4_1 (i : S4000x128.Idx) (q : dot_S4000x64_S64x128_S4000x128_1_0_0_1_n_n.contr.Idx) :
    (dot_S4000x64_S64x128_S4000x128_1_0_0_1_n_n.lhsIdx i q 1).val = (q ⟨0, by decide⟩).val :=
  dot_S4000x64_S64x128_S4000x128_1_0_0_1_n_n.lhsIdx_val_of_single rfl i q
theorem rhs_mm4_0 (i : S4000x128.Idx) (q : dot_S4000x64_S64x128_S4000x128_1_0_0_1_n_n.contr.Idx) :
    (dot_S4000x64_S64x128_S4000x128_1_0_0_1_n_n.rhsIdx i q 0).val = (q ⟨0, by decide⟩).val :=
  dot_S4000x64_S64x128_S4000x128_1_0_0_1_n_n.rhsIdx_val_of_single rfl i q
theorem rhs_mm4_1 (i : S4000x128.Idx) (q : dot_S4000x64_S64x128_S4000x128_1_0_0_1_n_n.contr.Idx) :
    (dot_S4000x64_S64x128_S4000x128_1_0_0_1_n_n.rhsIdx i q 1).val = (i 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

/-- The block product into a zero accumulator, at row p and column q: Σ_k l p k · r k q. -/
theorem mm4_apply (l : FVec Ideal S4000x64 .bf16) (r : FVec Ideal S64x128 .bf16) (p : Fin 4000) (q : Fin 128) :
    matmul dot_S4000x64_S64x128_S4000x128_1_0_0_1_n_n none l r (constant (F := Ideal) S4000x128 .f32 0x00000000#32) (ix2 p q)
      = ∑ k : Fin 64, l (ix2 p k) * r (ix2 k q) := by
  show FloatOps.matmul dot_S4000x64_S64x128_S4000x128_1_0_0_1_n_n none l r (constant (F := Ideal) S4000x128 .f32 0x00000000#32) (ix2 p q) = _
  rw [Ideal.matmul_constant_zero_apply, ← Equiv.sum_comp (ValueIdx.contrEquiv1 dot_S4000x64_S64x128_S4000x128_1_0_0_1_n_n 64 rfl rfl).symm]
  refine Finset.sum_congr rfl fun k _ => ?_
  have hk := ValueIdx.contrEquiv1_symm_val dot_S4000x64_S64x128_S4000x128_1_0_0_1_n_n 64 rfl rfl k
  have el : dot_S4000x64_S64x128_S4000x128_1_0_0_1_n_n.lhsIdx (ix2 p q) ((ValueIdx.contrEquiv1 dot_S4000x64_S64x128_S4000x128_1_0_0_1_n_n 64 rfl rfl).symm k) = ix2 p k := funext fun a => Fin.ext (by
    match a with
    | ⟨0, _⟩ => exact lhs_mm4_0 _ _
    | ⟨1, _⟩ => exact (lhs_mm4_1 _ _).trans hk)
  have er : dot_S4000x64_S64x128_S4000x128_1_0_0_1_n_n.rhsIdx (ix2 p q) ((ValueIdx.contrEquiv1 dot_S4000x64_S64x128_S4000x128_1_0_0_1_n_n 64 rfl rfl).symm k) = ix2 k q := funext fun a => Fin.ext (by
    match a with
    | ⟨0, _⟩ => exact (rhs_mm4_0 _ _).trans hk
    | ⟨1, _⟩ => exact rhs_mm4_1 _ _)
  rw [el, er]

/-- The bias row spread over the block's rows, at row p and column q: the row's entry q. -/
theorem brow4_apply (b : FVec Ideal S1x128 .f32) (p : Fin 4000) (q : Fin 128) :
    broadcastTo S4000x128 b broadcasts_S1x128_S4000x128 (ix2 p q) = b (ix2 (0 : Fin 1) q) := by
  refine broadcastTo_apply b broadcasts_S1x128_S4000x128 (ix2 p q) (ix2 (0 : Fin 1) q) fun a => ?_
  match a with
  | ⟨0, _⟩ => rfl
  | ⟨1, _⟩ => rfl

/-- The body's stored block at row p and column q:
    max (xs p q + Σ_k ea p k · w k q + b 0 q, 0). -/
theorem pay4_apply (x0 : FVec Ideal S4000x64 .bf16) (x2 : FVec Ideal S64x128 .bf16) (x5 : FVec Ideal S4000x128 .f32)
    (x8 : FVec Ideal S1x128 .f32) (p : Fin 4000) (q : Fin 128) :
    k4_pay1 (F := Ideal) x0 x2 x5 x8 (ix2 p q)
      = max ((x5 (ix2 p q) + ∑ k : Fin 64, x0 (ix2 p k) * x2 (ix2 k q)) + x8 (ix2 (0 : Fin 1) q)) 0 := by
  unfold k4_pay1
  simp only [shapeCast_self]
  rw [maximumf_apply, addf_apply, addf_apply, broadcast_apply, mm4_apply, brow4_apply]
  show max _ (Ideal.ofBits .f32 0x00000000#32) = _
  rw [Ideal.ofBits_zero_f32]

variable (V : (c : Dev nD) → (b : Ref sig .tc) → Buf (Elt Ideal) ((c : Thread nD τ).loc b))

/-! ## One stored entry is one edge's message -/

/-- Row p of block r is edge r · 4000 + p: when the staged blocks hold those rows of the edge attributes and of the
    gathered node rows, and the weight and the bias row whole, the stored entry (p, q) is the message of that edge at
    feature q. -/
theorem pay4_msg (x0 : FVec Ideal S4000x64 .bf16) (x1 : FVec Ideal S4000x128 .f32) (x2 : FVec Ideal S64x128 .bf16)
    (x3 : FVec Ideal S1x128 .f32) (ea : Cert.Gnn.A2 800000 64) (xs : Cert.Gnn.A2 800000 128) (w : Cert.Gnn.A2 64 128)
    (b : Cert.Gnn.A2 1 128) (r : Nat)
    (h0 : ∀ (p : Fin 4000) (k : Fin 64) (e : Fin 800000), e.val = r * 4000 + p.val → x0 (ix2 p k) = ea (ix2 e k))
    (h1 : ∀ (p : Fin 4000) (q : Fin 128) (e : Fin 800000), e.val = r * 4000 + p.val → x1 (ix2 p q) = xs (ix2 e q))
    (h2 : ∀ (k : Fin 64) (q : Fin 128), x2 (ix2 k q) = w (ix2 k q))
    (h3 : ∀ q : Fin 128, x3 (ix2 (0 : Fin 1) q) = b (ix2 (0 : Fin 1) q))
    (j : S4000x128.Idx) (i : S800000x128.Idx) (hi0 : (i 0).val = r * 4000 + (j 0).val) (hi1 : (i 1).val = (j 1).val) :
    k4_pay1 (F := Ideal) x0 x2 x1 x3 j = Cert.Gnn.msg ea xs w b i := by
  obtain ⟨p, q, rfl⟩ : ∃ (p : Fin 4000) (q : Fin 128), j = ix2 p q := ⟨j 0, j 1, eq_ix2 j⟩
  obtain ⟨e, q', rfl⟩ : ∃ (e : Fin 800000) (q' : Fin 128), i = ix2 e q' := ⟨i 0, i 1, eq_ix2 i⟩
  obtain rfl : q' = q := Fin.ext hi1
  have he : e.val = r * 4000 + p.val := hi0
  have hs : (∑ k : Fin 64, x0 (ix2 p k) * x2 (ix2 k q')) = ∑ k : Fin 64, ea (ix2 e k) * w (ix2 k q') :=
    Finset.sum_congr rfl fun k _ => by rw [h0 p k e he, h2 k q']
  rw [pay4_apply, hs, h1 p q' e he, h3 q']
  rfl

/-! ## From blocks to the array -/

theorem hz4 : (![0, 0] : Fin 2 → Nat) = fun _ => 0 := funext fun a => by fin_cases a <;> rfl

/-- The block indices over the grid: at point t the edge attributes', the gathered rows' and the result's blocks are
    block row t, the weight and the bias row are whole. -/
theorem idx_facts4 : ∀ t : Fin cfg4.N,
    win4_0.index t (0 : Fin 2) = win4_4.index t (0 : Fin 2) ∧ win4_0.index t (1 : Fin 2) = 0
    ∧ win4_1.index t (0 : Fin 2) = win4_4.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- What point t writes back is block t of the messages of the arrays as the region finds them. -/
theorem flushed4_eq (c : Dev nD) (t : Fin cfg4.N) :
    (dat4 (F := Ideal) V c).flushed 4 t = ((cfg4.win 4).blk t).view.read (Elt Ideal)
      (Cert.Gnn.msg (V c main_v4 : S800000x64.Idx → EReal) (V c main_v53 : S800000x128.Idx → EReal)
        (V c main_v56 : S64x128.Idx → EReal) (V c main_v59 : S1x128.Idx → EReal)) := by
  show (cfg4.win 4).cut (grid4.coords t) ((dat4 (F := Ideal) V c).after 4 t) = _
  rw [after4_4]
  unfold out4_4
  rw [View.canon_unit_zero hz4]
  simp only [View.ld_unit_zero (S := S4000x64) hz4, View.ld_unit_zero (S := S64x128) hz4,
    View.ld_unit_zero (S := S4000x128) hz4, View.ld_unit_zero (S := S1x128) hz4]
  obtain ⟨f00, f01, f10, f11, f20, f21, f30, f31, f40, f41⟩ := idx_facts4 t
  funext j
  have hj0 : (j 0).val < 4000 := (j 0).isLt
  have hj1 : (j 1).val < 128 := (j 1).isLt
  refine pay4_msg (iblk4 V c 0 t) (iblk4 V c 1 t) (iblk4 V c 2 t) (iblk4 V c 3 t) (V c main_v4) (V c main_v53)
    (V c main_v56) (V c main_v59) (win4_4.index t (0 : Fin 2)) ?_ ?_ ?_ ?_
    ((cfg4.win 4).xinj (grid4.coords t) j) (((cfg4.win 4).blk t).view.emb j) ?_ ?_
  · intro p k e he
    show V c main_v4 (((cfg4.win 0).blk t).view.emb (ix2 p k)) = V c main_v4 (ix2 e k)
    refine congrArg _ (funext fun a => Fin.ext ?_)
    match a with
    | ⟨0, _⟩ => show win4_0.index t (0 : Fin 2) * 4000 + 1 * p.val = e.val; omega
    | ⟨1, _⟩ => show win4_0.index t (1 : Fin 2) * 64 + 1 * k.val = k.val; omega
  · intro p q e he
    show V c main_v53 (((cfg4.win 1).blk t).view.emb (ix2 p q)) = V c main_v53 (ix2 e q)
    refine congrArg _ (funext fun a => Fin.ext ?_)
    match a with
    | ⟨0, _⟩ => show win4_1.index t (0 : Fin 2) * 4000 + 1 * p.val = e.val; omega
    | ⟨1, _⟩ => show win4_1.index t (1 : Fin 2) * 128 + 1 * q.val = q.val; omega
  · intro k q
    show V c main_v56 (((cfg4.win 2).blk t).view.emb (ix2 k q)) = V c main_v56 (ix2 k q)
    refine congrArg _ (funext fun a => Fin.ext ?_)
    match a with
    | ⟨0, _⟩ => show win4_2.index t (0 : Fin 2) * 64 + 1 * k.val = k.val; omega
    | ⟨1, _⟩ => show win4_2.index t (1 : Fin 2) * 128 + 1 * q.val = q.val; omega
  · intro q
    show V c main_v59 (((cfg4.win 3).blk t).view.emb (ix2 (0 : Fin 1) q)) = V c main_v59 (ix2 (0 : Fin 1) q)
    refine congrArg _ (funext fun a => Fin.ext ?_)
    match a with
    | ⟨0, _⟩ => show win4_3.index t (0 : Fin 2) * 1 + 1 * 0 = 0; omega
    | ⟨1, _⟩ => show win4_3.index t (1 : Fin 2) * 128 + 1 * q.val = q.val; omega
  · show win4_4.index t (0 : Fin 2) * 4000 + 1 * (j 0).val = win4_4.index t (0 : Fin 2) * 4000 + (j 0).val; omega
  · show win4_4.index t (1 : Fin 2) * 128 + 1 * (j 1).val = (j 1).val; omega

/-- An edge-feature index is in point t's block iff each coordinate is in the block's range on its axis. -/
theorem mem_blk4 (t : Fin cfg4.N) (i : S800000x128.Idx) :
    i ∈ ((cfg4.win 4).blk t).view.set ↔ ∀ a : Fin 2, win4_4.index t a * S4000x128.size a ≤ (i a).val
      ∧ (i a).val < win4_4.index t a * S4000x128.size a + S4000x128.size a := by
  show i ∈ ((View.whole main_v60).slice (win4_4.rect t)).set ↔ _
  rw [View.set_slice_whole, Rect.mem_set_unit]
  exact Iff.rfl

/-- Edge e lies in the block of point e / 4000, which is written back. -/
theorem cover4 (i : S800000x128.Idx) :
    ∃ t : Fin cfg4.N, (cfg4.win 4).flush t = true ∧ i ∈ ((cfg4.win 4).blk t).view.set := by
  have hi0 : (i 0).val < 800000 := (i 0).isLt
  have hi1 : (i 1).val < 128 := (i 1).isLt
  obtain ⟨t, ht⟩ : ∃ t : Fin cfg4.N, t.val = (i 0).val / 4000 :=
    ⟨⟨(i 0).val / 4000, by rw [show cfg4.N = 200 from N_4]; omega⟩, rfl⟩
  obtain ⟨-, -, -, -, -, -, -, -, f40, f41⟩ := idx_facts4 t
  refine ⟨t, flush4_4 t, ?_⟩
  rw [mem_blk4]
  intro a
  match a with
  | ⟨0, _⟩ =>
    show win4_4.index t (0 : Fin 2) * 4000 ≤ (i 0).val ∧ (i 0).val < win4_4.index t (0 : Fin 2) * 4000 + 4000
    omega
  | ⟨1, _⟩ =>
    show win4_4.index t (1 : Fin 2) * 128 ≤ (i 1).val ∧ (i 1).val < win4_4.index t (1 : Fin 2) * 128 + 128
    omega

/-- The message array after the region: every edge's message, of the arrays as the region finds them. -/
theorem final4 (c : Dev nD) :
    (dat4 (F := Ideal) V c).arrAt 4 cfg4.N
      = Cert.Gnn.msg (V c main_v4 : S800000x64.Idx → EReal) (V c main_v53 : S800000x128.Idx → EReal)
          (V c main_v56 : S64x128.Idx → EReal) (V c main_v59 : S1x128.Idx → EReal) :=
  (dat4 (F := Ideal) V c).arrAt_eq_of_cover 4 _ (fun t _ => flushed4_eq V c t) cover4

end Cert.KernelIdeal.RegionValue

end
-- ==== Proof.KRegion5.lean ====
/-
  The node update of one message-passing layer, as the kernel computes it: the grid walks the 25 row blocks of 2000 nodes;
  at each block the body forms max (max ((x + a) · W1 + b1, 0) · W2 + b2, 0) from the block's rows of the node features x
  and of the aggregated messages a and from the whole weights and bias rows, and writes the block back.  Here: each matrix
  product read at a row and a column as a sum over the 128 contracted entries; the body's result at a row and a column;
  what one grid point writes back as the block of the index-by-index node update Cert.Gnn.gin of the arrays the region
  finds; every row of the node array in the block of grid point row / 2000; hence the array after the region is gin of
  the arrays the region finds.
-/
import proofs.«402358_j61787399520742_1_alg».proof.Proof.Gen.KernelIdeal.Frame
import proofs.«402358_j61787399520742_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-! ## The matrix product of a row block, read at an index -/

theorem lhs_gin5_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_gin5_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_gin5_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_gin5_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000,128] by [128,128] product into a zero accumulator, at row p and column q: Σ_k l p k · r k q. -/
theorem matmul_gin5 (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_gin5_0 _ _
    | ⟨1, _⟩ => exact (lhs_gin5_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_gin5_0 _ _).trans hk
    | ⟨1, _⟩ => exact rhs_gin5_1 _ _)
  rw [el, er]

/-- A [1,128] row spread over 2000 rows, at row p and column q, is the row's entry q. -/
theorem rowbc_gin5 (x : FVec Ideal S1x128 .f32) (p : Fin 2000) (q : Fin 128) :
    broadcastTo S2000x128 x broadcasts_S1x128_S2000x128 (ix2 p q) = x (ix2 (0 : Fin 1) q) :=
  broadcastTo_apply x broadcasts_S1x128_S2000x128 (ix2 p q) (ix2 (0 : Fin 1) q) (fun a => match a with
    | ⟨0, _⟩ => rfl
    | ⟨1, _⟩ => rfl)

theorem zero_gin5 : Scalar.ofBits (F := Ideal) .f32 0x00000000#32 = (0 : EReal) := Ideal.ofBits_zero_f32

/-! ## The body's payload at an index -/

/-- The node update of one row block: max (Σ_k max (Σ_k' (x + a) p k' · w1 k' k + b1 k, 0) · w2 k q + b2 q, 0). -/
theorem pay_gin5 (v0 v1 : Vec Ideal S2000x128 .f32) (v5 : Vec Ideal S128x128 .bf16) (v8 : Vec Ideal S1x128 .f32)
    (v15 : Vec Ideal S128x128 .bf16) (v18 : Vec Ideal S1x128 .f32) (p : Fin 2000) (q : Fin 128) :
    k5_pay1 (F := Ideal) v0 v1 v5 v8 v15 v18 (ix2 p q)
      = max ((∑ k : Fin 128, (max ((∑ k' : Fin 128, (v0 (ix2 p k') + v1 (ix2 p k')) * v5 (ix2 k' k)) + v8 (ix2 (0 : Fin 1) k)) 0) * v15 (ix2 k q))
          + v18 (ix2 (0 : Fin 1) q)) 0 := by
  unfold k5_pay1
  simp only [shapeCast_self]
  simp only [maximumf_apply, addf_apply, truncf_apply, broadcast_apply, matmul_gin5, rowbc_gin5, zero_gin5]

/-! ## One grid point's block -/

variable (V : (c : Dev nD) → (b : Ref sig .tc) → Buf (Elt Ideal) ((c : Thread nD τ).loc b))

theorem hz_gin5 : (![0, 0] : Fin 2 → Nat) = fun _ => 0 := funext fun a => by fin_cases a <;> rfl

/-- The payload of a row block whose rows are rows r·2000 … r·2000 + 1999 of the node arrays, the weights whole. -/
theorem point_gin5 (x ag : S50000x128.Idx → EReal) (w1 : S128x128.Idx → EReal) (b1 : S1x128.Idx → EReal)
    (w2 : S128x128.Idx → EReal) (b2 : S1x128.Idx → EReal)
    (v0 v1 : Vec Ideal S2000x128 .f32) (v5 : Vec Ideal S128x128 .bf16) (v8 : Vec Ideal S1x128 .f32)
    (v15 : Vec Ideal S128x128 .bf16) (v18 : Vec Ideal S1x128 .f32) (r : Nat)
    (h0 : ∀ (y : S2000x128.Idx) (z : S50000x128.Idx), (z 0).val = r * 2000 + (y 0).val → (z 1).val = (y 1).val → v0 y = x z)
    (h1 : ∀ (y : S2000x128.Idx) (z : S50000x128.Idx), (z 0).val = r * 2000 + (y 0).val → (z 1).val = (y 1).val → v1 y = ag z)
    (h5 : v5 = w1) (h8 : v8 = b1) (h15 : v15 = w2) (h18 : v18 = b2)
    (j : S2000x128.Idx) (i : S50000x128.Idx) (hi0 : (i 0).val = r * 2000 + (j 0).val) (hi1 : (i 1).val = (j 1).val) :
    k5_pay1 (F := Ideal) v0 v1 v5 v8 v15 v18 j = Cert.Gnn.gin x ag w1 b1 w2 b2 i := by
  obtain ⟨p, q, rfl⟩ : ∃ (p : Fin 2000) (q : Fin 128), j = ix2 p q := ⟨j 0, j 1, eq_ix2 j⟩
  obtain ⟨n, q', rfl⟩ : ∃ (n : Fin 50000) (q' : Fin 128), i = ix2 n q' := ⟨i 0, i 1, eq_ix2 i⟩
  obtain rfl : q' = q := Fin.ext hi1
  subst h5 h8 h15 h18
  have e0 : ∀ k' : Fin 128, v0 (ix2 p k') = x (ix2 n k') := fun k' => h0 _ _ hi0 rfl
  have e1 : ∀ k' : Fin 128, v1 (ix2 p k') = ag (ix2 n k') := fun k' => h1 _ _ hi0 rfl
  rw [pay_gin5]
  unfold Cert.Gnn.gin Cert.Gnn.ginHidden
  simp only [e0, e1]

/-- The printed index maps over the grid: the two node windows and the output window sit at row block t, column block 0;
    the four parameter windows at block (0, 0). -/
theorem idx_gin5 : ∀ t : Fin cfg5.N,
    win5_0.index t (0 : Fin 2) = win5_6.index t (0 : Fin 2) ∧ win5_0.index t (1 : Fin 2) = 0
    ∧ win5_1.index t (0 : Fin 2) = win5_6.index t (0 : Fin 2) ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- What grid point t writes back is block t of the node update of the arrays as the region finds them. -/
theorem flushed_gin5 (c : Dev nD) (t : Fin cfg5.N) :
    (dat5 (F := Ideal) V c).flushed 6 t = ((cfg5.win 6).blk t).view.read (Elt Ideal)
      (Cert.Gnn.gin (V c main_v52 : S50000x128.Idx → EReal) (V c main_v63 : S50000x128.Idx → EReal)
        (V c main_v66 : S128x128.Idx → EReal) (V c main_v69 : S1x128.Idx → EReal)
        (V c main_v72 : S128x128.Idx → EReal) (V c main_v75 : S1x128.Idx → EReal)) := by
  show (cfg5.win 6).cut (grid5.coords t) ((dat5 V c).after 6 t) = _
  rw [after5_6]
  unfold out5_6
  rw [View.canon_unit_zero hz_gin5]
  simp only [View.ld_unit_zero (S := S2000x128) hz_gin5, View.ld_unit_zero (S := S128x128) hz_gin5, View.ld_unit_zero (S := S1x128) hz_gin5]
  obtain ⟨e00, e01, e10, e11, e20, e21, e30, e31, e40, e41, e50, e51, e60, e61⟩ := idx_gin5 t
  funext j
  show k5_pay1 (F := Ideal) (iblk5 V c 0 t) (iblk5 V c 1 t) (iblk5 V c 2 t) (iblk5 V c 3 t) (iblk5 V c 4 t) (iblk5 V c 5 t) j
    = Cert.Gnn.gin (V c main_v52 : S50000x128.Idx → EReal) (V c main_v63 : S50000x128.Idx → EReal)
        (V c main_v66 : S128x128.Idx → EReal) (V c main_v69 : S1x128.Idx → EReal)
        (V c main_v72 : S128x128.Idx → EReal) (V c main_v75 : S1x128.Idx → EReal) (((cfg5.win 6).blk t).view.emb j)
  refine point_gin5 (V c main_v52) (V c main_v63) (V c main_v66) (V c main_v69) (V c main_v72) (V c main_v75)
    (iblk5 V c 0 t) (iblk5 V c 1 t) (iblk5 V c 2 t) (iblk5 V c 3 t) (iblk5 V c 4 t) (iblk5 V c 5 t) (win5_6.index t (0 : Fin 2))
    ?_ ?_ ?_ ?_ ?_ ?_ j (((cfg5.win 6).blk t).view.emb j) ?_ ?_
  · intro y z hz0 hz1
    show V c main_v52 (((cfg5.win 0).blk t).view.emb y) = V c main_v52 z
    refine congrArg _ (funext fun a => Fin.ext ?_)
    match a with
    | ⟨0, _⟩ => show win5_0.index t (0 : Fin 2) * 2000 + 1 * (y 0).val = (z 0).val; omega
    | ⟨1, _⟩ => show win5_0.index t (1 : Fin 2) * 128 + 1 * (y 1).val = (z 1).val; omega
  · intro y z hz0 hz1
    show V c main_v63 (((cfg5.win 1).blk t).view.emb y) = V c main_v63 z
    refine congrArg _ (funext fun a => Fin.ext ?_)
    match a with
    | ⟨0, _⟩ => show win5_1.index t (0 : Fin 2) * 2000 + 1 * (y 0).val = (z 0).val; omega
    | ⟨1, _⟩ => show win5_1.index t (1 : Fin 2) * 128 + 1 * (y 1).val = (z 1).val; omega
  · funext y
    show V c main_v66 (((cfg5.win 2).blk t).view.emb y) = V c main_v66 y
    refine congrArg _ (funext fun a => Fin.ext ?_)
    match a with
    | ⟨0, _⟩ => show win5_2.index t (0 : Fin 2) * 128 + 1 * (y 0).val = (y 0).val; omega
    | ⟨1, _⟩ => show win5_2.index t (1 : Fin 2) * 128 + 1 * (y 1).val = (y 1).val; omega
  · funext y
    show V c main_v69 (((cfg5.win 3).blk t).view.emb y) = V c main_v69 y
    refine congrArg _ (funext fun a => Fin.ext ?_)
    match a with
    | ⟨0, _⟩ => show win5_3.index t (0 : Fin 2) * 1 + 1 * (y 0).val = (y 0).val; omega
    | ⟨1, _⟩ => show win5_3.index t (1 : Fin 2) * 128 + 1 * (y 1).val = (y 1).val; omega
  · funext y
    show V c main_v72 (((cfg5.win 4).blk t).view.emb y) = V c main_v72 y
    refine congrArg _ (funext fun a => Fin.ext ?_)
    match a with
    | ⟨0, _⟩ => show win5_4.index t (0 : Fin 2) * 128 + 1 * (y 0).val = (y 0).val; omega
    | ⟨1, _⟩ => show win5_4.index t (1 : Fin 2) * 128 + 1 * (y 1).val = (y 1).val; omega
  · funext y
    show V c main_v75 (((cfg5.win 5).blk t).view.emb y) = V c main_v75 y
    refine congrArg _ (funext fun a => Fin.ext ?_)
    match a with
    | ⟨0, _⟩ => show win5_5.index t (0 : Fin 2) * 1 + 1 * (y 0).val = (y 0).val; omega
    | ⟨1, _⟩ => show win5_5.index t (1 : Fin 2) * 128 + 1 * (y 1).val = (y 1).val; omega
  · show win5_6.index t (0 : Fin 2) * 2000 + 1 * (j 0).val = win5_6.index t (0 : Fin 2) * 2000 + (j 0).val
    omega
  · show win5_6.index t (1 : Fin 2) * 128 + 1 * (j 1).val = (j 1).val
    omega

/-! ## From blocks to the array -/

/-- An index of the node array is in grid point t's block iff each coordinate is in the block's range on its axis. -/
theorem mem_blk_gin5 (t : Fin cfg5.N) (i : S50000x128.Idx) :
    i ∈ ((cfg5.win 6).blk t).view.set ↔ ∀ a : Fin 2, win5_6.index t a * S2000x128.size a ≤ (i a).val ∧ (i a).val < win5_6.index t a * S2000x128.size a + S2000x128.size a := by
  show i ∈ ((View.whole main_v76).slice (win5_6.rect t)).set ↔ _
  rw [View.set_slice_whole, Rect.mem_set_unit]
  exact Iff.rfl

/-- Row n of the node array lies in the block of grid point n / 2000. -/
theorem cover_gin5 (i : S50000x128.Idx) :
    ∃ t : Fin cfg5.N, (cfg5.win 6).flush t = true ∧ i ∈ ((cfg5.win 6).blk t).view.set := by
  have hi0 : (i 0).val < 50000 := (i 0).isLt
  have hi1 : (i 1).val < 128 := (i 1).isLt
  have ht : (i 0).val / 2000 < cfg5.N := by
    show (i 0).val / 2000 < grid5.N
    rw [N_5]; omega
  obtain ⟨-, -, -, -, -, -, -, -, -, -, -, -, e60, e61⟩ := idx_gin5 ⟨(i 0).val / 2000, ht⟩
  have e60' : win5_6.index ⟨(i 0).val / 2000, ht⟩ (0 : Fin 2) = (i 0).val / 2000 := e60
  refine ⟨⟨(i 0).val / 2000, ht⟩, flush5_6 _, ?_⟩
  rw [mem_blk_gin5]
  intro a
  match a with
  | ⟨0, _⟩ =>
    show win5_6.index ⟨(i 0).val / 2000, ht⟩ (0 : Fin 2) * 2000 ≤ (i 0).val ∧ (i 0).val < win5_6.index ⟨(i 0).val / 2000, ht⟩ (0 : Fin 2) * 2000 + 2000
    omega
  | ⟨1, _⟩ =>
    show win5_6.index ⟨(i 0).val / 2000, ht⟩ (1 : Fin 2) * 128 ≤ (i 1).val ∧ (i 1).val < win5_6.index ⟨(i 0).val / 2000, ht⟩ (1 : Fin 2) * 128 + 128
    omega

/-- The node array after the region: the node update of the arrays as the region finds them. -/
theorem final5 (c : Dev nD) :
    (dat5 (F := Ideal) V c).arrAt 6 cfg5.N
      = Cert.Gnn.gin (V c main_v52 : S50000x128.Idx → EReal) (V c main_v63 : S50000x128.Idx → EReal)
          (V c main_v66 : S128x128.Idx → EReal) (V c main_v69 : S1x128.Idx → EReal)
          (V c main_v72 : S128x128.Idx → EReal) (V c main_v75 : S1x128.Idx → EReal) :=
  (dat5 (F := Ideal) V c).arrAt_eq_of_cover 6 _ (fun t _ => flushed_gin5 V c t) cover_gin5

end Cert.KernelIdeal.RegionValue

end
-- ==== Proof.KStretchA.lean ====
/-
  What the host operations between the kernel launches leave in the buffers the launches read, from any buffer contents
  at the stretch's entry: the source and destination vectors of the edges (rows 0 and 1 of the edge list), the edge
  attributes (their narrowing is the identity on extended reals), the five gathers of node rows along the edges in fill
  mode, the three sums of edge rows into their destination nodes, and the result vector as column 0 of the padded scores.
-/
import proofs.«402358_j61787399520742_1_alg».proof.Proof.Gen.KernelIdeal.Launch
import proofs.«402358_j61787399520742_1_alg».proof.Proof.Spec
import proofs.«402358_j61787399520742_1_alg».proof.Proof.KDefs
import Idealize.ShloMosaic.Lib.StableHlo.Run
import Idealize.ShloMosaic.Lib.ValueIdx
import Idealize.ShloMosaic.Lib.Pipeline.Value

noncomputable section

namespace Cert.KernelIdeal.Stretch

open Cert.KernelIdeal Cert.KernelIdeal.Gen Cert.KernelIdeal.Host Idealize.ShloMosaic Idealize.ShloMosaic.TcCoe Idealize.SL.Sem
open Idealize.ShloMosaic.StableHlo Idealize.ShloMosaic.ValueIdx

variable (V0 : Valuation τ sig (Elt Ideal))

/-! ## What the stretches leave in the buffers the kernels read -/

/-- The source vector is row 0 of the edge list. -/
theorem ops0_v1 : StableHlo.after (hostOps0 (F := Ideal)) V0 (Proc.devRef .tc main_v1) = srcOf (V0 (Proc.devRef .tc main_arg1)) := by
  unfold srcOf
  after_results
  try rfl

/-- The destination vector is row 1 of the edge list. -/
theorem ops0_v3 : StableHlo.after (hostOps0 (F := Ideal)) V0 (Proc.devRef .tc main_v3) = dstOf (V0 (Proc.devRef .tc main_arg1)) := by
  unfold dstOf
  after_results
  try rfl

/-- The narrowed edge attributes are the edge attributes: the format change is the identity on extended reals. -/
theorem ops0_v4 : (StableHlo.after (hostOps0 (F := Ideal)) V0 (Proc.devRef .tc main_v4) : S800000x64.Idx → EReal)
    = (V0 (Proc.devRef .tc main_arg2) : S800000x64.Idx → EReal) := by
  after_results
  try rfl

/-! ## Typed references of literal buffers carry their contents unchanged -/

/-- Contents moved to a buffer's own type and back are the contents. -/
theorem ofBuf_toBuf {T : BufTy} {Val : EltTy → Type} (x : StableHlo.TRef sig T) (v : T.Contents Val) :
    x.ofBuf (x.toBuf v) = v := by
  unfold StableHlo.TRef.ofBuf StableHlo.TRef.toBuf
  simp only [cast_cast, cast_eq]

theorem ofBuf_main_arg0 (h1 h2 h3) (v : (main_arg0.ty).Contents (Elt Ideal)) :
    (StableHlo.TRef.of (T := ⟨S50000x128, .f32⟩) main_arg0 h1 h2 h3).ofBuf v = v := rfl
theorem ofBuf_main_v28 (h1 h2 h3) (v : (main_v28.ty).Contents (Elt Ideal)) :
    (StableHlo.TRef.of (T := ⟨S50000x128, .f32⟩) main_v28 h1 h2 h3).ofBuf v = v := rfl
theorem ofBuf_main_v52 (h1 h2 h3) (v : (main_v52.ty).Contents (Elt Ideal)) :
    (StableHlo.TRef.of (T := ⟨S50000x128, .f32⟩) main_v52 h1 h2 h3).ofBuf v = v := rfl
theorem ofBuf_main_v76 (h1 h2 h3) (v : (main_v76.ty).Contents (Elt Ideal)) :
    (StableHlo.TRef.of (T := ⟨S50000x128, .f32⟩) main_v76 h1 h2 h3).ofBuf v = v := rfl
theorem ofBuf_main_v1 (h1 h2 h3) (v : (main_v1.ty).Contents (Elt Ideal)) :
    (StableHlo.TRef.of (T := ⟨S800000, .i32⟩) main_v1 h1 h2 h3).ofBuf v = v := rfl
theorem ofBuf_main_v3 (h1 h2 h3) (v : (main_v3.ty).Contents (Elt Ideal)) :
    (StableHlo.TRef.of (T := ⟨S800000, .i32⟩) main_v3 h1 h2 h3).ofBuf v = v := rfl
theorem toBuf_main_v5 (h1 h2 h3) (v : (⟨S800000x128, .f32⟩ : BufTy).Contents (Elt Ideal)) :
    (StableHlo.TRef.of (T := ⟨S800000x128, .f32⟩) main_v5 h1 h2 h3).toBuf v = v := rfl
theorem toBuf_main_v29 (h1 h2 h3) (v : (⟨S800000x128, .f32⟩ : BufTy).Contents (Elt Ideal)) :
    (StableHlo.TRef.of (T := ⟨S800000x128, .f32⟩) main_v29 h1 h2 h3).toBuf v = v := rfl
theorem toBuf_main_v53 (h1 h2 h3) (v : (⟨S800000x128, .f32⟩ : BufTy).Contents (Elt Ideal)) :
    (StableHlo.TRef.of (T := ⟨S800000x128, .f32⟩) main_v53 h1 h2 h3).toBuf v = v := rfl
theorem toBuf_main_v77 (h1 h2 h3) (v : (⟨S800000x128, .f32⟩ : BufTy).Contents (Elt Ideal)) :
    (StableHlo.TRef.of (T := ⟨S800000x128, .f32⟩) main_v77 h1 h2 h3).toBuf v = v := rfl
theorem toBuf_main_v78 (h1 h2 h3) (v : (⟨S800000x128, .f32⟩ : BufTy).Contents (Elt Ideal)) :
    (StableHlo.TRef.of (T := ⟨S800000x128, .f32⟩) main_v78 h1 h2 h3).toBuf v = v := rfl

/-! ## The five row gathers in fill mode -/

theorem ops0_1_v5 : StableHlo.after (hostOps0_1 (F := Ideal)) V0 (Proc.devRef .tc main_v5)
    = takeFill (V0 (Proc.devRef .tc main_arg0)) (V0 (Proc.devRef .tc main_v1)) := by
  after_results_simp
  simp only [ofBuf_toBuf, ofBuf_main_arg0, ofBuf_main_v1, toBuf_main_v5]
  unfold takeFill inRange rowGather idxCol
  rfl

theorem ops2_v29 : StableHlo.after (hostOps2 (F := Ideal)) V0 (Proc.devRef .tc main_v29)
    = takeFill (V0 (Proc.devRef .tc main_v28)) (V0 (Proc.devRef .tc main_v1)) := by
  after_results_simp
  simp only [ofBuf_toBuf, ofBuf_main_v28, ofBuf_main_v1, toBuf_main_v29]
  unfold takeFill inRange rowGather idxCol
  rfl

theorem ops4_v53 : StableHlo.after (hostOps4 (F := Ideal)) V0 (Proc.devRef .tc main_v53)
    = takeFill (V0 (Proc.devRef .tc main_v52)) (V0 (Proc.devRef .tc main_v1)) := by
  after_results_simp
  simp only [ofBuf_toBuf, ofBuf_main_v52, ofBuf_main_v1, toBuf_main_v53]
  unfold takeFill inRange rowGather idxCol
  rfl

theorem ops6_v77 : StableHlo.after (hostOps6 (F := Ideal)) V0 (Proc.devRef .tc main_v77)
    = takeFill (V0 (Proc.devRef .tc main_v76)) (V0 (Proc.devRef .tc main_v1)) := by
  after_results_simp
  simp only [ofBuf_toBuf, ofBuf_main_v76, ofBuf_main_v1, toBuf_main_v77]
  unfold takeFill inRange rowGather idxCol
  rfl

theorem ops6_1_v78 : StableHlo.after (hostOps6_1 (F := Ideal)) V0 (Proc.devRef .tc main_v78)
    = takeFill (V0 (Proc.devRef .tc main_v76)) (V0 (Proc.devRef .tc main_v3)) := by
  after_results_simp
  simp only [ofBuf_toBuf, ofBuf_main_v76, ofBuf_main_v3, toBuf_main_v78]
  unfold takeFill inRange rowGather idxCol
  rfl

/-! ## The three scatter-adds: the edge rows summed into their destination nodes -/

theorem ops1_v15 : StableHlo.after (hostOps1 (F := Ideal)) V0 (Proc.devRef .tc main_v15)
    = scatAdd (V0 (Proc.devRef .tc main_v3)) (V0 (Proc.devRef .tc main_v12)) := by
  unfold scatAdd
  after_results
  try rfl

theorem ops3_v39 : StableHlo.after (hostOps3 (F := Ideal)) V0 (Proc.devRef .tc main_v39)
    = scatAdd (V0 (Proc.devRef .tc main_v3)) (V0 (Proc.devRef .tc main_v36)) := by
  unfold scatAdd
  after_results
  try rfl

theorem ops5_v63 : StableHlo.after (hostOps5 (F := Ideal)) V0 (Proc.devRef .tc main_v63)
    = scatAdd (V0 (Proc.devRef .tc main_v3)) (V0 (Proc.devRef .tc main_v60)) := by
  unfold scatAdd
  after_results
  try rfl

/-! ## The result: column 0 of the padded scores -/

/-- The result vector at edge e is the padded score matrix at (e, 0). -/
theorem ops7_v97 (e : Fin 800000) :
    (StableHlo.after (hostOps7 (F := Ideal)) V0 (Proc.devRef .tc main_v97) : S800000.Idx → EReal) (ix1 e)
      = (V0 (Proc.devRef .tc main_v95) : S800000x128.Idx → EReal) (ix2 e (0 : Fin 128)) := by
  have h : StableHlo.after (hostOps7 (F := Ideal)) V0 (Proc.devRef .tc main_v97)
      = shapeCast S800000 (extractStridedSlice S800000x1 ![0, 0] (V0 (Proc.devRef .tc main_v95)) slices_S800000x128_S800000x1_0_0)
          shapeCasts_S800000x1_S800000 := by
    after_results
    try rfl
  rw [h]
  refine (shapeCast_apply _ shapeCasts_S800000x1_S800000 (ix1 e) (ix2 e (0 : Fin 1)) ?_).trans ?_
  · rewrite [Shape.rowMajor_val_two, Shape.rowMajor_val_one]
    show e.val * 1 + 0 = e.val
    omega
  · exact extractStridedSlice_apply ![0, 0] _ slices_S800000x128_S800000x1_0_0 (ix2 e (0 : Fin 1)) (ix2 e (0 : Fin 128))
      (fun a => match a with
        | ⟨0, _⟩ => by show e.val = 0 + e.val; omega
        | ⟨1, _⟩ => by show (0 : Nat) = 0 + 0; rfl)

end Cert.KernelIdeal.Stretch

end
-- ==== Proof.KStretchW.lean ====
/-
  The layers' weights as the host code cuts them out of the stacked inputs.

  Each layer l takes its edge weight from the stack [3, 64, 128], its two perceptron weights from the stacks
  [3, 128, 128] and its three biases from the stacks [3, 128]: a slice of the one layer, a reshape that drops the unit
  axis, for a matrix a change of format (the identity on extended reals), for a bias a second reshape [128] → [1, 128].
  What each such buffer holds after its stretch of host operations, run from any contents of the buffers, is the plain
  index function of the stacked input: entry (p, q) of layer l's matrix is the stack at (l, p, q), entry (0, q) of its
  bias row is the stack at (l, q).
-/
import proofs.«402358_j61787399520742_1_alg».proof.Proof.Gen.KernelIdeal.Launch
import proofs.«402358_j61787399520742_1_alg».proof.Proof.Spec
import proofs.«402358_j61787399520742_1_alg».proof.Proof.KDefs
import Idealize.ShloMosaic.Lib.StableHlo.Run
import Idealize.ShloMosaic.Lib.ValueIdx
import Idealize.ShloMosaic.Lib.Pipeline.Value

noncomputable section

namespace Cert.KernelIdeal.Stretch

open Cert.KernelIdeal Cert.KernelIdeal.Gen Cert.KernelIdeal.Host Idealize.ShloMosaic Idealize.ShloMosaic.TcCoe Idealize.SL.Sem
open Idealize.ShloMosaic.StableHlo Idealize.ShloMosaic.ValueIdx

variable (V0 : Valuation τ sig (Elt Ideal))

/-! ## One layer of a stack, read at an index -/

/-- Layer o of a stack of three m×128 matrices, cut out as a one-layer slice and reshaped to a matrix, read at (p, q):
    the stack at (o, p, q). -/
private theorem sliceMat_apply {m : Nat} (o : Nat) (ho : o < 3) (x : (⟨3, ![3, m, 128]⟩ : Shape).Idx → EReal)
    (hs : (⟨3, ![3, m, 128]⟩ : Shape).Slices ![o, 0, 0] ⟨3, ![1, m, 128]⟩)
    (hc : (⟨3, ![1, m, 128]⟩ : Shape).ShapeCasts ⟨2, ![m, 128]⟩) (p : Fin m) (q : Fin 128) :
    shapeCast ⟨2, ![m, 128]⟩ (extractStridedSlice ⟨3, ![1, m, 128]⟩ ![o, 0, 0] x hs) hc (ix2 p q)
      = x (ix3 (⟨o, ho⟩ : Fin 3) p q) := by
  refine (shapeCast_apply _ hc (ix2 p q) (ix3 (0 : Fin 1) p q) ?_).trans ?_
  · rw [Shape.rowMajor_val_three, Shape.rowMajor_val_two]
    show (0 * m + p.val) * 128 + q.val = p.val * 128 + q.val
    omega
  · exact extractStridedSlice_apply ![o, 0, 0] x hs (ix3 (0 : Fin 1) p q) (ix3 (⟨o, ho⟩ : Fin 3) p q) (fun a => match a with
      | ⟨0, _⟩ => by show o = o + 0; omega
      | ⟨1, _⟩ => by show p.val = 0 + p.val; omega
      | ⟨2, _⟩ => by show q.val = 0 + q.val; omega)

/-- Row o of a stack of three 128-vectors, cut out as a one-row slice, flattened and put back as a one-row matrix,
    read at (r, q): the stack at (o, q). -/
private theorem sliceRow_apply (o : Nat) (ho : o < 3) (x : S3x128.Idx → EReal)
    (hs : S3x128.Slices ![o, 0] S1x128) (hc : S1x128.ShapeCasts S128) (hc' : S128.ShapeCasts S1x128)
    (r : Fin 1) (q : Fin 128) :
    shapeCast S1x128 (shapeCast S128 (extractStridedSlice S1x128 ![o, 0] x hs) hc) hc' (ix2 r q)
      = x (ix2 (⟨o, ho⟩ : Fin 3) q) := by
  rw [shapeCast_shapeCast]
  exact extractStridedSlice_apply ![o, 0] x hs (ix2 r q) (ix2 (⟨o, ho⟩ : Fin 3) q) (fun a => match a with
    | ⟨0, _⟩ => by have hr : r.val < 1 := r.isLt; show o = o + r.val; omega
    | ⟨1, _⟩ => by show q.val = 0 + q.val; omega)

/-! ## Layer 0 -/

theorem ops0_2_v8 : (StableHlo.after (hostOps0_2 (F := Ideal)) V0 (Proc.devRef .tc main_v8) : S64x128.Idx → EReal)
    = Cert.Gnn.wE (V0 (Proc.devRef .tc main_arg3) : S3x64x128.Idx → EReal) 0 := by
  funext i
  obtain ⟨p, q, rfl⟩ : ∃ (p : Fin 64) (q : Fin 128), i = ix2 p q := ⟨i 0, i 1, eq_ix2 i⟩
  after_results
  show shapeCast S64x128 (extractStridedSlice S1x64x128 ![0, 0, 0] (V0 (Proc.devRef .tc main_arg3))
    slices_S3x64x128_S1x64x128_0_0_0) shapeCasts_S1x64x128_S64x128 (ix2 p q) = _
  exact sliceMat_apply 0 (by decide) _ _ _ p q

theorem ops0_2_v11 : (StableHlo.after (hostOps0_2 (F := Ideal)) V0 (Proc.devRef .tc main_v11) : S1x128.Idx → EReal)
    = Cert.Gnn.bRow (V0 (Proc.devRef .tc main_arg4) : S3x128.Idx → EReal) 0 := by
  funext i
  obtain ⟨r, q, rfl⟩ : ∃ (r : Fin 1) (q : Fin 128), i = ix2 r q := ⟨i 0, i 1, eq_ix2 i⟩
  after_results
  show shapeCast S1x128 (shapeCast S128 (extractStridedSlice S1x128 ![0, 0] (V0 (Proc.devRef .tc main_arg4))
    slices_S3x128_S1x128_0_0) shapeCasts_S1x128_S128) shapeCasts_S128_S1x128 (ix2 r q) = _
  exact sliceRow_apply 0 (by decide) _ _ _ _ r q

theorem ops1_v18 : (StableHlo.after (hostOps1 (F := Ideal)) V0 (Proc.devRef .tc main_v18) : S128x128.Idx → EReal)
    = Cert.Gnn.wN (V0 (Proc.devRef .tc main_arg5) : S3x128x128.Idx → EReal) 0 := by
  funext i
  obtain ⟨p, q, rfl⟩ : ∃ (p : Fin 128) (q : Fin 128), i = ix2 p q := ⟨i 0, i 1, eq_ix2 i⟩
  after_results
  show shapeCast S128x128 (extractStridedSlice S1x128x128 ![0, 0, 0] (V0 (Proc.devRef .tc main_arg5))
    slices_S3x128x128_S1x128x128_0_0_0) shapeCasts_S1x128x128_S128x128 (ix2 p q) = _
  exact sliceMat_apply 0 (by decide) _ _ _ p q

theorem ops1_v21 : (StableHlo.after (hostOps1 (F := Ideal)) V0 (Proc.devRef .tc main_v21) : S1x128.Idx → EReal)
    = Cert.Gnn.bRow (V0 (Proc.devRef .tc main_arg6) : S3x128.Idx → EReal) 0 := by
  funext i
  obtain ⟨r, q, rfl⟩ : ∃ (r : Fin 1) (q : Fin 128), i = ix2 r q := ⟨i 0, i 1, eq_ix2 i⟩
  after_results
  show shapeCast S1x128 (shapeCast S128 (extractStridedSlice S1x128 ![0, 0] (V0 (Proc.devRef .tc main_arg6))
    slices_S3x128_S1x128_0_0) shapeCasts_S1x128_S128) shapeCasts_S128_S1x128 (ix2 r q) = _
  exact sliceRow_apply 0 (by decide) _ _ _ _ r q

theorem ops1_v24 : (StableHlo.after (hostOps1 (F := Ideal)) V0 (Proc.devRef .tc main_v24) : S128x128.Idx → EReal)
    = Cert.Gnn.wN (V0 (Proc.devRef .tc main_arg7) : S3x128x128.Idx → EReal) 0 := by
  funext i
  obtain ⟨p, q, rfl⟩ : ∃ (p : Fin 128) (q : Fin 128), i = ix2 p q := ⟨i 0, i 1, eq_ix2 i⟩
  after_results
  show shapeCast S128x128 (extractStridedSlice S1x128x128 ![0, 0, 0] (V0 (Proc.devRef .tc main_arg7))
    slices_S3x128x128_S1x128x128_0_0_0) shapeCasts_S1x128x128_S128x128 (ix2 p q) = _
  exact sliceMat_apply 0 (by decide) _ _ _ p q

theorem ops1_v27 : (StableHlo.after (hostOps1 (F := Ideal)) V0 (Proc.devRef .tc main_v27) : S1x128.Idx → EReal)
    = Cert.Gnn.bRow (V0 (Proc.devRef .tc main_arg8) : S3x128.Idx → EReal) 0 := by
  funext i
  obtain ⟨r, q, rfl⟩ : ∃ (r : Fin 1) (q : Fin 128), i = ix2 r q := ⟨i 0, i 1, eq_ix2 i⟩
  after_results
  show shapeCast S1x128 (shapeCast S128 (extractStridedSlice S1x128 ![0, 0] (V0 (Proc.devRef .tc main_arg8))
    slices_S3x128_S1x128_0_0) shapeCasts_S1x128_S128) shapeCasts_S128_S1x128 (ix2 r q) = _
  exact sliceRow_apply 0 (by decide) _ _ _ _ r q

/-! ## Layer 1 -/

theorem ops2_1_v32 : (StableHlo.after (hostOps2_1 (F := Ideal)) V0 (Proc.devRef .tc main_v32) : S64x128.Idx → EReal)
    = Cert.Gnn.wE (V0 (Proc.devRef .tc main_arg3) : S3x64x128.Idx → EReal) 1 := by
  funext i
  obtain ⟨p, q, rfl⟩ : ∃ (p : Fin 64) (q : Fin 128), i = ix2 p q := ⟨i 0, i 1, eq_ix2 i⟩
  after_results
  show shapeCast S64x128 (extractStridedSlice S1x64x128 ![1, 0, 0] (V0 (Proc.devRef .tc main_arg3))
    slices_S3x64x128_S1x64x128_1_0_0) shapeCasts_S1x64x128_S64x128 (ix2 p q) = _
  exact sliceMat_apply 1 (by decide) _ _ _ p q

theorem ops2_1_v35 : (StableHlo.after (hostOps2_1 (F := Ideal)) V0 (Proc.devRef .tc main_v35) : S1x128.Idx → EReal)
    = Cert.Gnn.bRow (V0 (Proc.devRef .tc main_arg4) : S3x128.Idx → EReal) 1 := by
  funext i
  obtain ⟨r, q, rfl⟩ : ∃ (r : Fin 1) (q : Fin 128), i = ix2 r q := ⟨i 0, i 1, eq_ix2 i⟩
  after_results
  show shapeCast S1x128 (shapeCast S128 (extractStridedSlice S1x128 ![1, 0] (V0 (Proc.devRef .tc main_arg4))
    slices_S3x128_S1x128_1_0) shapeCasts_S1x128_S128) shapeCasts_S128_S1x128 (ix2 r q) = _
  exact sliceRow_apply 1 (by decide) _ _ _ _ r q

theorem ops3_v42 : (StableHlo.after (hostOps3 (F := Ideal)) V0 (Proc.devRef .tc main_v42) : S128x128.Idx → EReal)
    = Cert.Gnn.wN (V0 (Proc.devRef .tc main_arg5) : S3x128x128.Idx → EReal) 1 := by
  funext i
  obtain ⟨p, q, rfl⟩ : ∃ (p : Fin 128) (q : Fin 128), i = ix2 p q := ⟨i 0, i 1, eq_ix2 i⟩
  after_results
  show shapeCast S128x128 (extractStridedSlice S1x128x128 ![1, 0, 0] (V0 (Proc.devRef .tc main_arg5))
    slices_S3x128x128_S1x128x128_1_0_0) shapeCasts_S1x128x128_S128x128 (ix2 p q) = _
  exact sliceMat_apply 1 (by decide) _ _ _ p q

theorem ops3_v45 : (StableHlo.after (hostOps3 (F := Ideal)) V0 (Proc.devRef .tc main_v45) : S1x128.Idx → EReal)
    = Cert.Gnn.bRow (V0 (Proc.devRef .tc main_arg6) : S3x128.Idx → EReal) 1 := by
  funext i
  obtain ⟨r, q, rfl⟩ : ∃ (r : Fin 1) (q : Fin 128), i = ix2 r q := ⟨i 0, i 1, eq_ix2 i⟩
  after_results
  show shapeCast S1x128 (shapeCast S128 (extractStridedSlice S1x128 ![1, 0] (V0 (Proc.devRef .tc main_arg6))
    slices_S3x128_S1x128_1_0) shapeCasts_S1x128_S128) shapeCasts_S128_S1x128 (ix2 r q) = _
  exact sliceRow_apply 1 (by decide) _ _ _ _ r q

theorem ops3_v48 : (StableHlo.after (hostOps3 (F := Ideal)) V0 (Proc.devRef .tc main_v48) : S128x128.Idx → EReal)
    = Cert.Gnn.wN (V0 (Proc.devRef .tc main_arg7) : S3x128x128.Idx → EReal) 1 := by
  funext i
  obtain ⟨p, q, rfl⟩ : ∃ (p : Fin 128) (q : Fin 128), i = ix2 p q := ⟨i 0, i 1, eq_ix2 i⟩
  after_results
  show shapeCast S128x128 (extractStridedSlice S1x128x128 ![1, 0, 0] (V0 (Proc.devRef .tc main_arg7))
    slices_S3x128x128_S1x128x128_1_0_0) shapeCasts_S1x128x128_S128x128 (ix2 p q) = _
  exact sliceMat_apply 1 (by decide) _ _ _ p q

theorem ops3_v51 : (StableHlo.after (hostOps3 (F := Ideal)) V0 (Proc.devRef .tc main_v51) : S1x128.Idx → EReal)
    = Cert.Gnn.bRow (V0 (Proc.devRef .tc main_arg8) : S3x128.Idx → EReal) 1 := by
  funext i
  obtain ⟨r, q, rfl⟩ : ∃ (r : Fin 1) (q : Fin 128), i = ix2 r q := ⟨i 0, i 1, eq_ix2 i⟩
  after_results
  show shapeCast S1x128 (shapeCast S128 (extractStridedSlice S1x128 ![1, 0] (V0 (Proc.devRef .tc main_arg8))
    slices_S3x128_S1x128_1_0) shapeCasts_S1x128_S128) shapeCasts_S128_S1x128 (ix2 r q) = _
  exact sliceRow_apply 1 (by decide) _ _ _ _ r q

/-! ## Layer 2 -/

theorem ops4_1_v56 : (StableHlo.after (hostOps4_1 (F := Ideal)) V0 (Proc.devRef .tc main_v56) : S64x128.Idx → EReal)
    = Cert.Gnn.wE (V0 (Proc.devRef .tc main_arg3) : S3x64x128.Idx → EReal) 2 := by
  funext i
  obtain ⟨p, q, rfl⟩ : ∃ (p : Fin 64) (q : Fin 128), i = ix2 p q := ⟨i 0, i 1, eq_ix2 i⟩
  after_results
  show shapeCast S64x128 (extractStridedSlice S1x64x128 ![2, 0, 0] (V0 (Proc.devRef .tc main_arg3))
    slices_S3x64x128_S1x64x128_2_0_0) shapeCasts_S1x64x128_S64x128 (ix2 p q) = _
  exact sliceMat_apply 2 (by decide) _ _ _ p q

theorem ops4_1_v59 : (StableHlo.after (hostOps4_1 (F := Ideal)) V0 (Proc.devRef .tc main_v59) : S1x128.Idx → EReal)
    = Cert.Gnn.bRow (V0 (Proc.devRef .tc main_arg4) : S3x128.Idx → EReal) 2 := by
  funext i
  obtain ⟨r, q, rfl⟩ : ∃ (r : Fin 1) (q : Fin 128), i = ix2 r q := ⟨i 0, i 1, eq_ix2 i⟩
  after_results
  show shapeCast S1x128 (shapeCast S128 (extractStridedSlice S1x128 ![2, 0] (V0 (Proc.devRef .tc main_arg4))
    slices_S3x128_S1x128_2_0) shapeCasts_S1x128_S128) shapeCasts_S128_S1x128 (ix2 r q) = _
  exact sliceRow_apply 2 (by decide) _ _ _ _ r q

theorem ops5_v66 : (StableHlo.after (hostOps5 (F := Ideal)) V0 (Proc.devRef .tc main_v66) : S128x128.Idx → EReal)
    = Cert.Gnn.wN (V0 (Proc.devRef .tc main_arg5) : S3x128x128.Idx → EReal) 2 := by
  funext i
  obtain ⟨p, q, rfl⟩ : ∃ (p : Fin 128) (q : Fin 128), i = ix2 p q := ⟨i 0, i 1, eq_ix2 i⟩
  after_results
  show shapeCast S128x128 (extractStridedSlice S1x128x128 ![2, 0, 0] (V0 (Proc.devRef .tc main_arg5))
    slices_S3x128x128_S1x128x128_2_0_0) shapeCasts_S1x128x128_S128x128 (ix2 p q) = _
  exact sliceMat_apply 2 (by decide) _ _ _ p q

theorem ops5_v69 : (StableHlo.after (hostOps5 (F := Ideal)) V0 (Proc.devRef .tc main_v69) : S1x128.Idx → EReal)
    = Cert.Gnn.bRow (V0 (Proc.devRef .tc main_arg6) : S3x128.Idx → EReal) 2 := by
  funext i
  obtain ⟨r, q, rfl⟩ : ∃ (r : Fin 1) (q : Fin 128), i = ix2 r q := ⟨i 0, i 1, eq_ix2 i⟩
  after_results
  show shapeCast S1x128 (shapeCast S128 (extractStridedSlice S1x128 ![2, 0] (V0 (Proc.devRef .tc main_arg6))
    slices_S3x128_S1x128_2_0) shapeCasts_S1x128_S128) shapeCasts_S128_S1x128 (ix2 r q) = _
  exact sliceRow_apply 2 (by decide) _ _ _ _ r q

theorem ops5_v72 : (StableHlo.after (hostOps5 (F := Ideal)) V0 (Proc.devRef .tc main_v72) : S128x128.Idx → EReal)
    = Cert.Gnn.wN (V0 (Proc.devRef .tc main_arg7) : S3x128x128.Idx → EReal) 2 := by
  funext i
  obtain ⟨p, q, rfl⟩ : ∃ (p : Fin 128) (q : Fin 128), i = ix2 p q := ⟨i 0, i 1, eq_ix2 i⟩
  after_results
  show shapeCast S128x128 (extractStridedSlice S1x128x128 ![2, 0, 0] (V0 (Proc.devRef .tc main_arg7))
    slices_S3x128x128_S1x128x128_2_0_0) shapeCasts_S1x128x128_S128x128 (ix2 p q) = _
  exact sliceMat_apply 2 (by decide) _ _ _ p q

theorem ops5_v75 : (StableHlo.after (hostOps5 (F := Ideal)) V0 (Proc.devRef .tc main_v75) : S1x128.Idx → EReal)
    = Cert.Gnn.bRow (V0 (Proc.devRef .tc main_arg8) : S3x128.Idx → EReal) 2 := by
  funext i
  obtain ⟨r, q, rfl⟩ : ∃ (r : Fin 1) (q : Fin 128), i = ix2 r q := ⟨i 0, i 1, eq_ix2 i⟩
  after_results
  show shapeCast S1x128 (shapeCast S128 (extractStridedSlice S1x128 ![2, 0] (V0 (Proc.devRef .tc main_arg8))
    slices_S3x128_S1x128_2_0) shapeCasts_S1x128_S128) shapeCasts_S128_S1x128 (ix2 r q) = _
  exact sliceRow_apply 2 (by decide) _ _ _ _ r q

end Cert.KernelIdeal.Stretch

end
-- ==== Proof.KSteps.lean ====
/-
  The bookkeeping that carries a buffer's contents across the boundaries of the program's run. The run is a fold
  through 22 boundary valuations W0 … W21: across a stretch of host operations the next valuation is the fold of the
  stretch's operations over the previous one, and a buffer no operation of the stretch writes keeps its contents;
  across a region the next valuation changes the region's own arrays only, and an input array is left as entered.
  Each step below says one buffer is unchanged across one boundary; the later sections chain them.
-/
import proofs.«402358_j61787399520742_1_alg».proof.Proof.Gen.KernelIdeal.Frame
import Idealize.ShloMosaic.PureOps.Ideal
import Idealize.ShloMosaic.Lib.StableHlo.Run

set_option maxRecDepth 16384

noncomputable section

namespace Cert.KernelIdeal.Trace

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The references each stretch of host operations writes, in order -/

def wr0 : List (Ref sig .tc) := [main_v0, main_v1, main_v2, main_v3, main_v4]
def wr0_1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v5]
def wr0_2 : List (Ref sig .tc) := [main_v6, main_v7, main_v8, main_v9, main_v10, main_v11]
def wr1 : List (Ref sig .tc) := [main_cst, main_v13, main_v14, main_v15, main_v16, main_v17, main_v18, main_v19, main_v20, main_v21, main_v22, main_v23, main_v24, main_v25, main_v26, main_v27]
def wr2 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v29]
def wr2_1 : List (Ref sig .tc) := [main_v30, main_v31, main_v32, main_v33, main_v34, main_v35]
def wr3 : List (Ref sig .tc) := [main_cst_0, main_v37, main_v38, main_v39, main_v40, main_v41, main_v42, main_v43, main_v44, main_v45, main_v46, main_v47, main_v48, main_v49, main_v50, main_v51]
def wr4 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v53]
def wr4_1 : List (Ref sig .tc) := [main_v54, main_v55, main_v56, main_v57, main_v58, main_v59]
def wr5 : List (Ref sig .tc) := [main_cst_1, main_v61, main_v62, main_v63, main_v64, main_v65, main_v66, main_v67, main_v68, main_v69, main_v70, main_v71, main_v72, main_v73, main_v74, main_v75]
def wr6 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v77]
def wr6_1 : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v78]
def wr6_2 : List (Ref sig .tc) := [main_v79, main_v80, main_v81, main_v82, main_v83, main_v84, main_v85, main_cst_2, main_v86, main_c, main_v87, main_v88, main_cst_3, main_v89, main_v90, main_c_4, main_v91, main_c_5, main_v92, main_v93, main_v94]
def wr7 : List (Ref sig .tc) := [main_v96, main_v97]

/-- A reference in a list is, as a device buffer, among the list's device buffers. -/
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-! ## Every operation of a stretch writes a reference of the stretch's list (each operation writes its one result) -/

theorem hW0 : (hostOps0 : List (HloOp τ sig (Elt Ideal))).Forall fun op => op.writes ⊆ (wr0.map (Proc.devRef (τ := τ) .tc)).toFinset :=
  ⟨sub_of_mem (y := main_v0) (by decide), sub_of_mem (y := main_v1) (by decide), sub_of_mem (y := main_v2) (by decide), sub_of_mem (y := main_v3) (by decide), sub_of_mem (y := main_v4) (by decide)⟩
theorem hW0_1 : (hostOps0_1 : List (HloOp τ sig (Elt Ideal))).Forall fun op => op.writes ⊆ (wr0_1.map (Proc.devRef (τ := τ) .tc)).toFinset :=
  ⟨sub_of_mem (y := main_call0_c) (by decide), sub_of_mem (y := main_call0_v0) (by decide), sub_of_mem (y := main_call0_v1) (by decide), sub_of_mem (y := main_call0_c_0) (by decide), sub_of_mem (y := main_call0_v2) (by decide), sub_of_mem (y := main_call0_v3) (by decide), sub_of_mem (y := main_call0_v4) (by decide), sub_of_mem (y := main_call0_v5) (by decide), sub_of_mem (y := main_call0_c_1) (by decide), sub_of_mem (y := main_call0_c_2) (by decide), sub_of_mem (y := main_call0_v6) (by decide), sub_of_mem (y := main_call0_v7) (by decide), sub_of_mem (y := main_call0_v8) (by decide), sub_of_mem (y := main_call0_v9) (by decide), sub_of_mem (y := main_call0_v10) (by decide), sub_of_mem (y := main_call0_v11) (by decide), sub_of_mem (y := main_call0_c_3) (by decide), sub_of_mem (y := main_call0_v12) (by decide), sub_of_mem (y := main_call0_v13) (by decide), sub_of_mem (y := main_call0_v14) (by decide), sub_of_mem (y := main_call0_cst) (by decide), sub_of_mem (y := main_call0_v15) (by decide), sub_of_mem (y := main_v5) (by decide)⟩
theorem hW0_2 : (hostOps0_2 : List (HloOp τ sig (Elt Ideal))).Forall fun op => op.writes ⊆ (wr0_2.map (Proc.devRef (τ := τ) .tc)).toFinset :=
  ⟨sub_of_mem (y := main_v6) (by decide), sub_of_mem (y := main_v7) (by decide), sub_of_mem (y := main_v8) (by decide), sub_of_mem (y := main_v9) (by decide), sub_of_mem (y := main_v10) (by decide), sub_of_mem (y := main_v11) (by decide)⟩
theorem hW1 : (hostOps1 : List (HloOp τ sig (Elt Ideal))).Forall fun op => op.writes ⊆ (wr1.map (Proc.devRef (τ := τ) .tc)).toFinset :=
  ⟨sub_of_mem (y := main_cst) (by decide), sub_of_mem (y := main_v13) (by decide), sub_of_mem (y := main_v14) (by decide), sub_of_mem (y := main_v15) (by decide), sub_of_mem (y := main_v16) (by decide), sub_of_mem (y := main_v17) (by decide), sub_of_mem (y := main_v18) (by decide), sub_of_mem (y := main_v19) (by decide), sub_of_mem (y := main_v20) (by decide), sub_of_mem (y := main_v21) (by decide), sub_of_mem (y := main_v22) (by decide), sub_of_mem (y := main_v23) (by decide), sub_of_mem (y := main_v24) (by decide), sub_of_mem (y := main_v25) (by decide), sub_of_mem (y := main_v26) (by decide), sub_of_mem (y := main_v27) (by decide)⟩
theorem hW2 : (hostOps2 : List (HloOp τ sig (Elt Ideal))).Forall fun op => op.writes ⊆ (wr2.map (Proc.devRef (τ := τ) .tc)).toFinset :=
  ⟨sub_of_mem (y := main_call1_c) (by decide), sub_of_mem (y := main_call1_v0) (by decide), sub_of_mem (y := main_call1_v1) (by decide), sub_of_mem (y := main_call1_c_0) (by decide), sub_of_mem (y := main_call1_v2) (by decide), sub_of_mem (y := main_call1_v3) (by decide), sub_of_mem (y := main_call1_v4) (by decide), sub_of_mem (y := main_call1_v5) (by decide), sub_of_mem (y := main_call1_c_1) (by decide), sub_of_mem (y := main_call1_c_2) (by decide), sub_of_mem (y := main_call1_v6) (by decide), sub_of_mem (y := main_call1_v7) (by decide), sub_of_mem (y := main_call1_v8) (by decide), sub_of_mem (y := main_call1_v9) (by decide), sub_of_mem (y := main_call1_v10) (by decide), sub_of_mem (y := main_call1_v11) (by decide), sub_of_mem (y := main_call1_c_3) (by decide), sub_of_mem (y := main_call1_v12) (by decide), sub_of_mem (y := main_call1_v13) (by decide), sub_of_mem (y := main_call1_v14) (by decide), sub_of_mem (y := main_call1_cst) (by decide), sub_of_mem (y := main_call1_v15) (by decide), sub_of_mem (y := main_v29) (by decide)⟩
theorem hW2_1 : (hostOps2_1 : List (HloOp τ sig (Elt Ideal))).Forall fun op => op.writes ⊆ (wr2_1.map (Proc.devRef (τ := τ) .tc)).toFinset :=
  ⟨sub_of_mem (y := main_v30) (by decide), sub_of_mem (y := main_v31) (by decide), sub_of_mem (y := main_v32) (by decide), sub_of_mem (y := main_v33) (by decide), sub_of_mem (y := main_v34) (by decide), sub_of_mem (y := main_v35) (by decide)⟩
theorem hW3 : (hostOps3 : List (HloOp τ sig (Elt Ideal))).Forall fun op => op.writes ⊆ (wr3.map (Proc.devRef (τ := τ) .tc)).toFinset :=
  ⟨sub_of_mem (y := main_cst_0) (by decide), sub_of_mem (y := main_v37) (by decide), sub_of_mem (y := main_v38) (by decide), sub_of_mem (y := main_v39) (by decide), sub_of_mem (y := main_v40) (by decide), sub_of_mem (y := main_v41) (by decide), sub_of_mem (y := main_v42) (by decide), sub_of_mem (y := main_v43) (by decide), sub_of_mem (y := main_v44) (by decide), sub_of_mem (y := main_v45) (by decide), sub_of_mem (y := main_v46) (by decide), sub_of_mem (y := main_v47) (by decide), sub_of_mem (y := main_v48) (by decide), sub_of_mem (y := main_v49) (by decide), sub_of_mem (y := main_v50) (by decide), sub_of_mem (y := main_v51) (by decide)⟩
theorem hW4 : (hostOps4 : List (HloOp τ sig (Elt Ideal))).Forall fun op => op.writes ⊆ (wr4.map (Proc.devRef (τ := τ) .tc)).toFinset :=
  ⟨sub_of_mem (y := main_call2_c) (by decide), sub_of_mem (y := main_call2_v0) (by decide), sub_of_mem (y := main_call2_v1) (by decide), sub_of_mem (y := main_call2_c_0) (by decide), sub_of_mem (y := main_call2_v2) (by decide), sub_of_mem (y := main_call2_v3) (by decide), sub_of_mem (y := main_call2_v4) (by decide), sub_of_mem (y := main_call2_v5) (by decide), sub_of_mem (y := main_call2_c_1) (by decide), sub_of_mem (y := main_call2_c_2) (by decide), sub_of_mem (y := main_call2_v6) (by decide), sub_of_mem (y := main_call2_v7) (by decide), sub_of_mem (y := main_call2_v8) (by decide), sub_of_mem (y := main_call2_v9) (by decide), sub_of_mem (y := main_call2_v10) (by decide), sub_of_mem (y := main_call2_v11) (by decide), sub_of_mem (y := main_call2_c_3) (by decide), sub_of_mem (y := main_call2_v12) (by decide), sub_of_mem (y := main_call2_v13) (by decide), sub_of_mem (y := main_call2_v14) (by decide), sub_of_mem (y := main_call2_cst) (by decide), sub_of_mem (y := main_call2_v15) (by decide), sub_of_mem (y := main_v53) (by decide)⟩
theorem hW4_1 : (hostOps4_1 : List (HloOp τ sig (Elt Ideal))).Forall fun op => op.writes ⊆ (wr4_1.map (Proc.devRef (τ := τ) .tc)).toFinset :=
  ⟨sub_of_mem (y := main_v54) (by decide), sub_of_mem (y := main_v55) (by decide), sub_of_mem (y := main_v56) (by decide), sub_of_mem (y := main_v57) (by decide), sub_of_mem (y := main_v58) (by decide), sub_of_mem (y := main_v59) (by decide)⟩
theorem hW5 : (hostOps5 : List (HloOp τ sig (Elt Ideal))).Forall fun op => op.writes ⊆ (wr5.map (Proc.devRef (τ := τ) .tc)).toFinset :=
  ⟨sub_of_mem (y := main_cst_1) (by decide), sub_of_mem (y := main_v61) (by decide), sub_of_mem (y := main_v62) (by decide), sub_of_mem (y := main_v63) (by decide), sub_of_mem (y := main_v64) (by decide), sub_of_mem (y := main_v65) (by decide), sub_of_mem (y := main_v66) (by decide), sub_of_mem (y := main_v67) (by decide), sub_of_mem (y := main_v68) (by decide), sub_of_mem (y := main_v69) (by decide), sub_of_mem (y := main_v70) (by decide), sub_of_mem (y := main_v71) (by decide), sub_of_mem (y := main_v72) (by decide), sub_of_mem (y := main_v73) (by decide), sub_of_mem (y := main_v74) (by decide), sub_of_mem (y := main_v75) (by decide)⟩
theorem hW6 : (hostOps6 : List (HloOp τ sig (Elt Ideal))).Forall fun op => op.writes ⊆ (wr6.map (Proc.devRef (τ := τ) .tc)).toFinset :=
  ⟨sub_of_mem (y := main_call3_c) (by decide), sub_of_mem (y := main_call3_v0) (by decide), sub_of_mem (y := main_call3_v1) (by decide), sub_of_mem (y := main_call3_c_0) (by decide), sub_of_mem (y := main_call3_v2) (by decide), sub_of_mem (y := main_call3_v3) (by decide), sub_of_mem (y := main_call3_v4) (by decide), sub_of_mem (y := main_call3_v5) (by decide), sub_of_mem (y := main_call3_c_1) (by decide), sub_of_mem (y := main_call3_c_2) (by decide), sub_of_mem (y := main_call3_v6) (by decide), sub_of_mem (y := main_call3_v7) (by decide), sub_of_mem (y := main_call3_v8) (by decide), sub_of_mem (y := main_call3_v9) (by decide), sub_of_mem (y := main_call3_v10) (by decide), sub_of_mem (y := main_call3_v11) (by decide), sub_of_mem (y := main_call3_c_3) (by decide), sub_of_mem (y := main_call3_v12) (by decide), sub_of_mem (y := main_call3_v13) (by decide), sub_of_mem (y := main_call3_v14) (by decide), sub_of_mem (y := main_call3_cst) (by decide), sub_of_mem (y := main_call3_v15) (by decide), sub_of_mem (y := main_v77) (by decide)⟩
theorem hW6_1 : (hostOps6_1 : List (HloOp τ sig (Elt Ideal))).Forall fun op => op.writes ⊆ (wr6_1.map (Proc.devRef (τ := τ) .tc)).toFinset :=
  ⟨sub_of_mem (y := main_call4_c) (by decide), sub_of_mem (y := main_call4_v0) (by decide), sub_of_mem (y := main_call4_v1) (by decide), sub_of_mem (y := main_call4_c_0) (by decide), sub_of_mem (y := main_call4_v2) (by decide), sub_of_mem (y := main_call4_v3) (by decide), sub_of_mem (y := main_call4_v4) (by decide), sub_of_mem (y := main_call4_v5) (by decide), sub_of_mem (y := main_call4_c_1) (by decide), sub_of_mem (y := main_call4_c_2) (by decide), sub_of_mem (y := main_call4_v6) (by decide), sub_of_mem (y := main_call4_v7) (by decide), sub_of_mem (y := main_call4_v8) (by decide), sub_of_mem (y := main_call4_v9) (by decide), sub_of_mem (y := main_call4_v10) (by decide), sub_of_mem (y := main_call4_v11) (by decide), sub_of_mem (y := main_call4_c_3) (by decide), sub_of_mem (y := main_call4_v12) (by decide), sub_of_mem (y := main_call4_v13) (by decide), sub_of_mem (y := main_call4_v14) (by decide), sub_of_mem (y := main_call4_cst) (by decide), sub_of_mem (y := main_call4_v15) (by decide), sub_of_mem (y := main_v78) (by decide)⟩
theorem hW6_2 : (hostOps6_2 : List (HloOp τ sig (Elt Ideal))).Forall fun op => op.writes ⊆ (wr6_2.map (Proc.devRef (τ := τ) .tc)).toFinset :=
  ⟨sub_of_mem (y := main_v79) (by decide), sub_of_mem (y := main_v80) (by decide), sub_of_mem (y := main_v81) (by decide), sub_of_mem (y := main_v82) (by decide), sub_of_mem (y := main_v83) (by decide), sub_of_mem (y := main_v84) (by decide), sub_of_mem (y := main_v85) (by decide), sub_of_mem (y := main_cst_2) (by decide), sub_of_mem (y := main_v86) (by decide), sub_of_mem (y := main_c) (by decide), sub_of_mem (y := main_v87) (by decide), sub_of_mem (y := main_v88) (by decide), sub_of_mem (y := main_cst_3) (by decide), sub_of_mem (y := main_v89) (by decide), sub_of_mem (y := main_v90) (by decide), sub_of_mem (y := main_c_4) (by decide), sub_of_mem (y := main_v91) (by decide), sub_of_mem (y := main_c_5) (by decide), sub_of_mem (y := main_v92) (by decide), sub_of_mem (y := main_v93) (by decide), sub_of_mem (y := main_v94) (by decide)⟩
theorem hW7 : (hostOps7 : List (HloOp τ sig (Elt Ideal))).Forall fun op => op.writes ⊆ (wr7.map (Proc.devRef (τ := τ) .tc)).toFinset :=
  ⟨sub_of_mem (y := main_v96) (by decide), sub_of_mem (y := main_v97) (by decide)⟩

/-! ## One step per stretch: a reference the stretch does not write holds after it what it held before -/

theorem step_ops0 (r : Ref sig .tc) (hr : r ∉ wr0 := by decide) :
    W1 (F := Ideal) m ρ c (Proc.devRef .tc r) = W0 m ρ c (Proc.devRef .tc r) :=
  StableHlo.after_of_writes_sub hostOps0 (W0 m ρ c) hW0 hr
theorem step_ops0_1 (r : Ref sig .tc) (hr : r ∉ wr0_1 := by decide) :
    W2 (F := Ideal) m ρ c (Proc.devRef .tc r) = W1 m ρ c (Proc.devRef .tc r) :=
  StableHlo.after_of_writes_sub hostOps0_1 (W1 m ρ c) hW0_1 hr
theorem step_ops0_2 (r : Ref sig .tc) (hr : r ∉ wr0_2 := by decide) :
    W3 (F := Ideal) m ρ c (Proc.devRef .tc r) = W2 m ρ c (Proc.devRef .tc r) :=
  StableHlo.after_of_writes_sub hostOps0_2 (W2 m ρ c) hW0_2 hr
theorem step_ops1 (r : Ref sig .tc) (hr : r ∉ wr1 := by decide) :
    W5 (F := Ideal) m ρ c (Proc.devRef .tc r) = W4 m ρ c (Proc.devRef .tc r) :=
  StableHlo.after_of_writes_sub hostOps1 (W4 m ρ c) hW1 hr
theorem step_ops2 (r : Ref sig .tc) (hr : r ∉ wr2 := by decide) :
    W7 (F := Ideal) m ρ c (Proc.devRef .tc r) = W6 m ρ c (Proc.devRef .tc r) :=
  StableHlo.after_of_writes_sub hostOps2 (W6 m ρ c) hW2 hr
theorem step_ops2_1 (r : Ref sig .tc) (hr : r ∉ wr2_1 := by decide) :
    W8 (F := Ideal) m ρ c (Proc.devRef .tc r) = W7 m ρ c (Proc.devRef .tc r) :=
  StableHlo.after_of_writes_sub hostOps2_1 (W7 m ρ c) hW2_1 hr
theorem step_ops3 (r : Ref sig .tc) (hr : r ∉ wr3 := by decide) :
    W10 (F := Ideal) m ρ c (Proc.devRef .tc r) = W9 m ρ c (Proc.devRef .tc r) :=
  StableHlo.after_of_writes_sub hostOps3 (W9 m ρ c) hW3 hr
theorem step_ops4 (r : Ref sig .tc) (hr : r ∉ wr4 := by decide) :
    W12 (F := Ideal) m ρ c (Proc.devRef .tc r) = W11 m ρ c (Proc.devRef .tc r) :=
  StableHlo.after_of_writes_sub hostOps4 (W11 m ρ c) hW4 hr
theorem step_ops4_1 (r : Ref sig .tc) (hr : r ∉ wr4_1 := by decide) :
    W13 (F := Ideal) m ρ c (Proc.devRef .tc r) = W12 m ρ c (Proc.devRef .tc r) :=
  StableHlo.after_of_writes_sub hostOps4_1 (W12 m ρ c) hW4_1 hr
theorem step_ops5 (r : Ref sig .tc) (hr : r ∉ wr5 := by decide) :
    W15 (F := Ideal) m ρ c (Proc.devRef .tc r) = W14 m ρ c (Proc.devRef .tc r) :=
  StableHlo.after_of_writes_sub hostOps5 (W14 m ρ c) hW5 hr
theorem step_ops6 (r : Ref sig .tc) (hr : r ∉ wr6 := by decide) :
    W17 (F := Ideal) m ρ c (Proc.devRef .tc r) = W16 m ρ c (Proc.devRef .tc r) :=
  StableHlo.after_of_writes_sub hostOps6 (W16 m ρ c) hW6 hr
theorem step_ops6_1 (r : Ref sig .tc) (hr : r ∉ wr6_1 := by decide) :
    W18 (F := Ideal) m ρ c (Proc.devRef .tc r) = W17 m ρ c (Proc.devRef .tc r) :=
  StableHlo.after_of_writes_sub hostOps6_1 (W17 m ρ c) hW6_1 hr
theorem step_ops6_2 (r : Ref sig .tc) (hr : r ∉ wr6_2 := by decide) :
    W19 (F := Ideal) m ρ c (Proc.devRef .tc r) = W18 m ρ c (Proc.devRef .tc r) :=
  StableHlo.after_of_writes_sub hostOps6_2 (W18 m ρ c) hW6_2 hr
theorem step_ops7 (r : Ref sig .tc) (hr : r ∉ wr7 := by decide) :
    W21 (F := Ideal) m ρ c (Proc.devRef .tc r) = W20 m ρ c (Proc.devRef .tc r) :=
  StableHlo.after_of_writes_sub hostOps7 (W20 m ρ c) hW7 hr

/-! ## One step per region: a reference that is none of the region's arrays holds at its exit what it held at entry -/

theorem step_reg0 (r : Ref sig .tc) (hr : ∀ w, Pipeline.arrRef spec0 w ≠ r := by decide) :
    W4 (F := Ideal) m ρ c (Proc.devRef .tc r) = W3 m ρ c (Proc.devRef .tc r) := W4_of_ne m ρ c r hr
theorem step_reg1 (r : Ref sig .tc) (hr : ∀ w, Pipeline.arrRef spec1 w ≠ r := by decide) :
    W6 (F := Ideal) m ρ c (Proc.devRef .tc r) = W5 m ρ c (Proc.devRef .tc r) := W6_of_ne m ρ c r hr
theorem step_reg2 (r : Ref sig .tc) (hr : ∀ w, Pipeline.arrRef spec2 w ≠ r := by decide) :
    W9 (F := Ideal) m ρ c (Proc.devRef .tc r) = W8 m ρ c (Proc.devRef .tc r) := W9_of_ne m ρ c r hr
theorem step_reg3 (r : Ref sig .tc) (hr : ∀ w, Pipeline.arrRef spec3 w ≠ r := by decide) :
    W11 (F := Ideal) m ρ c (Proc.devRef .tc r) = W10 m ρ c (Proc.devRef .tc r) := W11_of_ne m ρ c r hr
theorem step_reg4 (r : Ref sig .tc) (hr : ∀ w, Pipeline.arrRef spec4 w ≠ r := by decide) :
    W14 (F := Ideal) m ρ c (Proc.devRef .tc r) = W13 m ρ c (Proc.devRef .tc r) := W14_of_ne m ρ c r hr
theorem step_reg5 (r : Ref sig .tc) (hr : ∀ w, Pipeline.arrRef spec5 w ≠ r := by decide) :
    W16 (F := Ideal) m ρ c (Proc.devRef .tc r) = W15 m ρ c (Proc.devRef .tc r) := W16_of_ne m ρ c r hr
theorem step_reg6 (r : Ref sig .tc) (hr : ∀ w, Pipeline.arrRef spec6 w ≠ r := by decide) :
    W20 (F := Ideal) m ρ c (Proc.devRef .tc r) = W19 m ρ c (Proc.devRef .tc r) := W20_of_ne m ρ c r hr

/-! ## An input array carried across its own region: the region's exit contents of an input are its entry contents -/

theorem step_reg0_v4 : W4 (F := Ideal) m ρ c (Proc.devRef .tc main_v4) = W3 m ρ c (Proc.devRef .tc main_v4) :=
  (W4_arr m ρ c 0).trans (((dat0 (V3 m ρ) c).arrAt_in 0 rfl _).trans (A_eq0 (V3 m ρ) c 0))
theorem step_reg2_v4 : W9 (F := Ideal) m ρ c (Proc.devRef .tc main_v4) = W8 m ρ c (Proc.devRef .tc main_v4) :=
  (W9_arr m ρ c 0).trans (((dat2 (V8 m ρ) c).arrAt_in 0 rfl _).trans (A_eq2 (V8 m ρ) c 0))

/-! ## The arguments at the boundaries where the program reads them: no stretch writes one and no region stages one
    of these, so each holds its launch contents -/

def argsW : List (Ref sig .tc) := [main_arg3, main_arg4, main_arg5, main_arg6, main_arg7, main_arg8, main_arg9, main_arg10, main_arg11, main_arg12]

theorem args_nw0 : ∀ r ∈ argsW, r ∉ wr0 := by decide
theorem args_nw0_1 : ∀ r ∈ argsW, r ∉ wr0_1 := by decide
theorem args_nw0_2 : ∀ r ∈ argsW, r ∉ wr0_2 := by decide
theorem args_nw1 : ∀ r ∈ argsW, r ∉ wr1 := by decide
theorem args_nw2 : ∀ r ∈ argsW, r ∉ wr2 := by decide
theorem args_nw2_1 : ∀ r ∈ argsW, r ∉ wr2_1 := by decide
theorem args_nw3 : ∀ r ∈ argsW, r ∉ wr3 := by decide
theorem args_nw4 : ∀ r ∈ argsW, r ∉ wr4 := by decide
theorem args_nw4_1 : ∀ r ∈ argsW, r ∉ wr4_1 := by decide
theorem args_nw5 : ∀ r ∈ argsW, r ∉ wr5 := by decide
theorem args_nw6 : ∀ r ∈ argsW, r ∉ wr6 := by decide
theorem args_nw6_1 : ∀ r ∈ argsW, r ∉ wr6_1 := by decide
theorem args_nr0 : ∀ r ∈ argsW, ∀ w, Pipeline.arrRef spec0 w ≠ r := by decide
theorem args_nr1 : ∀ r ∈ argsW, ∀ w, Pipeline.arrRef spec1 w ≠ r := by decide
theorem args_nr2 : ∀ r ∈ argsW, ∀ w, Pipeline.arrRef spec2 w ≠ r := by decide
theorem args_nr3 : ∀ r ∈ argsW, ∀ w, Pipeline.arrRef spec3 w ≠ r := by decide
theorem args_nr4 : ∀ r ∈ argsW, ∀ w, Pipeline.arrRef spec4 w ≠ r := by decide
theorem args_nr5 : ∀ r ∈ argsW, ∀ w, Pipeline.arrRef spec5 w ≠ r := by decide

theorem W2_arg (r : Ref sig .tc) (hr : r ∈ argsW := by decide) :
    W2 (F := Ideal) m ρ c (Proc.devRef .tc r) = m ((c : Thread nD τ).loc r) :=
  ((step_ops0_1 m ρ c r (args_nw0_1 r hr)).trans (step_ops0 m ρ c r (args_nw0 r hr))).trans rfl
theorem W4_arg (r : Ref sig .tc) (hr : r ∈ argsW := by decide) :
    W4 (F := Ideal) m ρ c (Proc.devRef .tc r) = m ((c : Thread nD τ).loc r) :=
  ((step_reg0 m ρ c r (args_nr0 r hr)).trans (step_ops0_2 m ρ c r (args_nw0_2 r hr))).trans (W2_arg m ρ c r hr)
theorem W7_arg (r : Ref sig .tc) (hr : r ∈ argsW := by decide) :
    W7 (F := Ideal) m ρ c (Proc.devRef .tc r) = m ((c : Thread nD τ).loc r) :=
  ((step_ops2 m ρ c r (args_nw2 r hr)).trans ((step_reg1 m ρ c r (args_nr1 r hr)).trans (step_ops1 m ρ c r (args_nw1 r hr)))).trans (W4_arg m ρ c r hr)
theorem W9_arg (r : Ref sig .tc) (hr : r ∈ argsW := by decide) :
    W9 (F := Ideal) m ρ c (Proc.devRef .tc r) = m ((c : Thread nD τ).loc r) :=
  ((step_reg2 m ρ c r (args_nr2 r hr)).trans (step_ops2_1 m ρ c r (args_nw2_1 r hr))).trans (W7_arg m ρ c r hr)
theorem W12_arg (r : Ref sig .tc) (hr : r ∈ argsW := by decide) :
    W12 (F := Ideal) m ρ c (Proc.devRef .tc r) = m ((c : Thread nD τ).loc r) :=
  ((step_ops4 m ρ c r (args_nw4 r hr)).trans ((step_reg3 m ρ c r (args_nr3 r hr)).trans (step_ops3 m ρ c r (args_nw3 r hr)))).trans (W9_arg m ρ c r hr)
theorem W14_arg (r : Ref sig .tc) (hr : r ∈ argsW := by decide) :
    W14 (F := Ideal) m ρ c (Proc.devRef .tc r) = m ((c : Thread nD τ).loc r) :=
  ((step_reg4 m ρ c r (args_nr4 r hr)).trans (step_ops4_1 m ρ c r (args_nw4_1 r hr))).trans (W12_arg m ρ c r hr)
theorem W18_arg (r : Ref sig .tc) (hr : r ∈ argsW := by decide) :
    W18 (F := Ideal) m ρ c (Proc.devRef .tc r) = m ((c : Thread nD τ).loc r) :=
  ((step_ops6_1 m ρ c r (args_nw6_1 r hr)).trans ((step_ops6 m ρ c r (args_nw6 r hr)).trans ((step_reg5 m ρ c r (args_nr5 r hr)).trans (step_ops5 m ρ c r (args_nw5 r hr))))).trans (W14_arg m ρ c r hr)

theorem W1_arg0 : W1 (F := Ideal) m ρ c (Proc.devRef .tc main_arg0) = m ((c : Thread nD τ).loc main_arg0) :=
  (step_ops0 m ρ c main_arg0).trans rfl
theorem W5_arg0 : W5 (F := Ideal) m ρ c (Proc.devRef .tc main_arg0) = m ((c : Thread nD τ).loc main_arg0) :=
  ((step_ops1 m ρ c main_arg0).trans ((step_reg0 m ρ c main_arg0).trans ((step_ops0_2 m ρ c main_arg0).trans ((step_ops0_1 m ρ c main_arg0).trans (step_ops0 m ρ c main_arg0))))).trans rfl

/-! ## The intermediates later boundaries read, each between the boundary that produced it and the one that reads it -/

theorem W6_v1 : W6 (F := Ideal) m ρ c (Proc.devRef .tc main_v1) = W1 m ρ c (Proc.devRef .tc main_v1) :=
  ((step_reg1 m ρ c main_v1).trans ((step_ops1 m ρ c main_v1).trans ((step_reg0 m ρ c main_v1).trans ((step_ops0_2 m ρ c main_v1).trans (step_ops0_1 m ρ c main_v1)))))
theorem W11_v1 : W11 (F := Ideal) m ρ c (Proc.devRef .tc main_v1) = W6 m ρ c (Proc.devRef .tc main_v1) :=
  ((step_reg3 m ρ c main_v1).trans ((step_ops3 m ρ c main_v1).trans ((step_reg2 m ρ c main_v1).trans ((step_ops2_1 m ρ c main_v1).trans (step_ops2 m ρ c main_v1)))))
theorem W16_v1 : W16 (F := Ideal) m ρ c (Proc.devRef .tc main_v1) = W11 m ρ c (Proc.devRef .tc main_v1) :=
  ((step_reg5 m ρ c main_v1).trans ((step_ops5 m ρ c main_v1).trans ((step_reg4 m ρ c main_v1).trans ((step_ops4_1 m ρ c main_v1).trans (step_ops4 m ρ c main_v1)))))
theorem W4_v3 : W4 (F := Ideal) m ρ c (Proc.devRef .tc main_v3) = W1 m ρ c (Proc.devRef .tc main_v3) :=
  ((step_reg0 m ρ c main_v3).trans ((step_ops0_2 m ρ c main_v3).trans (step_ops0_1 m ρ c main_v3)))
theorem W9_v3 : W9 (F := Ideal) m ρ c (Proc.devRef .tc main_v3) = W4 m ρ c (Proc.devRef .tc main_v3) :=
  ((step_reg2 m ρ c main_v3).trans ((step_ops2_1 m ρ c main_v3).trans ((step_ops2 m ρ c main_v3).trans ((step_reg1 m ρ c main_v3).trans (step_ops1 m ρ c main_v3)))))
theorem W14_v3 : W14 (F := Ideal) m ρ c (Proc.devRef .tc main_v3) = W9 m ρ c (Proc.devRef .tc main_v3) :=
  ((step_reg4 m ρ c main_v3).trans ((step_ops4_1 m ρ c main_v3).trans ((step_ops4 m ρ c main_v3).trans ((step_reg3 m ρ c main_v3).trans (step_ops3 m ρ c main_v3)))))
theorem W17_v3 : W17 (F := Ideal) m ρ c (Proc.devRef .tc main_v3) = W14 m ρ c (Proc.devRef .tc main_v3) :=
  ((step_ops6 m ρ c main_v3).trans ((step_reg5 m ρ c main_v3).trans (step_ops5 m ρ c main_v3)))
theorem W3_v4 : W3 (F := Ideal) m ρ c (Proc.devRef .tc main_v4) = W1 m ρ c (Proc.devRef .tc main_v4) :=
  ((step_ops0_2 m ρ c main_v4).trans (step_ops0_1 m ρ c main_v4))
theorem W8_v4 : W8 (F := Ideal) m ρ c (Proc.devRef .tc main_v4) = W3 m ρ c (Proc.devRef .tc main_v4) :=
  ((step_ops2_1 m ρ c main_v4).trans ((step_ops2 m ρ c main_v4).trans ((step_reg1 m ρ c main_v4).trans ((step_ops1 m ρ c main_v4).trans (step_reg0_v4 m ρ c)))))
theorem W13_v4 : W13 (F := Ideal) m ρ c (Proc.devRef .tc main_v4) = W8 m ρ c (Proc.devRef .tc main_v4) :=
  ((step_ops4_1 m ρ c main_v4).trans ((step_ops4 m ρ c main_v4).trans ((step_reg3 m ρ c main_v4).trans ((step_ops3 m ρ c main_v4).trans (step_reg2_v4 m ρ c)))))
theorem W10_v28 : W10 (F := Ideal) m ρ c (Proc.devRef .tc main_v28) = W6 m ρ c (Proc.devRef .tc main_v28) :=
  ((step_ops3 m ρ c main_v28).trans ((step_reg2 m ρ c main_v28).trans ((step_ops2_1 m ρ c main_v28).trans (step_ops2 m ρ c main_v28))))
theorem W15_v52 : W15 (F := Ideal) m ρ c (Proc.devRef .tc main_v52) = W11 m ρ c (Proc.devRef .tc main_v52) :=
  ((step_ops5 m ρ c main_v52).trans ((step_reg4 m ρ c main_v52).trans ((step_ops4_1 m ρ c main_v52).trans (step_ops4 m ρ c main_v52))))
theorem W17_v76 : W17 (F := Ideal) m ρ c (Proc.devRef .tc main_v76) = W16 m ρ c (Proc.devRef .tc main_v76) :=
  (step_ops6 m ρ c main_v76)
theorem W3_v5 : W3 (F := Ideal) m ρ c (Proc.devRef .tc main_v5) = W2 m ρ c (Proc.devRef .tc main_v5) :=
  (step_ops0_2 m ρ c main_v5)
theorem W8_v29 : W8 (F := Ideal) m ρ c (Proc.devRef .tc main_v29) = W7 m ρ c (Proc.devRef .tc main_v29) :=
  (step_ops2_1 m ρ c main_v29)
theorem W13_v53 : W13 (F := Ideal) m ρ c (Proc.devRef .tc main_v53) = W12 m ρ c (Proc.devRef .tc main_v53) :=
  (step_ops4_1 m ρ c main_v53)
theorem W19_v77 : W19 (F := Ideal) m ρ c (Proc.devRef .tc main_v77) = W17 m ρ c (Proc.devRef .tc main_v77) :=
  ((step_ops6_2 m ρ c main_v77).trans (step_ops6_1 m ρ c main_v77))
theorem W19_v78 : W19 (F := Ideal) m ρ c (Proc.devRef .tc main_v78) = W18 m ρ c (Proc.devRef .tc main_v78) :=
  (step_ops6_2 m ρ c main_v78)

end Cert.KernelIdeal.Trace

end
-- ==== Proof.KTraceL.lean ====
/-
  What the node-feature buffer holds after each of the three layers of the kernel program's run.

  A layer of the run is two kernel regions among host operations: the message kernel on the edge attributes, the node
  rows gathered along the edges' sources and the layer's edge weight and bias; the sum of its output into the
  destination nodes; the node kernel on the node features, that sum and the layer's two perceptron weights and biases.
  Each region's output is the plain function of its inputs at entry, each host stretch's result the plain function of its
  inputs, and a buffer nothing writes in between keeps its contents; chained, the node features after layer l are
  the specification's layer l of the node features before it, over the row gather in fill mode along the sources and
  the accumulating scatter into the destinations, both read from the edge list given at launch.
-/
import proofs.«402358_j61787399520742_1_alg».proof.Proof.Gen.KernelIdeal.Frame
import proofs.«402358_j61787399520742_1_alg».proof.Proof.Spec
import proofs.«402358_j61787399520742_1_alg».proof.Proof.KDefs
import proofs.«402358_j61787399520742_1_alg».proof.Proof.KRegion0
import proofs.«402358_j61787399520742_1_alg».proof.Proof.KRegion1
import proofs.«402358_j61787399520742_1_alg».proof.Proof.KRegion2
import proofs.«402358_j61787399520742_1_alg».proof.Proof.KRegion3
import proofs.«402358_j61787399520742_1_alg».proof.Proof.KRegion4
import proofs.«402358_j61787399520742_1_alg».proof.Proof.KRegion5
import proofs.«402358_j61787399520742_1_alg».proof.Proof.KStretchA
import proofs.«402358_j61787399520742_1_alg».proof.Proof.KStretchW
import proofs.«402358_j61787399520742_1_alg».proof.Proof.KSteps
import Idealize.ShloMosaic.Lib.StableHlo.Run
import Idealize.ShloMosaic.Lib.ValueIdx

noncomputable section

namespace Cert.KernelIdeal.Trace

open Cert.KernelIdeal Cert.KernelIdeal.Gen Cert.KernelIdeal.Host Cert.KernelIdeal.Stretch Cert.KernelIdeal.RegionValue
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

-- the arguments' contents at launch
local notation "A0" => (m (Thread.loc (c : Thread nD τ) main_arg0) : S50000x128.Idx → EReal)
local notation "A1" => (m (Thread.loc (c : Thread nD τ) main_arg1) : IVec S2x800000 32)
local notation "A2" => (m (Thread.loc (c : Thread nD τ) main_arg2) : S800000x64.Idx → EReal)
local notation "A3" => (m (Thread.loc (c : Thread nD τ) main_arg3) : S3x64x128.Idx → EReal)
local notation "A4" => (m (Thread.loc (c : Thread nD τ) main_arg4) : S3x128.Idx → EReal)
local notation "A5" => (m (Thread.loc (c : Thread nD τ) main_arg5) : S3x128x128.Idx → EReal)
local notation "A6" => (m (Thread.loc (c : Thread nD τ) main_arg6) : S3x128.Idx → EReal)
local notation "A7" => (m (Thread.loc (c : Thread nD τ) main_arg7) : S3x128x128.Idx → EReal)
local notation "A8" => (m (Thread.loc (c : Thread nD τ) main_arg8) : S3x128.Idx → EReal)

/-- After the first layer the node-feature buffer holds layer 0 of the features given at launch. -/
theorem trace1 :
    (W6 (F := Ideal) m ρ c (Proc.devRef .tc main_v28) : S50000x128.Idx → EReal)
      = Cert.Gnn.layer (fun x => takeFill x (srcOf A1)) (fun u => scatAdd (dstOf A1) u) A2 A3 A4 A5 A6 A7 A8 0
          A0 := by
  -- the edges' index vectors
  have hsrc : (W1 (F := Ideal) m ρ c (Proc.devRef .tc main_v1) : IVec S800000 32) = srcOf A1 :=
    ops0_v1 (W0 m ρ c)
  have hdst : (W4 (F := Ideal) m ρ c (Proc.devRef .tc main_v3) : IVec S800000 32) = dstOf A1 :=
    (W4_v3 m ρ c).trans (ops0_v3 (W0 m ρ c))
  -- the message kernel's inputs
  have hea : (V3 (F := Ideal) m ρ c main_v4 : S800000x64.Idx → EReal) = A2 :=
    (W3_v4 m ρ c).trans (ops0_v4 (W0 m ρ c))
  have hxs : (V3 (F := Ideal) m ρ c main_v5 : S800000x128.Idx → EReal) = takeFill A0 (srcOf A1) := by
    refine (W3_v5 m ρ c).trans ((ops0_1_v5 (W1 m ρ c)).trans ?_)
    rw [W1_arg0 m ρ c, hsrc]
  have hwe : (V3 (F := Ideal) m ρ c main_v8 : S64x128.Idx → EReal) = Cert.Gnn.wE A3 0 := by
    refine (ops0_2_v8 (W2 m ρ c)).trans ?_
    rw [W2_arg m ρ c main_arg3]
  have hbe : (V3 (F := Ideal) m ρ c main_v11 : S1x128.Idx → EReal) = Cert.Gnn.bRow A4 0 := by
    refine (ops0_2_v11 (W2 m ρ c)).trans ?_
    rw [W2_arg m ρ c main_arg4]
  -- its output
  have hmsg : (W4 (F := Ideal) m ρ c (Proc.devRef .tc main_v12) : S800000x128.Idx → EReal)
      = Cert.Gnn.msg A2 (takeFill A0 (srcOf A1)) (Cert.Gnn.wE A3 0) (Cert.Gnn.bRow A4 0) := by
    refine (W4_arr m ρ c 4).trans ((final0 (V3 m ρ) c).trans ?_)
    rw [hea, hxs, hwe, hbe]
  -- the node kernel's inputs
  have hx : (V5 (F := Ideal) m ρ c main_arg0 : S50000x128.Idx → EReal) = A0 := W5_arg0 m ρ c
  have hag : (V5 (F := Ideal) m ρ c main_v15 : S50000x128.Idx → EReal)
      = scatAdd (dstOf A1) (Cert.Gnn.msg A2 (takeFill A0 (srcOf A1)) (Cert.Gnn.wE A3 0) (Cert.Gnn.bRow A4 0)) := by
    refine (ops1_v15 (W4 m ρ c)).trans ?_
    rw [hdst, hmsg]
  have hw1 : (V5 (F := Ideal) m ρ c main_v18 : S128x128.Idx → EReal) = Cert.Gnn.wN A5 0 := by
    refine (ops1_v18 (W4 m ρ c)).trans ?_
    rw [W4_arg m ρ c main_arg5]
  have hb1 : (V5 (F := Ideal) m ρ c main_v21 : S1x128.Idx → EReal) = Cert.Gnn.bRow A6 0 := by
    refine (ops1_v21 (W4 m ρ c)).trans ?_
    rw [W4_arg m ρ c main_arg6]
  have hw2 : (V5 (F := Ideal) m ρ c main_v24 : S128x128.Idx → EReal) = Cert.Gnn.wN A7 0 := by
    refine (ops1_v24 (W4 m ρ c)).trans ?_
    rw [W4_arg m ρ c main_arg7]
  have hb2 : (V5 (F := Ideal) m ρ c main_v27 : S1x128.Idx → EReal) = Cert.Gnn.bRow A8 0 := by
    refine (ops1_v27 (W4 m ρ c)).trans ?_
    rw [W4_arg m ρ c main_arg8]
  -- its output
  refine (W6_arr m ρ c 6).trans ((final1 (V5 m ρ) c).trans ?_)
  rw [hx, hag, hw1, hb1, hw2, hb2]
  rfl

/-- After the second layer it holds layer 1 of what it held after the first. -/
theorem trace2 :
    (W11 (F := Ideal) m ρ c (Proc.devRef .tc main_v52) : S50000x128.Idx → EReal)
      = Cert.Gnn.layer (fun x => takeFill x (srcOf A1)) (fun u => scatAdd (dstOf A1) u) A2 A3 A4 A5 A6 A7 A8 1
          (W6 (F := Ideal) m ρ c (Proc.devRef .tc main_v28) : S50000x128.Idx → EReal) := by
  -- the edges' index vectors
  have hsrc : (W6 (F := Ideal) m ρ c (Proc.devRef .tc main_v1) : IVec S800000 32) = srcOf A1 :=
    (W6_v1 m ρ c).trans (ops0_v1 (W0 m ρ c))
  have hdst : (W9 (F := Ideal) m ρ c (Proc.devRef .tc main_v3) : IVec S800000 32) = dstOf A1 :=
    (W9_v3 m ρ c).trans ((W4_v3 m ρ c).trans (ops0_v3 (W0 m ρ c)))
  -- the message kernel's inputs
  have hea : (V8 (F := Ideal) m ρ c main_v4 : S800000x64.Idx → EReal) = A2 :=
    (W8_v4 m ρ c).trans ((W3_v4 m ρ c).trans (ops0_v4 (W0 m ρ c)))
  have hxs : (V8 (F := Ideal) m ρ c main_v29 : S800000x128.Idx → EReal) = takeFill (W6 (F := Ideal) m ρ c (Proc.devRef .tc main_v28) : S50000x128.Idx → EReal) (srcOf A1) := by
    refine (W8_v29 m ρ c).trans ((ops2_v29 (W6 m ρ c)).trans ?_)
    rw [hsrc]
  have hwe : (V8 (F := Ideal) m ρ c main_v32 : S64x128.Idx → EReal) = Cert.Gnn.wE A3 1 := by
    refine (ops2_1_v32 (W7 m ρ c)).trans ?_
    rw [W7_arg m ρ c main_arg3]
  have hbe : (V8 (F := Ideal) m ρ c main_v35 : S1x128.Idx → EReal) = Cert.Gnn.bRow A4 1 := by
    refine (ops2_1_v35 (W7 m ρ c)).trans ?_
    rw [W7_arg m ρ c main_arg4]
  -- its output
  have hmsg : (W9 (F := Ideal) m ρ c (Proc.devRef .tc main_v36) : S800000x128.Idx → EReal)
      = Cert.Gnn.msg A2 (takeFill (W6 (F := Ideal) m ρ c (Proc.devRef .tc main_v28) : S50000x128.Idx → EReal) (srcOf A1)) (Cert.Gnn.wE A3 1) (Cert.Gnn.bRow A4 1) := by
    refine (W9_arr m ρ c 4).trans ((final2 (V8 m ρ) c).trans ?_)
    rw [hea, hxs, hwe, hbe]
  -- the node kernel's inputs
  have hx : (V10 (F := Ideal) m ρ c main_v28 : S50000x128.Idx → EReal) = (W6 (F := Ideal) m ρ c (Proc.devRef .tc main_v28) : S50000x128.Idx → EReal) := W10_v28 m ρ c
  have hag : (V10 (F := Ideal) m ρ c main_v39 : S50000x128.Idx → EReal)
      = scatAdd (dstOf A1) (Cert.Gnn.msg A2 (takeFill (W6 (F := Ideal) m ρ c (Proc.devRef .tc main_v28) : S50000x128.Idx → EReal) (srcOf A1)) (Cert.Gnn.wE A3 1) (Cert.Gnn.bRow A4 1)) := by
    refine (ops3_v39 (W9 m ρ c)).trans ?_
    rw [hdst, hmsg]
  have hw1 : (V10 (F := Ideal) m ρ c main_v42 : S128x128.Idx → EReal) = Cert.Gnn.wN A5 1 := by
    refine (ops3_v42 (W9 m ρ c)).trans ?_
    rw [W9_arg m ρ c main_arg5]
  have hb1 : (V10 (F := Ideal) m ρ c main_v45 : S1x128.Idx → EReal) = Cert.Gnn.bRow A6 1 := by
    refine (ops3_v45 (W9 m ρ c)).trans ?_
    rw [W9_arg m ρ c main_arg6]
  have hw2 : (V10 (F := Ideal) m ρ c main_v48 : S128x128.Idx → EReal) = Cert.Gnn.wN A7 1 := by
    refine (ops3_v48 (W9 m ρ c)).trans ?_
    rw [W9_arg m ρ c main_arg7]
  have hb2 : (V10 (F := Ideal) m ρ c main_v51 : S1x128.Idx → EReal) = Cert.Gnn.bRow A8 1 := by
    refine (ops3_v51 (W9 m ρ c)).trans ?_
    rw [W9_arg m ρ c main_arg8]
  -- its output
  refine (W11_arr m ρ c 6).trans ((final3 (V10 m ρ) c).trans ?_)
  rw [hx, hag, hw1, hb1, hw2, hb2]
  rfl

/-- After the third layer it holds layer 2 of what it held after the second. -/
theorem trace3 :
    (W16 (F := Ideal) m ρ c (Proc.devRef .tc main_v76) : S50000x128.Idx → EReal)
      = Cert.Gnn.layer (fun x => takeFill x (srcOf A1)) (fun u => scatAdd (dstOf A1) u) A2 A3 A4 A5 A6 A7 A8 2
          (W11 (F := Ideal) m ρ c (Proc.devRef .tc main_v52) : S50000x128.Idx → EReal) := by
  -- the edges' index vectors
  have hsrc : (W11 (F := Ideal) m ρ c (Proc.devRef .tc main_v1) : IVec S800000 32) = srcOf A1 :=
    (W11_v1 m ρ c).trans ((W6_v1 m ρ c).trans (ops0_v1 (W0 m ρ c)))
  have hdst : (W14 (F := Ideal) m ρ c (Proc.devRef .tc main_v3) : IVec S800000 32) = dstOf A1 :=
    (W14_v3 m ρ c).trans ((W9_v3 m ρ c).trans ((W4_v3 m ρ c).trans (ops0_v3 (W0 m ρ c))))
  -- the message kernel's inputs
  have hea : (V13 (F := Ideal) m ρ c main_v4 : S800000x64.Idx → EReal) = A2 :=
    (W13_v4 m ρ c).trans ((W8_v4 m ρ c).trans ((W3_v4 m ρ c).trans (ops0_v4 (W0 m ρ c))))
  have hxs : (V13 (F := Ideal) m ρ c main_v53 : S800000x128.Idx → EReal) = takeFill (W11 (F := Ideal) m ρ c (Proc.devRef .tc main_v52) : S50000x128.Idx → EReal) (srcOf A1) := by
    refine (W13_v53 m ρ c).trans ((ops4_v53 (W11 m ρ c)).trans ?_)
    rw [hsrc]
  have hwe : (V13 (F := Ideal) m ρ c main_v56 : S64x128.Idx → EReal) = Cert.Gnn.wE A3 2 := by
    refine (ops4_1_v56 (W12 m ρ c)).trans ?_
    rw [W12_arg m ρ c main_arg3]
  have hbe : (V13 (F := Ideal) m ρ c main_v59 : S1x128.Idx → EReal) = Cert.Gnn.bRow A4 2 := by
    refine (ops4_1_v59 (W12 m ρ c)).trans ?_
    rw [W12_arg m ρ c main_arg4]
  -- its output
  have hmsg : (W14 (F := Ideal) m ρ c (Proc.devRef .tc main_v60) : S800000x128.Idx → EReal)
      = Cert.Gnn.msg A2 (takeFill (W11 (F := Ideal) m ρ c (Proc.devRef .tc main_v52) : S50000x128.Idx → EReal) (srcOf A1)) (Cert.Gnn.wE A3 2) (Cert.Gnn.bRow A4 2) := by
    refine (W14_arr m ρ c 4).trans ((final4 (V13 m ρ) c).trans ?_)
    rw [hea, hxs, hwe, hbe]
  -- the node kernel's inputs
  have hx : (V15 (F := Ideal) m ρ c main_v52 : S50000x128.Idx → EReal) = (W11 (F := Ideal) m ρ c (Proc.devRef .tc main_v52) : S50000x128.Idx → EReal) := W15_v52 m ρ c
  have hag : (V15 (F := Ideal) m ρ c main_v63 : S50000x128.Idx → EReal)
      = scatAdd (dstOf A1) (Cert.Gnn.msg A2 (takeFill (W11 (F := Ideal) m ρ c (Proc.devRef .tc main_v52) : S50000x128.Idx → EReal) (srcOf A1)) (Cert.Gnn.wE A3 2) (Cert.Gnn.bRow A4 2)) := by
    refine (ops5_v63 (W14 m ρ c)).trans ?_
    rw [hdst, hmsg]
  have hw1 : (V15 (F := Ideal) m ρ c main_v66 : S128x128.Idx → EReal) = Cert.Gnn.wN A5 2 := by
    refine (ops5_v66 (W14 m ρ c)).trans ?_
    rw [W14_arg m ρ c main_arg5]
  have hb1 : (V15 (F := Ideal) m ρ c main_v69 : S1x128.Idx → EReal) = Cert.Gnn.bRow A6 2 := by
    refine (ops5_v69 (W14 m ρ c)).trans ?_
    rw [W14_arg m ρ c main_arg6]
  have hw2 : (V15 (F := Ideal) m ρ c main_v72 : S128x128.Idx → EReal) = Cert.Gnn.wN A7 2 := by
    refine (ops5_v72 (W14 m ρ c)).trans ?_
    rw [W14_arg m ρ c main_arg7]
  have hb2 : (V15 (F := Ideal) m ρ c main_v75 : S1x128.Idx → EReal) = Cert.Gnn.bRow A8 2 := by
    refine (ops5_v75 (W14 m ρ c)).trans ?_
    rw [W14_arg m ρ c main_arg8]
  -- its output
  refine (W16_arr m ρ c 6).trans ((final5 (V15 m ρ) c).trans ?_)
  rw [hx, hag, hw1, hb1, hw2, hb2]
  rfl

end Cert.KernelIdeal.Trace

end
-- ==== Proof.KRegion6.lean ====
/-
  The edge-scorer region: 200 grid points, each taking 4000 rows of the two gathered node-feature arrays and the whole
  weights and bias rows, and writing 4000 rows of the output.  One point's body is, entry by entry,
  Σ_k max (Σ_k' xs p k' · wa k' k + Σ_k' xd p k' · wb k' k + b1 k, 0) · w2 k q + b2 q (the changes of float format
  are the identity on extended reals and each product into a zero accumulator is the plain sum).  Row p of point t's
  block is row 4000·t + p of the arrays, so point t writes block t of the scorer `Cert.Gnn.pred2d` of the arrays the
  region finds; the 200 blocks cover the output, which therefore ends holding the scorer.
-/
import proofs.«402358_j61787399520742_1_alg».proof.Proof.Gen.KernelIdeal.Frame
import proofs.«402358_j61787399520742_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-! ## One product at an index -/

theorem lhs6_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs6_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs6_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs6_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A product of a [4000,128] block with a [128,128] matrix into a zero accumulator, at row p and column q:
    Σ_k a p k · b k q. -/
theorem matmul6_apply {φ₁ φ₂ : FTy} (a : FVec Ideal S4000x128 φ₁) (b : FVec Ideal S128x128 φ₂) (p : Fin 4000) (q : Fin 128) :
    matmul dot_S4000x128_S128x128_S4000x128_1_0_0_1_n_n none a b (constant (F := Ideal) S4000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs6_0 _ _
    | ⟨1, _⟩ => exact (lhs6_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs6_0 _ _).trans hk
    | ⟨1, _⟩ => exact rhs6_1 _ _)
  rw [el, er]

/-! ## The body at an index -/

/-- The body's value at row p, column q of its blocks. -/
theorem pay6_apply (v0 v3 : Vec Ideal S4000x128 .f32) (v6 v9 : Vec Ideal S128x128 .bf16) (v13 : Vec Ideal S1x128 .f32)
    (v20 : Vec Ideal S128x128 .bf16) (v23 : Vec Ideal S1x128 .f32) (p : Fin 4000) (q : Fin 128) :
    k6_pay1 (F := Ideal) v0 v3 v6 v9 v13 v20 v23 (ix2 p q)
      = (∑ k : Fin 128, (max (((∑ k' : Fin 128, v0 (ix2 p k') * v6 (ix2 k' k)) + (∑ k' : Fin 128, v3 (ix2 p k') * v9 (ix2 k' k)))
            + v13 (ix2 (0 : Fin 1) k)) 0) * v20 (ix2 k q)) + v23 (ix2 (0 : Fin 1) q) := by
  unfold k6_pay1
  simp only [shapeCast_self]
  rw [addf_apply, broadcastTo_1b_ab_apply, matmul6_apply]
  congr 1
  refine Finset.sum_congr rfl fun k _ => ?_
  rw [truncf_apply, maximumf_apply, addf_apply, addf_apply, broadcastTo_1b_ab_apply, matmul6_apply, matmul6_apply, broadcast_apply]
  simp only [truncf_apply]
  rw [show (FloatOps.ofBits FTy.f32 0x00000000#32 : Ideal .f32) = 0 from Ideal.ofBits_zero_f32]

/-! ## The blocks as rows of the arrays -/

variable (V : (c : Dev nD) → (b : Ref sig .tc) → Buf (Elt Ideal) ((c : Thread nD τ).loc b))

theorem hz6 : (![0, 0] : Fin 2 → Nat) = fun _ => 0 := funext fun a => by fin_cases a <;> rfl

/-- The printed index maps over the grid: the two row windows and the output move with the point, one block of 4000
    rows per point; the weights and the bias rows stay at block 0. -/
theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

/-- The row of the edge arrays that row p of point t's block is: 4000·t + p. -/
def rowAt6 (t : Fin cfg6.N) (p : Fin 4000) : Fin 800000 :=
  ⟨4000 * t.val + p.val, by have ht := t.isLt; have hN : cfg6.N = 200 := N_6; have hp := p.isLt; omega⟩

/-- Entry (p, k) of point t's block of the source rows sits at (4000·t + p, k) of the array. -/
theorem emb6_0 (t : Fin cfg6.N) (p : Fin 4000) (k : Fin 128) :
    ((cfg6.win 0).blk t).view.emb (ix2 p k) = (ix2 (rowAt6 t p) k : S800000x128.Idx) := by
  obtain ⟨h0, h1, -⟩ := idx_facts6 t
  funext a; apply Fin.ext
  match a with
  | ⟨0, _⟩ => show win6_0.index t (0 : Fin 2) * 4000 + 1 * p.val = 4000 * t.val + p.val; omega
  | ⟨1, _⟩ => show win6_0.index t (1 : Fin 2) * 128 + 1 * k.val = k.val; omega

/-- The same for the destination rows. -/
theorem emb6_1 (t : Fin cfg6.N) (p : Fin 4000) (k : Fin 128) :
    ((cfg6.win 1).blk t).view.emb (ix2 p k) = (ix2 (rowAt6 t p) k : S800000x128.Idx) := by
  obtain ⟨-, -, h0, h1, -⟩ := idx_facts6 t
  funext a; apply Fin.ext
  match a with
  | ⟨0, _⟩ => show win6_1.index t (0 : Fin 2) * 4000 + 1 * p.val = 4000 * t.val + p.val; omega
  | ⟨1, _⟩ => show win6_1.index t (1 : Fin 2) * 128 + 1 * k.val = k.val; omega

/-- The same for the output. -/
theorem emb6_7 (t : Fin cfg6.N) (p : Fin 4000) (k : Fin 128) :
    ((cfg6.win 7).blk t).view.emb (ix2 p k) = (ix2 (rowAt6 t p) k : S800000x128.Idx) := by
  obtain ⟨-, -, -, -, -, -, -, -, -, -, -, -, -, -, h0, h1⟩ := idx_facts6 t
  funext a; apply Fin.ext
  match a with
  | ⟨0, _⟩ => show win6_7.index t (0 : Fin 2) * 4000 + 1 * p.val = 4000 * t.val + p.val; omega
  | ⟨1, _⟩ => show win6_7.index t (1 : Fin 2) * 128 + 1 * k.val = k.val; omega

/-- The weights' and bias rows' one block is the whole array: an entry sits where it is. -/
theorem emb6_2 (t : Fin cfg6.N) (y : S128x128.Idx) : ((cfg6.win 2).blk t).view.emb y = y := by
  obtain ⟨-, -, -, -, h0, h1, -⟩ := idx_facts6 t
  funext a; apply Fin.ext
  match a with
  | ⟨0, _⟩ => show win6_2.index t (0 : Fin 2) * 128 + 1 * (y 0).val = (y 0).val; omega
  | ⟨1, _⟩ => show win6_2.index t (1 : Fin 2) * 128 + 1 * (y 1).val = (y 1).val; omega
theorem emb6_3 (t : Fin cfg6.N) (y : S128x128.Idx) : ((cfg6.win 3).blk t).view.emb y = y := by
  obtain ⟨-, -, -, -, -, -, h0, h1, -⟩ := idx_facts6 t
  funext a; apply Fin.ext
  match a with
  | ⟨0, _⟩ => show win6_3.index t (0 : Fin 2) * 128 + 1 * (y 0).val = (y 0).val; omega
  | ⟨1, _⟩ => show win6_3.index t (1 : Fin 2) * 128 + 1 * (y 1).val = (y 1).val; omega
theorem emb6_4 (t : Fin cfg6.N) (y : S1x128.Idx) : ((cfg6.win 4).blk t).view.emb y = y := by
  obtain ⟨-, -, -, -, -, -, -, -, h0, h1, -⟩ := idx_facts6 t
  funext a; apply Fin.ext
  match a with
  | ⟨0, _⟩ => show win6_4.index t (0 : Fin 2) * 1 + 1 * (y 0).val = (y 0).val; omega
  | ⟨1, _⟩ => show win6_4.index t (1 : Fin 2) * 128 + 1 * (y 1).val = (y 1).val; omega
theorem emb6_5 (t : Fin cfg6.N) (y : S128x128.Idx) : ((cfg6.win 5).blk t).view.emb y = y := by
  obtain ⟨-, -, -, -, -, -, -, -, -, -, h0, h1, -⟩ := idx_facts6 t
  funext a; apply Fin.ext
  match a with
  | ⟨0, _⟩ => show win6_5.index t (0 : Fin 2) * 128 + 1 * (y 0).val = (y 0).val; omega
  | ⟨1, _⟩ => show win6_5.index t (1 : Fin 2) * 128 + 1 * (y 1).val = (y 1).val; omega
theorem emb6_6 (t : Fin cfg6.N) (y : S1x128.Idx) : ((cfg6.win 6).blk t).view.emb y = y := by
  obtain ⟨-, -, -, -, -, -, -, -, -, -, -, -, h0, h1, -⟩ := idx_facts6 t
  funext a; apply Fin.ext
  match a with
  | ⟨0, _⟩ => show win6_6.index t (0 : Fin 2) * 1 + 1 * (y 0).val = (y 0).val; omega
  | ⟨1, _⟩ => show win6_6.index t (1 : Fin 2) * 128 + 1 * (y 1).val = (y 1).val; omega

/-! ## From blocks to the array -/

/-- The scorer on the arrays as the region finds them. -/
abbrev G6 (c : Dev nD) : S800000x128.Idx → EReal :=
  Cert.Gnn.pred2d (V c main_v77 : S800000x128.Idx → EReal) (V c main_v78 : S800000x128.Idx → EReal)
    (V c main_v80 : S128x128.Idx → EReal) (V c main_v82 : S128x128.Idx → EReal) (V c main_v83 : S1x128.Idx → EReal)
    (V c main_v88 : S128x128.Idx → EReal) (V c main_v94 : S1x128.Idx → EReal)

/-- On blocks whose row p is row r of the two edge arrays, and whose weights and bias rows are the arrays themselves,
    the body's value at (p, q) is the scorer at (r, q). -/
theorem pay6_rows (A B : Cert.Gnn.A2 800000 128) (Wa Wb : Cert.Gnn.A2 128 128) (b1 : Cert.Gnn.A2 1 128)
    (W2 : Cert.Gnn.A2 128 128) (b2 : Cert.Gnn.A2 1 128)
    (x0 x1 : Vec Ideal S4000x128 .f32) (x2 x3 : Vec Ideal S128x128 .bf16) (x4 : Vec Ideal S1x128 .f32)
    (x5 : Vec Ideal S128x128 .bf16) (x6 : Vec Ideal S1x128 .f32) (r : Fin 800000) (p : Fin 4000) (q : Fin 128)
    (h0 : ∀ k : Fin 128, x0 (ix2 p k) = A (ix2 r k)) (h1 : ∀ k : Fin 128, x1 (ix2 p k) = B (ix2 r k))
    (h2 : ∀ y, x2 y = Wa y) (h3 : ∀ y, x3 y = Wb y) (h4 : ∀ y, x4 y = b1 y) (h5 : ∀ y, x5 y = W2 y)
    (h6 : ∀ y, x6 y = b2 y) :
    k6_pay1 (F := Ideal) x0 x1 x2 x3 x4 x5 x6 (ix2 p q) = Cert.Gnn.pred2d A B Wa Wb b1 W2 b2 (ix2 r q) := by
  rw [pay6_apply]
  simp only [h0, h1, h2, h3, h4, h5, h6]
  rfl

/-- What point t writes back is block t of the scorer. -/
theorem flushed6_eq (c : Dev nD) (t : Fin cfg6.N) :
    (dat6 (F := Ideal) V c).flushed 7 t = ((cfg6.win 7).blk t).view.read (Elt Ideal) (G6 V c) := by
  show (cfg6.win 7).cut (grid6.coords t) ((dat6 V c).after 7 t) = _
  rw [after6_7]
  unfold out6_7
  rw [View.canon_unit_zero hz6]
  simp only [View.ld_unit_zero (S := S4000x128) hz6, View.ld_unit_zero (S := S128x128) hz6, View.ld_unit_zero (S := S1x128) hz6]
  funext j
  obtain ⟨p, q, rfl⟩ : ∃ (p : Fin 4000) (q : Fin 128), j = ix2 p q := ⟨j 0, j 1, eq_ix2 j⟩
  show k6_pay1 (F := Ideal) (iblk6 V c 0 t) (iblk6 V c 1 t) (iblk6 V c 2 t) (iblk6 V c 3 t) (iblk6 V c 4 t) (iblk6 V c 5 t)
      (iblk6 V c 6 t) (ix2 p q) = G6 V c (((cfg6.win 7).blk t).view.emb (ix2 p q))
  rw [emb6_7]
  exact pay6_rows (V c main_v77 : S800000x128.Idx → EReal) (V c main_v78 : S800000x128.Idx → EReal)
    (V c main_v80 : S128x128.Idx → EReal) (V c main_v82 : S128x128.Idx → EReal) (V c main_v83 : S1x128.Idx → EReal)
    (V c main_v88 : S128x128.Idx → EReal) (V c main_v94 : S1x128.Idx → EReal)
    (iblk6 V c 0 t) (iblk6 V c 1 t) (iblk6 V c 2 t) (iblk6 V c 3 t) (iblk6 V c 4 t) (iblk6 V c 5 t) (iblk6 V c 6 t)
    (rowAt6 t p) p q
    (fun k => by show V c main_v77 (((cfg6.win 0).blk t).view.emb (ix2 p k)) = _; rw [emb6_0])
    (fun k => by show V c main_v78 (((cfg6.win 1).blk t).view.emb (ix2 p k)) = _; rw [emb6_1])
    (fun y => by show V c main_v80 (((cfg6.win 2).blk t).view.emb y) = _; rw [emb6_2])
    (fun y => by show V c main_v82 (((cfg6.win 3).blk t).view.emb y) = _; rw [emb6_3])
    (fun y => by show V c main_v83 (((cfg6.win 4).blk t).view.emb y) = _; rw [emb6_4])
    (fun y => by show V c main_v88 (((cfg6.win 5).blk t).view.emb y) = _; rw [emb6_5])
    (fun y => by show V c main_v94 (((cfg6.win 6).blk t).view.emb y) = _; rw [emb6_6])

/-- Every entry of the output lies in the block of the point its row's quotient by 4000 names. -/
theorem cover6 (i : S800000x128.Idx) :
    ∃ t : Fin cfg6.N, (cfg6.win 7).flush t = true ∧ i ∈ ((cfg6.win 7).blk t).view.set := by
  have hi0 : (i 0).val < 800000 := (i 0).isLt
  have hi1 : (i 1).val < 128 := (i 1).isLt
  have hN : cfg6.N = 200 := N_6
  have hlt : (i 0).val / 4000 < cfg6.N := by rw [hN]; omega
  obtain ⟨-, -, -, -, -, -, -, -, -, -, -, -, -, -, h0, h1⟩ := idx_facts6 ⟨(i 0).val / 4000, hlt⟩
  refine ⟨⟨(i 0).val / 4000, hlt⟩, flush6_7 _, ?_⟩
  show i ∈ ((View.whole main_v95).slice (win6_7.rect ⟨(i 0).val / 4000, hlt⟩)).set
  rw [View.set_slice_whole, Rect.mem_set_unit]
  intro a
  match a with
  | ⟨0, _⟩ =>
    show win6_7.index ⟨(i 0).val / 4000, hlt⟩ (0 : Fin 2) * 4000 ≤ (i 0).val
      ∧ (i 0).val < win6_7.index ⟨(i 0).val / 4000, hlt⟩ (0 : Fin 2) * 4000 + 4000
    rw [h0]
    show (i 0).val / 4000 * 4000 ≤ (i 0).val ∧ (i 0).val < (i 0).val / 4000 * 4000 + 4000
    omega
  | ⟨1, _⟩ =>
    show win6_7.index ⟨(i 0).val / 4000, hlt⟩ (1 : Fin 2) * 128 ≤ (i 1).val
      ∧ (i 1).val < win6_7.index ⟨(i 0).val / 4000, hlt⟩ (1 : Fin 2) * 128 + 128
    rw [h1]
    omega

/-- The edge-scorer region leaves its output array at the scorer of the arrays it found: every point writes its block
    of it, and the blocks cover the array. -/
theorem final6 (c : Dev nD) :
    (dat6 (F := Ideal) V c).arrAt 7 cfg6.N
      = Cert.Gnn.pred2d (V c main_v77 : S800000x128.Idx → EReal) (V c main_v78 : S800000x128.Idx → EReal)
          (V c main_v80 : S128x128.Idx → EReal) (V c main_v82 : S128x128.Idx → EReal) (V c main_v83 : S1x128.Idx → EReal)
          (V c main_v88 : S128x128.Idx → EReal) (V c main_v94 : S1x128.Idx → EReal) :=
  (dat6 V c).arrAt_eq_of_cover 7 (G6 V c) (fun t _ => flushed6_eq V c t) cover6

end Cert.KernelIdeal.RegionValue

end
-- ==== Proof.KStretchP.lean ====
/-
  The last stretch of host operations before the scorer: what it leaves in the scorer's parameter buffers, from any
  buffer contents.

  The scorer's first weight [256,128] is cut into its top and bottom halves [128,128]; its first bias [128] becomes a
  one-row matrix [1,128]; its second weight, one column [128,1], is written into column 0 of a zero [128,128] table; its
  last bias, one number, is written into entry (0,0) of a zero [1,128] row.  The two writes are scatters whose body
  returns the update: a left fold, over the updates in row-major order, of "write update n at the place it lands".
  When every update lands inside the table and no two land at the same place, the table read at the place of update n
  is update n, and elsewhere it is what it held (`SetScatter.scatter_set_apply`, `scatter_set_apply_of_ne`).  Here every
  index word is 0, so update k of the column write lands at (k, 0) and the one update of the corner write at (0, 0).
-/
import proofs.«402358_j61787399520742_1_alg».proof.Proof.Gen.KernelIdeal.Launch
import proofs.«402358_j61787399520742_1_alg».proof.Proof.Spec
import proofs.«402358_j61787399520742_1_alg».proof.Proof.KDefs
import Idealize.ShloMosaic.Lib.StableHlo.Run
import Idealize.ShloMosaic.Lib.ValueIdx
import Idealize.ShloMosaic.Lib.Pipeline.Value

set_option maxRecDepth 4096

noncomputable section

namespace Cert.KernelIdeal.Stretch

open Cert.KernelIdeal Cert.KernelIdeal.Gen Cert.KernelIdeal.Host Idealize.ShloMosaic Idealize.ShloMosaic.TcCoe Idealize.SL.Sem
open Idealize.ShloMosaic.StableHlo Idealize.ShloMosaic.ValueIdx

namespace SetScatter

section Fold
variable {β ι α : Type} [DecidableEq ι]

/-- The values `v n` written at the places `g n`, one list entry after the other, later entries over earlier ones. -/
def writeAll (g : β → ι) (v : β → α) (l : List β) (x : ι → α) : ι → α :=
  l.foldl (fun r n => fun i' => if i' = g n then v n else r i') x

/-- A place no entry writes keeps what it held. -/
theorem writeAll_of_not_mem (g : β → ι) (v : β → α) (l : List β) (x : ι → α) (i : ι) (hi : ∀ n ∈ l, g n ≠ i) :
    writeAll g v l x i = x i := by
  induction l generalizing x with
  | nil => rfl
  | cons a t ih =>
    show writeAll g v t _ i = x i
    rw [ih _ (fun n hn => hi n (List.mem_cons_of_mem _ hn))]
    exact if_neg (fun h => hi a List.mem_cons_self h.symm)

/-- Distinct entries writing at distinct places: the place of entry `n` ends at `v n`. -/
theorem writeAll_of_mem (g : β → ι) (hg : Function.Injective g) (v : β → α) (l : List β) (hl : l.Nodup) (x : ι → α) (n : β)
    (hn : n ∈ l) : writeAll g v l x (g n) = v n := by
  induction l generalizing x with
  | nil => exact absurd hn List.not_mem_nil
  | cons a t ih =>
    show writeAll g v t _ (g n) = v n
    rcases List.mem_cons.1 hn with rfl | hnt
    · rw [writeAll_of_not_mem g v t _ (g n) (fun m hm h => (List.nodup_cons.1 hl).1 (hg h ▸ hm))]
      exact if_pos rfl
    · exact ih (List.nodup_cons.1 hl).2 _ hnt

end Fold

section Scatter
variable {s si u : Shape} {w : Nat} {α : Type}

/-- A scatter whose body returns the update, every update landing inside the operand at `g j`: the writes in row-major order. -/
theorem scatter_set_eq_writeAll (d : ScatterDims s si u) (x : s.Idx → α) (idx : IVec si w) (upd : u.Idx → α)
    (g : u.Idx → s.Idx) (hL : ∀ j, d.resultIdx? j idx = some (g j)) :
    Host.scatter d (fun _ b => b) x idx upd
      = writeAll (fun n => g (u.rowMajor.symm n)) (fun n => upd (u.rowMajor.symm n)) (List.finRange u.numel) x := by
  unfold Host.scatter writeAll
  congr 1
  funext r n
  rw [hL]

/-- … and with the landing places pairwise distinct, the operand's element at `g j` ends at update `j`. -/
theorem scatter_set_apply (d : ScatterDims s si u) (x : s.Idx → α) (idx : IVec si w) (upd : u.Idx → α)
    (g : u.Idx → s.Idx) (hg : Function.Injective g) (hL : ∀ j, d.resultIdx? j idx = some (g j)) (j : u.Idx) :
    Host.scatter d (fun _ b => b) x idx upd (g j) = upd j := by
  rw [scatter_set_eq_writeAll d x idx upd g hL]
  have h := writeAll_of_mem (fun n => g (u.rowMajor.symm n)) (fun a b hab => u.rowMajor.symm.injective (hg hab))
    (fun n => upd (u.rowMajor.symm n)) (List.finRange u.numel) (List.nodup_finRange _) x (u.rowMajor j) (List.mem_finRange _)
  simpa only [Equiv.symm_apply_apply] using h

/-- … and an element no update lands at keeps the operand's. -/
theorem scatter_set_apply_of_ne (d : ScatterDims s si u) (x : s.Idx → α) (idx : IVec si w) (upd : u.Idx → α)
    (g : u.Idx → s.Idx) (hL : ∀ j, d.resultIdx? j idx = some (g j)) (i : s.Idx) (hi : ∀ j, g j ≠ i) :
    Host.scatter d (fun _ b => b) x idx upd i = x i := by
  rw [scatter_set_eq_writeAll d x idx upd g hL]
  exact writeAll_of_not_mem _ _ _ x i (fun n _ => hi _)

/-- The start of every window is 0 when every index word is 0. -/
theorem start_eq_zero (d : ScatterDims s si u) (j : u.Idx) (idx : IVec si w) (hidx : ∀ k, idx k = 0#w) (a : Fin s.rank) :
    d.start j idx a = 0 := by
  unfold ScatterDims.start
  split
  · rw [hidx]; exact BitVec.toInt_zero
  · rfl

end Scatter

/-! ## Where the updates of the two scatters land -/

/-- The one index word of the column write is 0. -/
theorem colWord_zero (k : S1.Idx) : (broadcastInDim S1 ![] bcast_S_S1 (constantI S_ 32 0#32) : IVec S1 32) k = 0#32 := rfl

/-- Update `j` of the column write lands at row `j`, column 0. -/
theorem colWrite_lands (idx : IVec S1 32) (hidx : ∀ k, idx k = 0#32) (j : S128.Idx) :
    scatter_S128x128_S1_S128_0_1_1_0.resultIdx? j idx = some (ix2 (j 0 : Fin 128) (0 : Fin 128)) := by
  have hs := start_eq_zero scatter_S128x128_S1_S128_0_1_1_0 j idx hidx
  have hw0 : scatter_S128x128_S1_S128_0_1_1_0.window j (0 : Fin 2) = (j 0 : Fin 128).val := rfl
  have hw1 : scatter_S128x128_S1_S128_0_1_1_0.window j (1 : Fin 2) = 0 := rfl
  have hj : (j 0 : Fin 128).val < 128 := (j 0 : Fin 128).isLt
  unfold ScatterDims.resultIdx?
  rw [dif_pos (fun a => by
    rw [hs a]
    match a with
    | ⟨0, _⟩ => rw [show scatter_S128x128_S1_S128_0_1_1_0.window j (⟨0, by decide⟩ : Fin 2) = (j 0 : Fin 128).val from hw0]; show (0 : Int) ≤ 0 + ((j 0 : Fin 128).val : Int) ∧ 0 + ((j 0 : Fin 128).val : Int) < (128 : Nat); omega
    | ⟨1, _⟩ => rw [show scatter_S128x128_S1_S128_0_1_1_0.window j (⟨1, by decide⟩ : Fin 2) = 0 from hw1]; show (0 : Int) ≤ 0 + ((0 : Nat) : Int) ∧ 0 + ((0 : Nat) : Int) < (128 : Nat); omega)]
  refine congrArg some (funext fun a => Fin.ext ?_)
  match a with
  | ⟨0, _⟩ =>
    show (scatter_S128x128_S1_S128_0_1_1_0.start j idx (0 : Fin 2) + (scatter_S128x128_S1_S128_0_1_1_0.window j (0 : Fin 2) : Int)).toNat = (j 0 : Fin 128).val
    rw [hs, hw0]; omega
  | ⟨1, _⟩ =>
    show (scatter_S128x128_S1_S128_0_1_1_0.start j idx (1 : Fin 2) + (scatter_S128x128_S1_S128_0_1_1_0.window j (1 : Fin 2) : Int)).toNat = 0
    rw [hs, hw1]; rfl

/-- Both index words of the corner write are 0. -/
theorem cornerWords_zero (k : S2.Idx) :
    (concatenate S2 0 [⟨S1, (broadcastInDim S1 ![] bcast_S_S1 (constantI S_ 32 0#32) : IVec S1 32)⟩,
      ⟨S1, (broadcastInDim S1 ![] bcast_S_S1 (constantI S_ 32 0#32) : IVec S1 32)⟩] concatenates_S1_S1_S2_d0 : IVec S2 32) k = 0#32 := by
  have hk2 : (k 0 : Fin 2).val < 2 := (k 0 : Fin 2).isLt
  by_cases hk : (k 0 : Fin 2).val < 1
  · refine (concatenate_pair_apply_left (0 : Fin S2.rank) _ _ concatenates_S1_S1_S2_d0 k rfl (ix1 (0 : Fin 1)) (fun b => ?_)).trans rfl
    match b with
    | ⟨0, _⟩ => show 0 = (k 0 : Fin 2).val; omega
  · refine (concatenate_pair_apply_right (0 : Fin S2.rank) _ _ concatenates_S1_S1_S2_d0 k rfl rfl (ix1 (0 : Fin 1)) (fun b hb => ?_) ?_).trans rfl
    · match b with
      | ⟨0, _⟩ => exact absurd rfl hb
    · show 0 + 1 = (k 0 : Fin 2).val
      omega

/-- The one update of the corner write lands at (0, 0). -/
theorem cornerWrite_lands (idx : IVec S2 32) (hidx : ∀ k, idx k = 0#32) (j : S_.Idx) :
    scatter_S1x128_S2_S__n_01_01_0.resultIdx? j idx = some (ix2 (0 : Fin 1) (0 : Fin 128)) := by
  have hs := start_eq_zero scatter_S1x128_S2_S__n_01_01_0 j idx hidx
  have hw0 : scatter_S1x128_S2_S__n_01_01_0.window j (0 : Fin 2) = 0 := rfl
  have hw1 : scatter_S1x128_S2_S__n_01_01_0.window j (1 : Fin 2) = 0 := rfl
  unfold ScatterDims.resultIdx?
  rw [dif_pos (fun a => by
    rw [hs a]
    match a with
    | ⟨0, _⟩ => rw [show scatter_S1x128_S2_S__n_01_01_0.window j (⟨0, by decide⟩ : Fin 2) = 0 from hw0]; show (0 : Int) ≤ 0 + ((0 : Nat) : Int) ∧ 0 + ((0 : Nat) : Int) < (1 : Nat); omega
    | ⟨1, _⟩ => rw [show scatter_S1x128_S2_S__n_01_01_0.window j (⟨1, by decide⟩ : Fin 2) = 0 from hw1]; show (0 : Int) ≤ 0 + ((0 : Nat) : Int) ∧ 0 + ((0 : Nat) : Int) < (128 : Nat); omega)]
  refine congrArg some (funext fun a => Fin.ext ?_)
  match a with
  | ⟨0, _⟩ =>
    show (scatter_S1x128_S2_S__n_01_01_0.start j idx (0 : Fin 2) + (scatter_S1x128_S2_S__n_01_01_0.window j (0 : Fin 2) : Int)).toNat = 0
    rw [hs, hw0]; rfl
  | ⟨1, _⟩ =>
    show (scatter_S1x128_S2_S__n_01_01_0.start j idx (1 : Fin 2) + (scatter_S1x128_S2_S__n_01_01_0.window j (1 : Fin 2) : Int)).toNat = 0
    rw [hs, hw1]; rfl

end SetScatter

open SetScatter

variable (V0 : Valuation τ sig (Elt Ideal))

/-! ## The five buffers -/

/-- The top half of the scorer's first weight. -/
theorem ops6_2_v80 : (StableHlo.after (hostOps6_2 (F := Ideal)) V0 (Proc.devRef .tc main_v80) : S128x128.Idx → EReal) = Cert.Gnn.pTop (V0 (Proc.devRef .tc main_arg9) : S256x128.Idx → EReal) := by
  refine funext fun (i : S128x128.Idx) => ?_
  obtain ⟨p, q, rfl⟩ : ∃ (p : Fin 128) (q : Fin 128), i = ix2 p q := ⟨i 0, i 1, eq_ix2 i⟩
  after_results
  rw [truncf_apply]
  refine (extractStridedSlice_apply ![0, 0] _ slices_S256x128_S128x128_0_0 (ix2 p q)
    (ix2 (⟨p.val, Nat.lt_of_lt_of_le p.isLt (by decide)⟩ : Fin 256) q) (fun a => match a with
      | ⟨0, _⟩ => by show p.val = 0 + p.val; omega
      | ⟨1, _⟩ => by show q.val = 0 + q.val; omega)).trans ?_
  rfl

/-- The bottom half of the scorer's first weight. -/
theorem ops6_2_v82 : (StableHlo.after (hostOps6_2 (F := Ideal)) V0 (Proc.devRef .tc main_v82) : S128x128.Idx → EReal) = Cert.Gnn.pBot (V0 (Proc.devRef .tc main_arg9) : S256x128.Idx → EReal) := by
  refine funext fun (i : S128x128.Idx) => ?_
  obtain ⟨p, q, rfl⟩ : ∃ (p : Fin 128) (q : Fin 128), i = ix2 p q := ⟨i 0, i 1, eq_ix2 i⟩
  after_results
  rw [truncf_apply]
  refine (extractStridedSlice_apply ![128, 0] _ slices_S256x128_S128x128_128_0 (ix2 p q)
    (ix2 (⟨128 + p.val, Nat.add_lt_add_left p.isLt 128⟩ : Fin 256) q) (fun a => match a with
      | ⟨0, _⟩ => by show 128 + p.val = 128 + p.val; omega
      | ⟨1, _⟩ => by show q.val = 0 + q.val; omega)).trans ?_
  rfl

/-- The scorer's first bias as a one-row matrix. -/
theorem ops6_2_v83 : (StableHlo.after (hostOps6_2 (F := Ideal)) V0 (Proc.devRef .tc main_v83) : S1x128.Idx → EReal) = Cert.Gnn.vRow (V0 (Proc.devRef .tc main_arg10) : S128.Idx → EReal) := by
  refine funext fun (i : S1x128.Idx) => ?_
  obtain ⟨p, q, rfl⟩ : ∃ (p : Fin 1) (q : Fin 128), i = ix2 p q := ⟨i 0, i 1, eq_ix2 i⟩
  after_results
  show shapeCast S1x128 (V0 (Proc.devRef .tc main_arg10) : S128.Idx → EReal) shapeCasts_S128_S1x128 (ix2 p q) = _
  refine (shapeCast_apply _ shapeCasts_S128_S1x128 (ix2 p q) (ix1 q) (by
    rw [Shape.rowMajor_val_one, Shape.rowMajor_val_two]
    have hp : p.val < 1 := p.isLt
    show q.val = p.val * 128 + q.val
    omega)).trans ?_
  rfl

/-- Column 0 of the padded second weight of the scorer is the weight's one column. -/
theorem ops6_2_v88_col (k : Fin 128) : (StableHlo.after (hostOps6_2 (F := Ideal)) V0 (Proc.devRef .tc main_v88) : S128x128.Idx → EReal) (ix2 k (0 : Fin 128)) = Cert.Gnn.pCol (V0 (Proc.devRef .tc main_arg11) : S128x1.Idx → EReal) (ix1 k) := by
  after_results
  refine (scatter_set_apply scatter_S128x128_S1_S128_0_1_1_0 _ _ _ (fun j : S128.Idx => ix2 (j 0 : Fin 128) (0 : Fin 128))
    (fun a b hab => by
      rw [eq_ix1 a, eq_ix1 b]
      exact congrArg ix1 (congrFun hab (0 : Fin 2)))
    (colWrite_lands _ colWord_zero) (ix1 k)).trans ?_
  rw [truncf_apply]
  show shapeCast S128 (V0 (Proc.devRef .tc main_arg11) : S128x1.Idx → EReal) shapeCasts_S128x1_S128 (ix1 k) = _
  refine (shapeCast_apply _ shapeCasts_S128x1_S128 (ix1 k) (ix2 k (0 : Fin 1)) (by
    rw [Shape.rowMajor_val_one, Shape.rowMajor_val_two]
    show k.val * 1 + 0 = k.val
    omega)).trans ?_
  rfl

/-- Entry (0, 0) of the padded last bias of the scorer is the bias. -/
theorem ops6_2_v94_00 : (StableHlo.after (hostOps6_2 (F := Ideal)) V0 (Proc.devRef .tc main_v94) : S1x128.Idx → EReal) (ix2 (0 : Fin 1) (0 : Fin 128)) = (V0 (Proc.devRef .tc main_arg12) : S1.Idx → EReal) (ix1 (0 : Fin 1)) := by
  after_results
  refine (scatter_set_apply scatter_S1x128_S2_S__n_01_01_0 _ _ _ (fun _ : S_.Idx => ix2 (0 : Fin 1) (0 : Fin 128))
    (fun a b _ => funext fun d => d.elim0) (cornerWrite_lands _ cornerWords_zero) ix0).trans ?_
  show shapeCast S_ (V0 (Proc.devRef .tc main_arg12) : S1.Idx → EReal) shapeCasts_S1_S_ ix0 = _
  exact shapeCast_apply _ shapeCasts_S1_S_ ix0 (ix1 (0 : Fin 1)) (by
    rw [Shape.rowMajor_val_one]
    exact (Shape.rowMajorPi_zero _ _).symm)

end Cert.KernelIdeal.Stretch

end
-- ==== Proof.KTraceP.lean ====
/-
  What the kernel program's result buffer holds: the edge scorer on the final node features.

  The last host operation reads column 0 of the scorer region's output array.  That array is the padded scorer
  (`Cert.Gnn.pred2d`) of the buffers the region finds: the final node features gathered in fill mode at the edges'
  sources and at their destinations, the two halves of the first weight, the first bias as a row, the second weight
  written into column 0 of a zero square table and the last bias into entry (0,0) of a zero row.  Column 0 of the padded
  scorer is the scorer itself (`Cert.Gnn.pred2d_col0`).  The index vectors and the parameters are followed back, through
  the stretches and regions that leave their buffers alone, to the arguments as launched.
-/
import proofs.«402358_j61787399520742_1_alg».proof.Proof.Gen.KernelIdeal.Frame
import proofs.«402358_j61787399520742_1_alg».proof.Proof.Spec
import proofs.«402358_j61787399520742_1_alg».proof.Proof.KDefs
import proofs.«402358_j61787399520742_1_alg».proof.Proof.KRegion6
import proofs.«402358_j61787399520742_1_alg».proof.Proof.KStretchA
import proofs.«402358_j61787399520742_1_alg».proof.Proof.KStretchP
import proofs.«402358_j61787399520742_1_alg».proof.Proof.KSteps
import Idealize.ShloMosaic.Lib.ValueIdx

noncomputable section

namespace Cert.KernelIdeal.Trace

open Cert.KernelIdeal Cert.KernelIdeal.Gen Cert.KernelIdeal.Host Cert.KernelIdeal.Stretch Cert.KernelIdeal.RegionValue
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The edges' source nodes are still in their buffer when the last layer's node features are gathered. -/
theorem scorer_src : (W16 (F := Ideal) m ρ c (Proc.devRef .tc main_v1) : IVec S800000 32)
    = srcOf (m ((c : Thread nD τ).loc main_arg1) : IVec S2x800000 32) :=
  (W16_v1 m ρ c).trans ((W11_v1 m ρ c).trans ((W6_v1 m ρ c).trans (ops0_v1 (W0 m ρ c))))

/-- And so are the destination nodes, one stretch later. -/
theorem scorer_dst : (W17 (F := Ideal) m ρ c (Proc.devRef .tc main_v3) : IVec S800000 32)
    = dstOf (m ((c : Thread nD τ).loc main_arg1) : IVec S2x800000 32) :=
  (W17_v3 m ρ c).trans ((W14_v3 m ρ c).trans ((W9_v3 m ρ c).trans ((W4_v3 m ρ c).trans (ops0_v3 (W0 m ρ c)))))

/-- The scorer's first input: the final node features gathered at the edges' sources. -/
theorem scorer_in77 : (V19 (F := Ideal) m ρ c main_v77 : S800000x128.Idx → EReal)
    = takeFill (W16 (F := Ideal) m ρ c (Proc.devRef .tc main_v76)) (srcOf (m ((c : Thread nD τ).loc main_arg1) : IVec S2x800000 32)) := by
  refine (W19_v77 m ρ c).trans ((ops6_v77 (W16 m ρ c)).trans ?_)
  rw [scorer_src m ρ c]

/-- Its second input: the same features gathered at the destinations. -/
theorem scorer_in78 : (V19 (F := Ideal) m ρ c main_v78 : S800000x128.Idx → EReal)
    = takeFill (W16 (F := Ideal) m ρ c (Proc.devRef .tc main_v76)) (dstOf (m ((c : Thread nD τ).loc main_arg1) : IVec S2x800000 32)) := by
  refine (W19_v78 m ρ c).trans ((ops6_1_v78 (W17 m ρ c)).trans ?_)
  rw [W17_v76 m ρ c, scorer_dst m ρ c]

/-- The scorer's parameters, read off the arguments as launched. -/
theorem scorer_in80 : (V19 (F := Ideal) m ρ c main_v80 : S128x128.Idx → EReal)
    = Cert.Gnn.pTop (m ((c : Thread nD τ).loc main_arg9) : S256x128.Idx → EReal) := by
  refine (ops6_2_v80 (W18 m ρ c)).trans ?_
  rw [W18_arg m ρ c main_arg9]
theorem scorer_in82 : (V19 (F := Ideal) m ρ c main_v82 : S128x128.Idx → EReal)
    = Cert.Gnn.pBot (m ((c : Thread nD τ).loc main_arg9) : S256x128.Idx → EReal) := by
  refine (ops6_2_v82 (W18 m ρ c)).trans ?_
  rw [W18_arg m ρ c main_arg9]
theorem scorer_in83 : (V19 (F := Ideal) m ρ c main_v83 : S1x128.Idx → EReal)
    = Cert.Gnn.vRow (m ((c : Thread nD τ).loc main_arg10) : S128.Idx → EReal) := by
  refine (ops6_2_v83 (W18 m ρ c)).trans ?_
  rw [W18_arg m ρ c main_arg10]
theorem scorer_in88 (k : Fin 128) : (V19 (F := Ideal) m ρ c main_v88 : S128x128.Idx → EReal) (ix2 k (0 : Fin 128))
    = Cert.Gnn.pCol (m ((c : Thread nD τ).loc main_arg11) : S128x1.Idx → EReal) (ix1 k) := by
  refine (ops6_2_v88_col (W18 m ρ c) k).trans ?_
  rw [W18_arg m ρ c main_arg11]
theorem scorer_in94 : (V19 (F := Ideal) m ρ c main_v94 : S1x128.Idx → EReal) (ix2 (0 : Fin 1) (0 : Fin 128))
    = (m ((c : Thread nD τ).loc main_arg12) : S1.Idx → EReal) (ix1 (0 : Fin 1)) := by
  refine (ops6_2_v94_00 (W18 m ρ c)).trans ?_
  rw [W18_arg m ρ c main_arg12]

/-- The scorer region's output array: the padded scorer of those inputs. -/
theorem scorer_out95 : (W20 (F := Ideal) m ρ c (Proc.devRef .tc main_v95) : S800000x128.Idx → EReal)
    = Cert.Gnn.pred2d (V19 (F := Ideal) m ρ c main_v77 : S800000x128.Idx → EReal) (V19 (F := Ideal) m ρ c main_v78 : S800000x128.Idx → EReal)
        (V19 (F := Ideal) m ρ c main_v80 : S128x128.Idx → EReal) (V19 (F := Ideal) m ρ c main_v82 : S128x128.Idx → EReal)
        (V19 (F := Ideal) m ρ c main_v83 : S1x128.Idx → EReal) (V19 (F := Ideal) m ρ c main_v88 : S128x128.Idx → EReal)
        (V19 (F := Ideal) m ρ c main_v94 : S1x128.Idx → EReal) :=
  (W20_arr m ρ c 7).trans (final6 (V19 m ρ) c)

/-- THE RESULT BUFFER: column 0 of the padded scorer, which is the scorer itself, on the final node features gathered
    at the two ends of every edge and the scorer's parameters as launched. -/
theorem trace4 : (W21 (F := Ideal) m ρ c (Proc.devRef .tc main_v97) : S800000.Idx → EReal)
    = Cert.Gnn.predCol
        (takeFill (W16 (F := Ideal) m ρ c (Proc.devRef .tc main_v76)) (srcOf (m ((c : Thread nD τ).loc main_arg1) : IVec S2x800000 32)))
        (takeFill (W16 (F := Ideal) m ρ c (Proc.devRef .tc main_v76)) (dstOf (m ((c : Thread nD τ).loc main_arg1) : IVec S2x800000 32)))
        (Cert.Gnn.pTop (m ((c : Thread nD τ).loc main_arg9) : S256x128.Idx → EReal))
        (Cert.Gnn.pBot (m ((c : Thread nD τ).loc main_arg9) : S256x128.Idx → EReal))
        (Cert.Gnn.vRow (m ((c : Thread nD τ).loc main_arg10) : S128.Idx → EReal))
        (Cert.Gnn.pCol (m ((c : Thread nD τ).loc main_arg11) : S128x1.Idx → EReal))
        ((m ((c : Thread nD τ).loc main_arg12) : S1.Idx → EReal) (ix1 (0 : Fin 1))) := by
  funext j
  obtain ⟨e, rfl⟩ : ∃ e : Fin 800000, j = ix1 e := ⟨j 0, eq_ix1 j⟩
  refine (ops7_v97 (W20 m ρ c) e).trans ?_
  rw [scorer_out95 m ρ c, scorer_in77 m ρ c, scorer_in78 m ρ c, scorer_in80 m ρ c, scorer_in82 m ρ c, scorer_in83 m ρ c]
  exact Cert.Gnn.pred2d_col0 _ _ _ _ _ _ _ _ _ (scorer_in88 m ρ c) (scorer_in94 m ρ c) e

end Cert.KernelIdeal.Trace

end
-- ==== Proof.Take.lean ====
/-
  A row gather in fill mode along an index vector whose every entry names a row of the table is the plain row gather,
  and the two index vectors cut out of the edge list take their values from it.
-/
import proofs.«402358_j61787399520742_1_alg».proof.Proof.KDefs
import Idealize.ShloMosaic.Lib.ValueIdx
import Idealize.ShloMosaic.Lib.Pipeline.Value
import Idealize.ShloMosaic.Lib.ReduceAll

namespace Cert.KernelIdeal.Host

open Cert.KernelIdeal Cert.KernelIdeal.Facts₀ Cert.KernelIdeal.Facts Idealize.ShloMosaic Idealize.ShloMosaic.ValueIdx

/-- The source vector at an edge is row 0 of the edge list at that edge. -/
theorem srcOf_apply (a1 : IVec S2x800000 32) (e : Fin 800000) : srcOf a1 (ix1 e) = a1 (ix2 0 e) := by
  unfold srcOf
  rw [shapeCast_apply _ shapeCasts_S1x800000_S800000 (ix1 e) (ix2 (0 : Fin 1) e)
    (by rewrite [Shape.rowMajor_val_two, Shape.rowMajor_val_one]; show 0 * 800000 + e.val = e.val; omega)]
  exact extractStridedSlice_apply ![0, 0] a1 slices_S2x800000_S1x800000_0_0 (ix2 (0 : Fin 1) e) (ix2 (0 : Fin 2) e)
    (fun a => match a with
      | ⟨0, _⟩ => by show 0 = 0 + 0; omega
      | ⟨1, _⟩ => by show e.val = 0 + e.val; omega)

/-- The destination vector at an edge is row 1 of the edge list at that edge. -/
theorem dstOf_apply (a1 : IVec S2x800000 32) (e : Fin 800000) : dstOf a1 (ix1 e) = a1 (ix2 1 e) := by
  unfold dstOf
  rw [shapeCast_apply _ shapeCasts_S1x800000_S800000 (ix1 e) (ix2 (0 : Fin 1) e)
    (by rewrite [Shape.rowMajor_val_two, Shape.rowMajor_val_one]; show 0 * 800000 + e.val = e.val; omega)]
  exact extractStridedSlice_apply ![1, 0] a1 slices_S2x800000_S1x800000_1_0 (ix2 (0 : Fin 1) e) (ix2 (1 : Fin 2) e)
    (fun a => match a with
      | ⟨0, _⟩ => by show 1 = 1 + 0; omega
      | ⟨1, _⟩ => by show e.val = 0 + e.val; omega)

theorem srcOf_range (a1 : IVec S2x800000 32)
    (h : ∀ (r : Fin 2) (e : Fin 800000), 0 ≤ (a1 (ix2 r e)).toInt ∧ (a1 (ix2 r e)).toInt < 50000) (e : Fin 800000) :
    0 ≤ (srcOf a1 (ix1 e)).toInt ∧ (srcOf a1 (ix1 e)).toInt < 50000 := by
  rw [srcOf_apply]; exact h 0 e

theorem dstOf_range (a1 : IVec S2x800000 32)
    (h : ∀ (r : Fin 2) (e : Fin 800000), 0 ≤ (a1 (ix2 r e)).toInt ∧ (a1 (ix2 r e)).toInt < 50000) (e : Fin 800000) :
    0 ≤ (dstOf a1 (ix1 e)).toInt ∧ (dstOf a1 (ix1 e)).toInt < 50000 := by
  rw [dstOf_apply]; exact h 1 e

/-- A left fold by `and` from 1 over words that are all 1 is 1. -/
private theorem foldl_andi_one {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- The wrapped start index of an entry that is not negative is the entry. -/
theorem idxCol_apply (s : IVec S800000 32) (p : Fin 800000) (h0 : 0 ≤ (s (ix1 p)).toInt) :
    idxCol s (ix2 p 0) = s (ix1 p) := by
  unfold idxCol
  rw [broadcastInDim_apply ![0] bcast_S800000_S800000x1_0 _ (ix2 p (0 : Fin 1)) (ix1 p)
    (fun a => match a with
      | ⟨0, _⟩ => by
        show p.val = if (800000 : Nat) = 1 then 0 else p.val
        rw [if_neg (by omega)])]
  show Scalar.select (IntOp.cmpi .slt (s (ix1 p)) 0#32) (IntOp.addi (s (ix1 p)) 50000#32) (s (ix1 p)) = s (ix1 p)
  unfold Scalar.select
  rw [if_neg]
  intro hc
  have hlt := IntOp.cmpi_slt.1 hc
  rw [show (0#32 : BitVec 32).toInt = 0 from by decide] at hlt
  omega

/-- With every entry naming a row of the table the row mask is 1 everywhere. -/
theorem inRange_apply (s : IVec S800000 32)
    (hs : ∀ e : Fin 800000, 0 ≤ (s (ix1 e)).toInt ∧ (s (ix1 e)).toInt < 50000) (p : Fin 800000) :
    inRange s (ix1 p) = 1#1 := by
  unfold inRange
  rw [Host.reduce_eq_foldl]
  refine foldl_andi_one _ (fun i => ?_) _
  obtain ⟨p', q', rfl⟩ : ∃ (p' : Fin 800000) (q' : Fin 1), i = ix2 p' q' := ⟨i 0, i 1, eq_ix2 i⟩
  obtain rfl : q' = 0 := Subsingleton.elim _ _
  show IntOp.andi (IntOp.cmpi .sge (idxCol s (ix2 p' 0)) 0#32) (IntOp.cmpi .sle (idxCol s (ix2 p' 0)) 49999#32) = 1#1
  rw [idxCol_apply s p' (hs p').1, IntOp.andi_eq_one, IntOp.cmpi_sge, IntOp.cmpi_sle,
    show (0#32 : BitVec 32).toInt = 0 from by decide, show (49999#32 : BitVec 32).toInt = 49999 from by decide]
  have := hs p'
  omega

/-- With every index in [0, 50000) the fill-mode row gather is the plain row gather. -/
theorem takeFill_eq (x : FVec Ideal S50000x128 .f32) (s : IVec S800000 32)
    (hs : ∀ e : Fin 800000, 0 ≤ (s (ix1 e)).toInt ∧ (s (ix1 e)).toInt < 50000) : takeFill x s = rowGather x s := by
  funext i
  obtain ⟨p, q, rfl⟩ : ∃ (p : Fin 800000) (q : Fin 128), i = ix2 p q := ⟨i 0, i 1, eq_ix2 i⟩
  unfold takeFill
  rw [select_apply, broadcastInDim_apply ![0] bcast_S800000_S800000x128_0 (inRange s) (ix2 p q) (ix1 p)
    (fun a => match a with
      | ⟨0, _⟩ => by
        show p.val = if (800000 : Nat) = 1 then 0 else p.val
        rw [if_neg (by omega)]),
    inRange_apply s hs p, select_one]

end Cert.KernelIdeal.Host
-- ==== Proof.IndexRange.lean ====
/-
  The precondition, decoded at its last conjunct: every entry of the edge-index table lies in [0, 50000).
  The precondition is one i1 scalar, a conjunction whose last member is the reduce-and, over both axes of the
  [2, 800000] table, of (entry ≥ 0 signed) and (entry < 50000 signed). A conjunction that is 1 has each member 1; a
  reduce-and over all axes that is 1 has a 1 at every index; a signed comparison that is 1 orders the signed values.
-/
import proofs.«402358_j61787399520742_1_alg».proof.Pre_finite_inputs
import proofs.«402358_j61787399520742_1_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

set_option maxRecDepth 16384

noncomputable section

namespace Cert.Pre_finite_inputs.Range

open Cert.Pre_finite_inputs Idealize.ShloMosaic Idealize.ShloMosaic.ValueIdx

/-- The scalar shape has one index. -/
instance : Subsingleton S_.Idx := ⟨fun a b => funext fun d => d.elim0⟩

/-- The precondition gives the index range: every entry of the edge-index table is in [0, 50000), signed. -/
theorem idx_range (a0 : FVec Ideal S50000x128 .f32) (a1 : IVec S2x800000 32) (a2 : FVec Ideal S800000x64 .f32) (a3 : FVec Ideal S3x64x128 .f32) (a4 : FVec Ideal S3x128 .f32) (a5 : FVec Ideal S3x128x128 .f32) (a6 : FVec Ideal S3x128 .f32) (a7 : FVec Ideal S3x128x128 .f32) (a8 : FVec Ideal S3x128 .f32) (a9 : FVec Ideal S256x128 .f32) (a10 : FVec Ideal S128 .f32) (a11 : FVec Ideal S128x1 .f32) (a12 : FVec Ideal S1 .f32)
    (h : Cert.Pre_finite_inputs.fn (F := Ideal) a0 a1 a2 a3 a4 a5 a6 a7 a8 a9 a10 a11 a12 = fun _ => 1#1) (r : Fin 2) (e : Fin 800000) :
    0 ≤ (a1 (ix2 r e)).toInt ∧ (a1 (ix2 r e)).toInt < 50000 := by
  -- the scalar, read at its one index
  have h0 := congrFun h ix0
  dsimp only [fn, fn_part1, fn_part2, fn_part3] at h0
  -- the last member of the conjunction: the reduce-and of the two comparisons
  have h1 := (IntOp.andi_eq_one.1 h0).2
  -- a reduce-and over all axes that is 1 has a 1 at index (r, e)
  have h2 := Host.reduce_andi_all _ _ _ _ ix0 h1 (ix2 r e)
  obtain ⟨hge, hlt⟩ := IntOp.andi_eq_one.1 h2
  -- the two comparisons against the broadcast constants, as facts about the signed values
  have hge' : (0#32 : BitVec 32).toInt ≤ (a1 (ix2 r e)).toInt := IntOp.cmpi_sge.1 hge
  have hlt' : (a1 (ix2 r e)).toInt < (50000#32 : BitVec 32).toInt := IntOp.cmpi_slt.1 hlt
  have e0 : (0#32 : BitVec 32).toInt = 0 := by decide
  have e5 : (50000#32 : BitVec 32).toInt = 50000 := by decide
  rw [e0] at hge'
  rw [e5] at hlt'
  exact ⟨hge', hlt'⟩

end Cert.Pre_finite_inputs.Range

end
-- ==== Proof.RefMsg.lean ====
/-
  The reference's edge messages are the specification's messages.

  In each layer l the reference forms, for every edge e and feature j,
  max (xs e j + ((Σ_k edge_attr e k · W l k j) + b l j), 0), where xs is the gathered source rows.
  The specification associates the same three terms as (xs e j + Σ_k …) + b l j.
-/
import proofs.«402358_j61787399520742_1_alg».proof.Proof.Gen.ReferenceIdeal.Read
import proofs.«402358_j61787399520742_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-! ## Layer 0 -/

/-- The left operand of the layer-0 edge product is read at (e, k). -/
theorem lidx_v6 (i : S800000x128.Idx) (k : Fin 64) :
    lidx_main_v6 i k = ix2 (i 0 : Fin 800000) k :=
  funext fun a => Fin.ext (by match a with | ⟨0, _⟩ => rfl | ⟨1, _⟩ => rfl)

/-- The right operand of the layer-0 edge product is slab 0 of the stacked weight at (k, j). -/
theorem widx_v6 (i : S800000x128.Idx) (k : Fin 64) :
    idx_main_v4 (idx_main_v5 (ridx_main_v6 i k)) = ix3 (0 : Fin 3) k (i 1 : Fin 128) :=
  funext fun a => Fin.ext (by
    have hk : k.val < 64 := k.isLt
    have hj : (i 1).val < 128 := (i 1).isLt
    match a with
    | ⟨0, _⟩ => rfl
    | ⟨1, _⟩ => show (k.val * 128 + (i 1).val) / 128 % 64 = k.val; omega
    | ⟨2, _⟩ => show (k.val * 128 + (i 1).val) % 128 = (i 1).val; omega)

/-- The layer-0 bias is row 0 of the stacked bias at j. -/
theorem bidx_v10 (i : S800000x128.Idx) :
    idx_main_v7 (idx_main_v8 (idx_main_v9 (idx_main_v10 i))) = ix2 (0 : Fin 3) (i 1 : Fin 128) :=
  funext fun a => Fin.ext (by
    have hj : (i 1).val < 128 := (i 1).isLt
    match a with
    | ⟨0, _⟩ => rfl
    | ⟨1, _⟩ => show (i 1).val % 128 = (i 1).val; omega)

theorem ref_msg0 (x0 : FVec Ideal S50000x128 .f32) (x1 : IVec S2x800000 32) (x2 : FVec Ideal S800000x64 .f32) (x3 : FVec Ideal S3x64x128 .f32) (x4 : FVec Ideal S3x128 .f32) :
    val_main_v20 (F := Ideal) x0 x1 x2 x3 x4 = Cert.Gnn.msg x2 (val_main_v18 (F := Ideal) x0 x1) (Cert.Gnn.wE x3 0) (Cert.Gnn.bRow x4 0) := by
  funext i
  rw [val_main_v20_apply, val_main_v19_apply, val_main_call0_v0_apply, val_main_call0_cst_apply, val_main_v11_apply,
    val_main_v6_apply, val_main_v10_apply, val_main_v9_apply, val_main_v8_apply, val_main_v7_apply]
  simp only [val_main_v5_apply, val_main_v4_apply, lidx_v6, widx_v6, bidx_v10, Ideal.maximumf_def, Ideal.addf_def,
    Ideal.ofBits_def, Ideal.ofBits_zero_f32]
  unfold Cert.Gnn.msg Cert.Gnn.wE Cert.Gnn.bRow
  rw [add_assoc]
  rfl

/-! ## Layer 1 -/

/-- The left operand of the layer-1 edge product is read at (e, k). -/
theorem lidx_v45 (i : S800000x128.Idx) (k : Fin 64) :
    lidx_main_v45 i k = ix2 (i 0 : Fin 800000) k :=
  funext fun a => Fin.ext (by match a with | ⟨0, _⟩ => rfl | ⟨1, _⟩ => rfl)

/-- The right operand of the layer-1 edge product is slab 1 of the stacked weight at (k, j). -/
theorem widx_v45 (i : S800000x128.Idx) (k : Fin 64) :
    idx_main_v43 (idx_main_v44 (ridx_main_v45 i k)) = ix3 (1 : Fin 3) k (i 1 : Fin 128) :=
  funext fun a => Fin.ext (by
    have hk : k.val < 64 := k.isLt
    have hj : (i 1).val < 128 := (i 1).isLt
    match a with
    | ⟨0, _⟩ => rfl
    | ⟨1, _⟩ => show (k.val * 128 + (i 1).val) / 128 % 64 = k.val; omega
    | ⟨2, _⟩ => show (k.val * 128 + (i 1).val) % 128 = (i 1).val; omega)

/-- The layer-1 bias is row 1 of the stacked bias at j. -/
theorem bidx_v49 (i : S800000x128.Idx) :
    idx_main_v46 (idx_main_v47 (idx_main_v48 (idx_main_v49 i))) = ix2 (1 : Fin 3) (i 1 : Fin 128) :=
  funext fun a => Fin.ext (by
    have hj : (i 1).val < 128 := (i 1).isLt
    match a with
    | ⟨0, _⟩ => rfl
    | ⟨1, _⟩ => show (i 1).val % 128 = (i 1).val; omega)

theorem ref_msg1 (x0 : FVec Ideal S50000x128 .f32) (x1 : IVec S2x800000 32) (x2 : FVec Ideal S800000x64 .f32) (x3 : FVec Ideal S3x64x128 .f32) (x4 : FVec Ideal S3x128 .f32) (x5 : FVec Ideal S3x128x128 .f32) (x6 : FVec Ideal S3x128 .f32) (x7 : FVec Ideal S3x128x128 .f32) (x8 : FVec Ideal S3x128 .f32) :
    val_main_v59 (F := Ideal) x0 x1 x2 x3 x4 x5 x6 x7 x8 = Cert.Gnn.msg x2 (val_main_v57 (F := Ideal) x0 x1 x2 x3 x4 x5 x6 x7 x8) (Cert.Gnn.wE x3 1) (Cert.Gnn.bRow x4 1) := by
  funext i
  rw [val_main_v59_apply, val_main_v58_apply, val_main_call3_v0_apply, val_main_call3_cst_apply, val_main_v50_apply,
    val_main_v45_apply, val_main_v49_apply, val_main_v48_apply, val_main_v47_apply, val_main_v46_apply]
  simp only [val_main_v44_apply, val_main_v43_apply, lidx_v45, widx_v45, bidx_v49, Ideal.maximumf_def, Ideal.addf_def,
    Ideal.ofBits_def, Ideal.ofBits_zero_f32]
  unfold Cert.Gnn.msg Cert.Gnn.wE Cert.Gnn.bRow
  rw [add_assoc]
  rfl

/-! ## Layer 2 -/

/-- The left operand of the layer-2 edge product is read at (e, k). -/
theorem lidx_v84 (i : S800000x128.Idx) (k : Fin 64) :
    lidx_main_v84 i k = ix2 (i 0 : Fin 800000) k :=
  funext fun a => Fin.ext (by match a with | ⟨0, _⟩ => rfl | ⟨1, _⟩ => rfl)

/-- The right operand of the layer-2 edge product is slab 2 of the stacked weight at (k, j). -/
theorem widx_v84 (i : S800000x128.Idx) (k : Fin 64) :
    idx_main_v82 (idx_main_v83 (ridx_main_v84 i k)) = ix3 (2 : Fin 3) k (i 1 : Fin 128) :=
  funext fun a => Fin.ext (by
    have hk : k.val < 64 := k.isLt
    have hj : (i 1).val < 128 := (i 1).isLt
    match a with
    | ⟨0, _⟩ => rfl
    | ⟨1, _⟩ => show (k.val * 128 + (i 1).val) / 128 % 64 = k.val; omega
    | ⟨2, _⟩ => show (k.val * 128 + (i 1).val) % 128 = (i 1).val; omega)

/-- The layer-2 bias is row 2 of the stacked bias at j. -/
theorem bidx_v88 (i : S800000x128.Idx) :
    idx_main_v85 (idx_main_v86 (idx_main_v87 (idx_main_v88 i))) = ix2 (2 : Fin 3) (i 1 : Fin 128) :=
  funext fun a => Fin.ext (by
    have hj : (i 1).val < 128 := (i 1).isLt
    match a with
    | ⟨0, _⟩ => rfl
    | ⟨1, _⟩ => show (i 1).val % 128 = (i 1).val; omega)

theorem ref_msg2 (x0 : FVec Ideal S50000x128 .f32) (x1 : IVec S2x800000 32) (x2 : FVec Ideal S800000x64 .f32) (x3 : FVec Ideal S3x64x128 .f32) (x4 : FVec Ideal S3x128 .f32) (x5 : FVec Ideal S3x128x128 .f32) (x6 : FVec Ideal S3x128 .f32) (x7 : FVec Ideal S3x128x128 .f32) (x8 : FVec Ideal S3x128 .f32) :
    val_main_v98 (F := Ideal) x0 x1 x2 x3 x4 x5 x6 x7 x8 = Cert.Gnn.msg x2 (val_main_v96 (F := Ideal) x0 x1 x2 x3 x4 x5 x6 x7 x8) (Cert.Gnn.wE x3 2) (Cert.Gnn.bRow x4 2) := by
  funext i
  rw [val_main_v98_apply, val_main_v97_apply, val_main_call6_v0_apply, val_main_call6_cst_apply, val_main_v89_apply,
    val_main_v84_apply, val_main_v88_apply, val_main_v87_apply, val_main_v86_apply, val_main_v85_apply]
  simp only [val_main_v83_apply, val_main_v82_apply, lidx_v84, widx_v84, bidx_v88, Ideal.maximumf_def, Ideal.addf_def,
    Ideal.ofBits_def, Ideal.ofBits_zero_f32]
  unfold Cert.Gnn.msg Cert.Gnn.wE Cert.Gnn.bRow
  rw [add_assoc]
  rfl

end Cert.ReferenceIdeal.RefValue

end
-- ==== Proof.RefGin.lean ====
/-
  The reference's node update is the two-layer perceptron of the specification.

  In each of the three layers the reference adds the aggregate to the node features, multiplies by the first weight, adds
  the first bias, clamps at zero, multiplies by the second weight, adds the second bias and clamps at zero again.  Read at
  a node n and a feature j this is
    max ((Σ_k max ((Σ_k' (x n k' + aggr n k') · W1 k' k) + b1 k, 0) · W2 k j) + b2 j, 0),
  which is Cert.Gnn.gin with the layer's slices of the stacked weights and biases.  The aggregate (a scatter-add) and, in
  layers 1 and 2, the previous layer's node features enter as they stand: nothing here looks inside them.
-/
import proofs.«402358_j61787399520742_1_alg».proof.Proof.Gen.ReferenceIdeal.Read
import proofs.«402358_j61787399520742_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-! ## Layer 0: the composed index maps of the node update, as coordinates

The row of the second product's left factor and of the first product's left factor is the node's row; the weight slices
are read at plane 0 of the stacked weights (a row-major reshape of one plane: the quotient and remainder by 128 of
k · 128 + j are k and j); the bias slices are read at row 0 of the stacked biases. -/

theorem gin0_row2 (n : Fin 50000) (j k : Fin 128) : lidx_main_v36 (ix2 n j) k = ix2 n k :=
  funext fun a => Fin.ext (by match a with | ⟨0, _⟩ => rfl | ⟨1, _⟩ => rfl)

theorem gin0_row1 (n : Fin 50000) (j k : Fin 128) : lidx_main_v27 (ix2 n j) k = ix2 n k :=
  funext fun a => Fin.ext (by match a with | ⟨0, _⟩ => rfl | ⟨1, _⟩ => rfl)

theorem gin0_w1 (n : Fin 50000) (k k' : Fin 128) :
    idx_main_v25 (idx_main_v26 (ridx_main_v27 (ix2 n k) k')) = ix3 (0 : Fin 3) k' k :=
  funext fun a => Fin.ext (by
    have hk := k.isLt
    have hk' := k'.isLt
    match a with
    | ⟨0, _⟩ => rfl
    | ⟨1, _⟩ => show (k'.val * 128 + k.val) / 128 % 128 = k'.val; omega
    | ⟨2, _⟩ => show (k'.val * 128 + k.val) % 128 = k.val; omega)

theorem gin0_b1 (n : Fin 50000) (k : Fin 128) :
    idx_main_v28 (idx_main_v29 (idx_main_v30 (idx_main_v31 (ix2 n k)))) = ix2 (0 : Fin 3) k :=
  funext fun a => Fin.ext (by
    have hk := k.isLt
    match a with
    | ⟨0, _⟩ => rfl
    | ⟨1, _⟩ => show k.val % 128 = k.val; omega)

theorem gin0_w2 (n : Fin 50000) (j k : Fin 128) :
    idx_main_v34 (idx_main_v35 (ridx_main_v36 (ix2 n j) k)) = ix3 (0 : Fin 3) k j :=
  funext fun a => Fin.ext (by
    have hk := k.isLt
    have hj := j.isLt
    match a with
    | ⟨0, _⟩ => rfl
    | ⟨1, _⟩ => show (k.val * 128 + j.val) / 128 % 128 = k.val; omega
    | ⟨2, _⟩ => show (k.val * 128 + j.val) % 128 = j.val; omega)

theorem gin0_b2 (n : Fin 50000) (j : Fin 128) :
    idx_main_v37 (idx_main_v38 (idx_main_v39 (idx_main_v40 (ix2 n j)))) = ix2 (0 : Fin 3) j :=
  funext fun a => Fin.ext (by
    have hj := j.isLt
    match a with
    | ⟨0, _⟩ => rfl
    | ⟨1, _⟩ => show j.val % 128 = j.val; omega)

/-- Layer 0's node update in the reference is the perceptron of the specification on the layer's node features and
    aggregate, with plane 0 of the stacked weights and row 0 of the stacked biases. -/
theorem ref_gin0 (x0 : FVec Ideal S50000x128 .f32) (x1 : IVec S2x800000 32) (x2 : FVec Ideal S800000x64 .f32) (x3 : FVec Ideal S3x64x128 .f32) (x4 : FVec Ideal S3x128 .f32) (x5 : FVec Ideal S3x128x128 .f32) (x6 : FVec Ideal S3x128 .f32) (x7 : FVec Ideal S3x128x128 .f32) (x8 : FVec Ideal S3x128 .f32) :
    val_main_v42 (F := Ideal) x0 x1 x2 x3 x4 x5 x6 x7 x8 = Cert.Gnn.gin x0 (val_main_v23 (F := Ideal) x0 x1 x2 x3 x4) (Cert.Gnn.wN x5 0) (Cert.Gnn.bRow x6 0) (Cert.Gnn.wN x7 0) (Cert.Gnn.bRow x8 0) := by
  funext i
  obtain ⟨n, j, rfl⟩ : ∃ (n : Fin 50000) (j : Fin 128), i = ix2 n j := ⟨i 0, i 1, eq_ix2 i⟩
  simp only [val_main_v42_apply, val_main_v41_apply, val_main_v36_apply, val_main_v33_apply, val_main_v32_apply,
    val_main_v27_apply, val_main_v24_apply, val_main_v26_apply, val_main_v25_apply, val_main_v31_apply, val_main_v30_apply,
    val_main_v29_apply, val_main_v28_apply, val_main_call1_v0_apply, val_main_call1_cst_apply, val_main_v35_apply,
    val_main_v34_apply, val_main_v40_apply, val_main_v39_apply, val_main_v38_apply, val_main_v37_apply,
    val_main_call2_v0_apply, val_main_call2_cst_apply,
    Ideal.addf_def, Ideal.maximumf_def, Ideal.ofBits_def, Ideal.ofBits_zero_f32,
    gin0_row2, gin0_row1, gin0_w1, gin0_b1, gin0_w2, gin0_b2]
  rfl

-- made by: bun scratch/H_gen_refgin.js proof/Proof/RefGin.lean
-- (layers 1 and 2 are layer 0's text with every operation number moved by 39 and 78 and the plane and row 1 and 2)

/-! ## Layer 1: the composed index maps of the node update, as coordinates

The row of the second product's left factor and of the first product's left factor is the node's row; the weight slices
are read at plane 1 of the stacked weights (a row-major reshape of one plane: the quotient and remainder by 128 of
k · 128 + j are k and j); the bias slices are read at row 1 of the stacked biases. -/

theorem gin1_row2 (n : Fin 50000) (j k : Fin 128) : lidx_main_v75 (ix2 n j) k = ix2 n k :=
  funext fun a => Fin.ext (by match a with | ⟨0, _⟩ => rfl | ⟨1, _⟩ => rfl)

theorem gin1_row1 (n : Fin 50000) (j k : Fin 128) : lidx_main_v66 (ix2 n j) k = ix2 n k :=
  funext fun a => Fin.ext (by match a with | ⟨0, _⟩ => rfl | ⟨1, _⟩ => rfl)

theorem gin1_w1 (n : Fin 50000) (k k' : Fin 128) :
    idx_main_v64 (idx_main_v65 (ridx_main_v66 (ix2 n k) k')) = ix3 (1 : Fin 3) k' k :=
  funext fun a => Fin.ext (by
    have hk := k.isLt
    have hk' := k'.isLt
    match a with
    | ⟨0, _⟩ => rfl
    | ⟨1, _⟩ => show (k'.val * 128 + k.val) / 128 % 128 = k'.val; omega
    | ⟨2, _⟩ => show (k'.val * 128 + k.val) % 128 = k.val; omega)

theorem gin1_b1 (n : Fin 50000) (k : Fin 128) :
    idx_main_v67 (idx_main_v68 (idx_main_v69 (idx_main_v70 (ix2 n k)))) = ix2 (1 : Fin 3) k :=
  funext fun a => Fin.ext (by
    have hk := k.isLt
    match a with
    | ⟨0, _⟩ => rfl
    | ⟨1, _⟩ => show k.val % 128 = k.val; omega)

theorem gin1_w2 (n : Fin 50000) (j k : Fin 128) :
    idx_main_v73 (idx_main_v74 (ridx_main_v75 (ix2 n j) k)) = ix3 (1 : Fin 3) k j :=
  funext fun a => Fin.ext (by
    have hk := k.isLt
    have hj := j.isLt
    match a with
    | ⟨0, _⟩ => rfl
    | ⟨1, _⟩ => show (k.val * 128 + j.val) / 128 % 128 = k.val; omega
    | ⟨2, _⟩ => show (k.val * 128 + j.val) % 128 = j.val; omega)

theorem gin1_b2 (n : Fin 50000) (j : Fin 128) :
    idx_main_v76 (idx_main_v77 (idx_main_v78 (idx_main_v79 (ix2 n j)))) = ix2 (1 : Fin 3) j :=
  funext fun a => Fin.ext (by
    have hj := j.isLt
    match a with
    | ⟨0, _⟩ => rfl
    | ⟨1, _⟩ => show j.val % 128 = j.val; omega)

/-- Layer 1's node update in the reference is the perceptron of the specification on the layer's node features and
    aggregate, with plane 1 of the stacked weights and row 1 of the stacked biases. -/
theorem ref_gin1 (x0 : FVec Ideal S50000x128 .f32) (x1 : IVec S2x800000 32) (x2 : FVec Ideal S800000x64 .f32) (x3 : FVec Ideal S3x64x128 .f32) (x4 : FVec Ideal S3x128 .f32) (x5 : FVec Ideal S3x128x128 .f32) (x6 : FVec Ideal S3x128 .f32) (x7 : FVec Ideal S3x128x128 .f32) (x8 : FVec Ideal S3x128 .f32) :
    val_main_v81 (F := Ideal) x0 x1 x2 x3 x4 x5 x6 x7 x8 = Cert.Gnn.gin (val_main_v42 (F := Ideal) x0 x1 x2 x3 x4 x5 x6 x7 x8) (val_main_v62 (F := Ideal) x0 x1 x2 x3 x4 x5 x6 x7 x8) (Cert.Gnn.wN x5 1) (Cert.Gnn.bRow x6 1) (Cert.Gnn.wN x7 1) (Cert.Gnn.bRow x8 1) := by
  funext i
  obtain ⟨n, j, rfl⟩ : ∃ (n : Fin 50000) (j : Fin 128), i = ix2 n j := ⟨i 0, i 1, eq_ix2 i⟩
  simp only [val_main_v81_apply, val_main_v80_apply, val_main_v75_apply, val_main_v72_apply, val_main_v71_apply,
    val_main_v66_apply, val_main_v63_apply, val_main_v65_apply, val_main_v64_apply, val_main_v70_apply, val_main_v69_apply,
    val_main_v68_apply, val_main_v67_apply, val_main_call4_v0_apply, val_main_call4_cst_apply, val_main_v74_apply,
    val_main_v73_apply, val_main_v79_apply, val_main_v78_apply, val_main_v77_apply, val_main_v76_apply,
    val_main_call5_v0_apply, val_main_call5_cst_apply,
    Ideal.addf_def, Ideal.maximumf_def, Ideal.ofBits_def, Ideal.ofBits_zero_f32,
    gin1_row2, gin1_row1, gin1_w1, gin1_b1, gin1_w2, gin1_b2]
  rfl

/-! ## Layer 2: the composed index maps of the node update, as coordinates

The row of the second product's left factor and of the first product's left factor is the node's row; the weight slices
are read at plane 2 of the stacked weights (a row-major reshape of one plane: the quotient and remainder by 128 of
k · 128 + j are k and j); the bias slices are read at row 2 of the stacked biases. -/

theorem gin2_row2 (n : Fin 50000) (j k : Fin 128) : lidx_main_v114 (ix2 n j) k = ix2 n k :=
  funext fun a => Fin.ext (by match a with | ⟨0, _⟩ => rfl | ⟨1, _⟩ => rfl)

theorem gin2_row1 (n : Fin 50000) (j k : Fin 128) : lidx_main_v105 (ix2 n j) k = ix2 n k :=
  funext fun a => Fin.ext (by match a with | ⟨0, _⟩ => rfl | ⟨1, _⟩ => rfl)

theorem gin2_w1 (n : Fin 50000) (k k' : Fin 128) :
    idx_main_v103 (idx_main_v104 (ridx_main_v105 (ix2 n k) k')) = ix3 (2 : Fin 3) k' k :=
  funext fun a => Fin.ext (by
    have hk := k.isLt
    have hk' := k'.isLt
    match a with
    | ⟨0, _⟩ => rfl
    | ⟨1, _⟩ => show (k'.val * 128 + k.val) / 128 % 128 = k'.val; omega
    | ⟨2, _⟩ => show (k'.val * 128 + k.val) % 128 = k.val; omega)

theorem gin2_b1 (n : Fin 50000) (k : Fin 128) :
    idx_main_v106 (idx_main_v107 (idx_main_v108 (idx_main_v109 (ix2 n k)))) = ix2 (2 : Fin 3) k :=
  funext fun a => Fin.ext (by
    have hk := k.isLt
    match a with
    | ⟨0, _⟩ => rfl
    | ⟨1, _⟩ => show k.val % 128 = k.val; omega)

theorem gin2_w2 (n : Fin 50000) (j k : Fin 128) :
    idx_main_v112 (idx_main_v113 (ridx_main_v114 (ix2 n j) k)) = ix3 (2 : Fin 3) k j :=
  funext fun a => Fin.ext (by
    have hk := k.isLt
    have hj := j.isLt
    match a with
    | ⟨0, _⟩ => rfl
    | ⟨1, _⟩ => show (k.val * 128 + j.val) / 128 % 128 = k.val; omega
    | ⟨2, _⟩ => show (k.val * 128 + j.val) % 128 = j.val; omega)

theorem gin2_b2 (n : Fin 50000) (j : Fin 128) :
    idx_main_v115 (idx_main_v116 (idx_main_v117 (idx_main_v118 (ix2 n j)))) = ix2 (2 : Fin 3) j :=
  funext fun a => Fin.ext (by
    have hj := j.isLt
    match a with
    | ⟨0, _⟩ => rfl
    | ⟨1, _⟩ => show j.val % 128 = j.val; omega)

/-- Layer 2's node update in the reference is the perceptron of the specification on the layer's node features and
    aggregate, with plane 2 of the stacked weights and row 2 of the stacked biases. -/
theorem ref_gin2 (x0 : FVec Ideal S50000x128 .f32) (x1 : IVec S2x800000 32) (x2 : FVec Ideal S800000x64 .f32) (x3 : FVec Ideal S3x64x128 .f32) (x4 : FVec Ideal S3x128 .f32) (x5 : FVec Ideal S3x128x128 .f32) (x6 : FVec Ideal S3x128 .f32) (x7 : FVec Ideal S3x128x128 .f32) (x8 : FVec Ideal S3x128 .f32) :
    val_main_v120 (F := Ideal) x0 x1 x2 x3 x4 x5 x6 x7 x8 = Cert.Gnn.gin (val_main_v81 (F := Ideal) x0 x1 x2 x3 x4 x5 x6 x7 x8) (val_main_v101 (F := Ideal) x0 x1 x2 x3 x4 x5 x6 x7 x8) (Cert.Gnn.wN x5 2) (Cert.Gnn.bRow x6 2) (Cert.Gnn.wN x7 2) (Cert.Gnn.bRow x8 2) := by
  funext i
  obtain ⟨n, j, rfl⟩ : ∃ (n : Fin 50000) (j : Fin 128), i = ix2 n j := ⟨i 0, i 1, eq_ix2 i⟩
  simp only [val_main_v120_apply, val_main_v119_apply, val_main_v114_apply, val_main_v111_apply, val_main_v110_apply,
    val_main_v105_apply, val_main_v102_apply, val_main_v104_apply, val_main_v103_apply, val_main_v109_apply, val_main_v108_apply,
    val_main_v107_apply, val_main_v106_apply, val_main_call7_v0_apply, val_main_call7_cst_apply, val_main_v113_apply,
    val_main_v112_apply, val_main_v118_apply, val_main_v117_apply, val_main_v116_apply, val_main_v115_apply,
    val_main_call8_v0_apply, val_main_call8_cst_apply,
    Ideal.addf_def, Ideal.maximumf_def, Ideal.ofBits_def, Ideal.ofBits_zero_f32,
    gin2_row2, gin2_row1, gin2_w1, gin2_b1, gin2_w2, gin2_b2]
  rfl

end Cert.ReferenceIdeal.RefValue

end
-- ==== Proof.RefPred.lean ====
/-
  The reference's scorer is the specification's scorer.

  The reference joins the final node rows gathered at an edge's source and at its destination into one row of
  256 columns, multiplies it by the [256,128] weight, adds the bias, clamps at 0, multiplies by the [128,1] weight,
  adds the last bias and drops the unit axis.  At edge e this is
    (Σ_k max ((Σ_k'' joined e k'' · P1 k'' k) + pb1 k, 0) · p2 k 0) + pb2 0.
  The joined row at a column below 128 is the source row, and at column 128 + k' the destination row at k'; a sum
  over 256 positions is the sum over the first 128 plus the sum over the last 128 (sums in the additive commutative
  monoid of extended reals: no finiteness is used).  With the weight's top and bottom halves named, this is the
  specification's scorer over the two gathered arrays, which stay as they are.
-/
import proofs.«402358_j61787399520742_1_alg».proof.Proof.Gen.ReferenceIdeal.Read
import proofs.«402358_j61787399520742_1_alg».proof.Proof.Spec
import Idealize.ShloMosaic.Lib.ValueIdx
import Idealize.ShloMosaic.Lib.Pipeline.Value
import Idealize.ShloMosaic.PureOps.Ideal.Laws
import Mathlib.Algebra.BigOperators.Fin

noncomputable section

open scoped BigOperators

namespace Cert.ReferenceIdeal.RefValue

open Cert.ReferenceIdeal Cert.ReferenceIdeal.Read Idealize.ShloMosaic Idealize.ShloMosaic.ValueIdx

/-- The join of two [800000,128] arrays along the columns, at a column below 128: the first array. -/
theorem pred_cat_left (x y : FVec Ideal S800000x128 .f32)
    (h : Shape.Concatenates [S800000x128, S800000x128] S800000x256 1) (e : Fin 800000) (k : Fin 128) :
    concatenate S800000x256 1 [⟨S800000x128, x⟩, ⟨S800000x128, y⟩] h
      (ix2 e (⟨k.val, Nat.lt_of_lt_of_le k.isLt (by decide)⟩ : Fin 256)) = x (ix2 e k) :=
  concatenate_pair_apply_left 1 x y h (ix2 e (⟨k.val, Nat.lt_of_lt_of_le k.isLt (by decide)⟩ : Fin 256)) rfl (ix2 e k)
    (fun b => by
      match b with
      | ⟨0, _⟩ => rfl
      | ⟨1, _⟩ => rfl)

/-- The join at column 128 + k: the second array at column k. -/
theorem pred_cat_right (x y : FVec Ideal S800000x128 .f32)
    (h : Shape.Concatenates [S800000x128, S800000x128] S800000x256 1) (e : Fin 800000) (k : Fin 128) :
    concatenate S800000x256 1 [⟨S800000x128, x⟩, ⟨S800000x128, y⟩] h
      (ix2 e (⟨128 + k.val, Nat.add_lt_add_left k.isLt 128⟩ : Fin 256)) = y (ix2 e k) :=
  concatenate_pair_apply_right 1 x y h (ix2 e (⟨128 + k.val, Nat.add_lt_add_left k.isLt 128⟩ : Fin 256)) rfl rfl (ix2 e k)
    (fun b hb => by
      match b with
      | ⟨0, _⟩ => rfl
      | ⟨1, _⟩ => exact absurd rfl hb)
    (by show k.val + 128 = 128 + k.val; omega)

/-- A sum over 256 positions is the sum over the first 128 plus the sum over the last 128. -/
theorem pred_sum_256 (f : Fin 256 → EReal) :
    ∑ k : Fin 256, f k = (∑ k : Fin 128, f ⟨k.val, Nat.lt_of_lt_of_le k.isLt (by decide)⟩)
      + ∑ k : Fin 128, f ⟨128 + k.val, Nat.add_lt_add_left k.isLt 128⟩ :=
  Fin.sum_univ_add (a := 128) (b := 128) f

/-- The joined array at a column below 128 is the rows gathered at the sources. -/
theorem pred_v135_left (x0 : FVec Ideal S50000x128 .f32) (x1 : IVec S2x800000 32) (x2 : FVec Ideal S800000x64 .f32) (x3 : FVec Ideal S3x64x128 .f32) (x4 : FVec Ideal S3x128 .f32) (x5 : FVec Ideal S3x128x128 .f32) (x6 : FVec Ideal S3x128 .f32) (x7 : FVec Ideal S3x128x128 .f32) (x8 : FVec Ideal S3x128 .f32) (e : Fin 800000) (k : Fin 128) :
    val_main_v135 (F := Ideal) x0 x1 x2 x3 x4 x5 x6 x7 x8 (ix2 e (⟨k.val, Nat.lt_of_lt_of_le k.isLt (by decide)⟩ : Fin 256))
      = val_main_v127 (F := Ideal) x0 x1 x2 x3 x4 x5 x6 x7 x8 (ix2 e k) := by
  unfold val_main_v135
  exact pred_cat_left _ _ _ e k

/-- The joined array at column 128 + k is the rows gathered at the destinations, at column k. -/
theorem pred_v135_right (x0 : FVec Ideal S50000x128 .f32) (x1 : IVec S2x800000 32) (x2 : FVec Ideal S800000x64 .f32) (x3 : FVec Ideal S3x64x128 .f32) (x4 : FVec Ideal S3x128 .f32) (x5 : FVec Ideal S3x128x128 .f32) (x6 : FVec Ideal S3x128 .f32) (x7 : FVec Ideal S3x128x128 .f32) (x8 : FVec Ideal S3x128 .f32) (e : Fin 800000) (k : Fin 128) :
    val_main_v135 (F := Ideal) x0 x1 x2 x3 x4 x5 x6 x7 x8 (ix2 e (⟨128 + k.val, Nat.add_lt_add_left k.isLt 128⟩ : Fin 256))
      = val_main_v134 (F := Ideal) x0 x1 x2 x3 x4 x5 x6 x7 x8 (ix2 e k) := by
  unfold val_main_v135
  exact pred_cat_right _ _ _ e k

theorem ref_pred (x0 : FVec Ideal S50000x128 .f32) (x1 : IVec S2x800000 32) (x2 : FVec Ideal S800000x64 .f32) (x3 : FVec Ideal S3x64x128 .f32) (x4 : FVec Ideal S3x128 .f32) (x5 : FVec Ideal S3x128x128 .f32) (x6 : FVec Ideal S3x128 .f32) (x7 : FVec Ideal S3x128x128 .f32) (x8 : FVec Ideal S3x128 .f32) (x9 : FVec Ideal S256x128 .f32) (x10 : FVec Ideal S128 .f32) (x11 : FVec Ideal S128x1 .f32) (x12 : FVec Ideal S1 .f32) :
    val_main_v145 (F := Ideal) x0 x1 x2 x3 x4 x5 x6 x7 x8 x9 x10 x11 x12 = Cert.Gnn.predCol (val_main_v127 (F := Ideal) x0 x1 x2 x3 x4 x5 x6 x7 x8) (val_main_v134 (F := Ideal) x0 x1 x2 x3 x4 x5 x6 x7 x8) (Cert.Gnn.pTop x9) (Cert.Gnn.pBot x9) (Cert.Gnn.vRow x10) (Cert.Gnn.pCol x11) (x12 (ix1 (0 : Fin 1))) := by
  funext i
  obtain ⟨e, rfl⟩ : ∃ e : Fin 800000, i = ix1 e := ⟨i 0, eq_ix1 i⟩
  have h1 : ∀ k : Fin 128, lidx_main_v141 (idx_main_v145 (ix1 e)) k = ix2 e k := fun k =>
    funext fun a => Fin.ext (by match a with | ⟨0, _⟩ => exact Nat.div_one _ | ⟨1, _⟩ => rfl)
  have h2 : ∀ k : Fin 128, ridx_main_v141 (idx_main_v145 (ix1 e)) k = ix2 k (0 : Fin 1) := fun k =>
    funext fun a => Fin.ext (by match a with | ⟨0, _⟩ => rfl | ⟨1, _⟩ => rfl)
  have h3 : idx_main_v142 (idx_main_v143 (idx_main_v145 (ix1 e))) = ix1 (0 : Fin 1) :=
    funext fun a => Fin.ext (by match a with | ⟨0, _⟩ => rfl)
  have h4 : ∀ (k : Fin 128) (k' : Fin 256), lidx_main_v136 (ix2 e k) k' = ix2 e k' := fun k k' =>
    funext fun a => Fin.ext (by match a with | ⟨0, _⟩ => rfl | ⟨1, _⟩ => rfl)
  have h5 : ∀ (k : Fin 128) (k' : Fin 256), ridx_main_v136 (ix2 e k) k' = ix2 k' k := fun k k' =>
    funext fun a => Fin.ext (by match a with | ⟨0, _⟩ => rfl | ⟨1, _⟩ => rfl)
  have h6 : ∀ k : Fin 128, idx_main_v137 (idx_main_v138 (ix2 e k)) = ix1 k := fun k =>
    funext fun a => Fin.ext (by match a with | ⟨0, _⟩ => rfl)
  rw [val_main_v145_apply, val_main_v144_apply, val_main_v141_apply, val_main_v143_apply, val_main_v142_apply]
  simp only [val_main_v140_apply, val_main_v139_apply, val_main_v138_apply, val_main_v137_apply, val_main_v136_apply,
    val_main_call9_v0_apply, val_main_call9_cst_apply, Ideal.ofBits_def, Ideal.ofBits_zero_f32, Ideal.addf_def, Ideal.maximumf_def,
    h1, h2, h3, h4, h5, h6]
  unfold Cert.Gnn.predCol Cert.Gnn.predHidden Cert.Gnn.pTop Cert.Gnn.pBot Cert.Gnn.vRow Cert.Gnn.pCol
  simp only [pred_sum_256, pred_v135_left, pred_v135_right]

end Cert.ReferenceIdeal.RefValue

end
-- ==== Proof.RefOut.lean ====
/-
  The reference program's result is the network of the specification, over the reference's own row gathers and
  scatter-add; and those three operations are the ones the kernel's host code spells.

  The reference gathers node rows along the edges' sources (once per layer and once for the scorer) and along their
  destinations (for the scorer), and sums edge rows into destination nodes (once per layer).  The index columns of
  the four source gathers are one function of the edge list written four times, those of the three scatters
  likewise, and the three zero tables are one table.  With the dense pieces of each layer and of the scorer already
  identified with the specification's, the layers compose into the whole network.
-/
import proofs.«402358_j61787399520742_1_alg».proof.Proof.RefMsg
import proofs.«402358_j61787399520742_1_alg».proof.Proof.RefGin
import proofs.«402358_j61787399520742_1_alg».proof.Proof.RefPred
import proofs.«402358_j61787399520742_1_alg».proof.Proof.KDefs

noncomputable section

open scoped BigOperators

namespace Cert.ReferenceIdeal.RefValue

open Cert.ReferenceIdeal Cert.ReferenceIdeal.Read Idealize.ShloMosaic Idealize.ShloMosaic.ValueIdx

/-! ## The reference's gathers and scatter-add -/

/-- Node rows gathered along the edges' sources. -/
def GS (x1 : IVec S2x800000 32) (x : FVec Ideal S50000x128 .f32) : FVec Ideal S800000x128 .f32 :=
  Host.gather gather_S50000x128_S800000x1_S800000x128_1_0_n_n_0_1_1128 x (val_main_v17 (F := Ideal) x1)

/-- Node rows gathered along the edges' destinations. -/
def GD (x1 : IVec S2x800000 32) (x : FVec Ideal S50000x128 .f32) : FVec Ideal S800000x128 .f32 :=
  Host.gather gather_S50000x128_S800000x1_S800000x128_1_0_n_n_0_1_1128 x (val_main_v133 (F := Ideal) x1)

/-- Edge rows summed into their destination nodes, from the zero table. -/
def SC (x1 : IVec S2x800000 32) (u : FVec Ideal S800000x128 .f32) : FVec Ideal S50000x128 .f32 :=
  Host.scatterAdd scatter_S50000x128_S800000x1_S800000x128_1_0_0_1 (val_main_v21 (F := Ideal)) (val_main_v22 (F := Ideal) x1) u

/-! ## The repeated index columns and zero tables are one -/

theorem v56_eq (x1 : IVec S2x800000 32) : val_main_v56 (F := Ideal) x1 = val_main_v17 (F := Ideal) x1 := rfl
theorem v95_eq (x1 : IVec S2x800000 32) : val_main_v95 (F := Ideal) x1 = val_main_v17 (F := Ideal) x1 := rfl
theorem v126_eq (x1 : IVec S2x800000 32) : val_main_v126 (F := Ideal) x1 = val_main_v17 (F := Ideal) x1 := rfl
theorem v61_eq (x1 : IVec S2x800000 32) : val_main_v61 (F := Ideal) x1 = val_main_v22 (F := Ideal) x1 := rfl
theorem v100_eq (x1 : IVec S2x800000 32) : val_main_v100 (F := Ideal) x1 = val_main_v22 (F := Ideal) x1 := rfl
theorem v60_eq : val_main_v60 (F := Ideal) = val_main_v21 (F := Ideal) := rfl
theorem v99_eq : val_main_v99 (F := Ideal) = val_main_v21 (F := Ideal) := rfl

/-! ## The gathers and scatters of the program, by these names -/

theorem v18_eq (x0 : FVec Ideal S50000x128 .f32) (x1 : IVec S2x800000 32) : val_main_v18 (F := Ideal) x0 x1 = GS x1 x0 := rfl

theorem v23_eq (x0 : FVec Ideal S50000x128 .f32) (x1 : IVec S2x800000 32) (x2 : FVec Ideal S800000x64 .f32) (x3 : FVec Ideal S3x64x128 .f32) (x4 : FVec Ideal S3x128 .f32) :
    val_main_v23 (F := Ideal) x0 x1 x2 x3 x4 = SC x1 (val_main_v20 (F := Ideal) x0 x1 x2 x3 x4) := rfl

theorem v57_eq (x0 : FVec Ideal S50000x128 .f32) (x1 : IVec S2x800000 32) (x2 : FVec Ideal S800000x64 .f32) (x3 : FVec Ideal S3x64x128 .f32) (x4 : FVec Ideal S3x128 .f32) (x5 : FVec Ideal S3x128x128 .f32) (x6 : FVec Ideal S3x128 .f32) (x7 : FVec Ideal S3x128x128 .f32) (x8 : FVec Ideal S3x128 .f32) :
    val_main_v57 (F := Ideal) x0 x1 x2 x3 x4 x5 x6 x7 x8 = GS x1 (val_main_v42 (F := Ideal) x0 x1 x2 x3 x4 x5 x6 x7 x8) := by
  unfold val_main_v57 GS; rw [v56_eq]

theorem v62_eq (x0 : FVec Ideal S50000x128 .f32) (x1 : IVec S2x800000 32) (x2 : FVec Ideal S800000x64 .f32) (x3 : FVec Ideal S3x64x128 .f32) (x4 : FVec Ideal S3x128 .f32) (x5 : FVec Ideal S3x128x128 .f32) (x6 : FVec Ideal S3x128 .f32) (x7 : FVec Ideal S3x128x128 .f32) (x8 : FVec Ideal S3x128 .f32) :
    val_main_v62 (F := Ideal) x0 x1 x2 x3 x4 x5 x6 x7 x8 = SC x1 (val_main_v59 (F := Ideal) x0 x1 x2 x3 x4 x5 x6 x7 x8) := by
  unfold val_main_v62 SC; rw [v60_eq, v61_eq]

theorem v96_eq (x0 : FVec Ideal S50000x128 .f32) (x1 : IVec S2x800000 32) (x2 : FVec Ideal S800000x64 .f32) (x3 : FVec Ideal S3x64x128 .f32) (x4 : FVec Ideal S3x128 .f32) (x5 : FVec Ideal S3x128x128 .f32) (x6 : FVec Ideal S3x128 .f32) (x7 : FVec Ideal S3x128x128 .f32) (x8 : FVec Ideal S3x128 .f32) :
    val_main_v96 (F := Ideal) x0 x1 x2 x3 x4 x5 x6 x7 x8 = GS x1 (val_main_v81 (F := Ideal) x0 x1 x2 x3 x4 x5 x6 x7 x8) := by
  unfold val_main_v96 GS; rw [v95_eq]

theorem v101_eq (x0 : FVec Ideal S50000x128 .f32) (x1 : IVec S2x800000 32) (x2 : FVec Ideal S800000x64 .f32) (x3 : FVec Ideal S3x64x128 .f32) (x4 : FVec Ideal S3x128 .f32) (x5 : FVec Ideal S3x128x128 .f32) (x6 : FVec Ideal S3x128 .f32) (x7 : FVec Ideal S3x128x128 .f32) (x8 : FVec Ideal S3x128 .f32) :
    val_main_v101 (F := Ideal) x0 x1 x2 x3 x4 x5 x6 x7 x8 = SC x1 (val_main_v98 (F := Ideal) x0 x1 x2 x3 x4 x5 x6 x7 x8) := by
  unfold val_main_v101 SC; rw [v99_eq, v100_eq]

theorem v127_eq (x0 : FVec Ideal S50000x128 .f32) (x1 : IVec S2x800000 32) (x2 : FVec Ideal S800000x64 .f32) (x3 : FVec Ideal S3x64x128 .f32) (x4 : FVec Ideal S3x128 .f32) (x5 : FVec Ideal S3x128x128 .f32) (x6 : FVec Ideal S3x128 .f32) (x7 : FVec Ideal S3x128x128 .f32) (x8 : FVec Ideal S3x128 .f32) :
    val_main_v127 (F := Ideal) x0 x1 x2 x3 x4 x5 x6 x7 x8 = GS x1 (val_main_v120 (F := Ideal) x0 x1 x2 x3 x4 x5 x6 x7 x8) := by
  unfold val_main_v127 GS; rw [v126_eq]

theorem v134_eq (x0 : FVec Ideal S50000x128 .f32) (x1 : IVec S2x800000 32) (x2 : FVec Ideal S800000x64 .f32) (x3 : FVec Ideal S3x64x128 .f32) (x4 : FVec Ideal S3x128 .f32) (x5 : FVec Ideal S3x128x128 .f32) (x6 : FVec Ideal S3x128 .f32) (x7 : FVec Ideal S3x128x128 .f32) (x8 : FVec Ideal S3x128 .f32) :
    val_main_v134 (F := Ideal) x0 x1 x2 x3 x4 x5 x6 x7 x8 = GD x1 (val_main_v120 (F := Ideal) x0 x1 x2 x3 x4 x5 x6 x7 x8) := rfl

/-! ## The three layers -/

/-- The reference's node features after layer 0. -/
theorem ref_layer0 (x0 : FVec Ideal S50000x128 .f32) (x1 : IVec S2x800000 32) (x2 : FVec Ideal S800000x64 .f32) (x3 : FVec Ideal S3x64x128 .f32) (x4 : FVec Ideal S3x128 .f32) (x5 : FVec Ideal S3x128x128 .f32) (x6 : FVec Ideal S3x128 .f32) (x7 : FVec Ideal S3x128x128 .f32) (x8 : FVec Ideal S3x128 .f32) :
    val_main_v42 (F := Ideal) x0 x1 x2 x3 x4 x5 x6 x7 x8 = Cert.Gnn.layer (GS x1) (SC x1) x2 x3 x4 x5 x6 x7 x8 0 x0 := by
  rw [ref_gin0, v23_eq, ref_msg0, v18_eq]; rfl

/-- The reference's node features after layer 1, from those after layer 0. -/
theorem ref_layer1 (x0 : FVec Ideal S50000x128 .f32) (x1 : IVec S2x800000 32) (x2 : FVec Ideal S800000x64 .f32) (x3 : FVec Ideal S3x64x128 .f32) (x4 : FVec Ideal S3x128 .f32) (x5 : FVec Ideal S3x128x128 .f32) (x6 : FVec Ideal S3x128 .f32) (x7 : FVec Ideal S3x128x128 .f32) (x8 : FVec Ideal S3x128 .f32) :
    val_main_v81 (F := Ideal) x0 x1 x2 x3 x4 x5 x6 x7 x8 = Cert.Gnn.layer (GS x1) (SC x1) x2 x3 x4 x5 x6 x7 x8 1 (val_main_v42 (F := Ideal) x0 x1 x2 x3 x4 x5 x6 x7 x8) := by
  rw [ref_gin1, v62_eq, ref_msg1, v57_eq]; rfl

/-- The reference's node features after layer 2, from those after layer 1. -/
theorem ref_layer2 (x0 : FVec Ideal S50000x128 .f32) (x1 : IVec S2x800000 32) (x2 : FVec Ideal S800000x64 .f32) (x3 : FVec Ideal S3x64x128 .f32) (x4 : FVec Ideal S3x128 .f32) (x5 : FVec Ideal S3x128x128 .f32) (x6 : FVec Ideal S3x128 .f32) (x7 : FVec Ideal S3x128x128 .f32) (x8 : FVec Ideal S3x128 .f32) :
    val_main_v120 (F := Ideal) x0 x1 x2 x3 x4 x5 x6 x7 x8 = Cert.Gnn.layer (GS x1) (SC x1) x2 x3 x4 x5 x6 x7 x8 2 (val_main_v81 (F := Ideal) x0 x1 x2 x3 x4 x5 x6 x7 x8) := by
  rw [ref_gin2, v101_eq, ref_msg2, v96_eq]; rfl

/-! ## The whole network -/

theorem ref_out (x0 : FVec Ideal S50000x128 .f32) (x1 : IVec S2x800000 32) (x2 : FVec Ideal S800000x64 .f32) (x3 : FVec Ideal S3x64x128 .f32) (x4 : FVec Ideal S3x128 .f32) (x5 : FVec Ideal S3x128x128 .f32) (x6 : FVec Ideal S3x128 .f32) (x7 : FVec Ideal S3x128x128 .f32) (x8 : FVec Ideal S3x128 .f32) (x9 : FVec Ideal S256x128 .f32) (x10 : FVec Ideal S128 .f32) (x11 : FVec Ideal S128x1 .f32) (x12 : FVec Ideal S1 .f32) :
    val_main_v145 (F := Ideal) x0 x1 x2 x3 x4 x5 x6 x7 x8 x9 x10 x11 x12 = Cert.Gnn.out (GS x1) (GD x1) (SC x1) x0 x2 x3 x4 x5 x6 x7 x8 x9 x10 x11 x12 := by
  rw [ref_pred, v127_eq, v134_eq, ref_layer2, ref_layer1, ref_layer0]; rfl

/-! ## The same three operations as the kernel's host code spells them -/

theorem GS_eq (x1 : IVec S2x800000 32) : GS x1 = fun x => Cert.KernelIdeal.Host.rowGather x (Cert.KernelIdeal.Host.srcOf x1) := rfl

theorem GD_eq (x1 : IVec S2x800000 32) : GD x1 = fun x => Cert.KernelIdeal.Host.rowGather x (Cert.KernelIdeal.Host.dstOf x1) := rfl

theorem SC_eq (x1 : IVec S2x800000 32) : SC x1 = fun u => Cert.KernelIdeal.Host.scatAdd (Cert.KernelIdeal.Host.dstOf x1) u := rfl

end Cert.ReferenceIdeal.RefValue

end
-- ==== Proof.Bridge.lean ====
/-
  The two programs compute one function.

  The kernel program's result buffer ends at the network of Spec.lean over the kernel's own gather, fill-mode
  gather and scatter-add (the trace of its seven regions and the host operations between them).  Under the
  precondition every edge endpoint lies in [0, 50000), so the fill-mode gather keeps every row and is the plain
  gather.  The reference's result is the same network over the same gather and scatter-add of the same operands
  (its operations read one at a time), and the two memories agree on the arguments.
-/
import proofs.«402358_j61787399520742_1_alg».proof.Defs
import proofs.«402358_j61787399520742_1_alg».proof.Proof.KernelRun
import proofs.«402358_j61787399520742_1_alg».proof.Proof.KTraceL
import proofs.«402358_j61787399520742_1_alg».proof.Proof.KTraceP
import proofs.«402358_j61787399520742_1_alg».proof.Proof.Take
import proofs.«402358_j61787399520742_1_alg».proof.Proof.IndexRange
import proofs.«402358_j61787399520742_1_alg».proof.Proof.RefOut
import proofs.«402358_j61787399520742_1_alg».proof.Proof.Gen.ReferenceIdeal.Run
import proofs.«402358_j61787399520742_1_alg».proof.Proof.Gen.ReferenceIdeal.Read

noncomputable section

namespace Cert.Bridge

open Cert.KernelIdeal Cert.KernelIdeal.Gen Cert.KernelIdeal.Host Cert.KernelIdeal.Trace
open Idealize.ShloMosaic Idealize.ShloMosaic.TcCoe Idealize.SL.Sem Idealize.ShloMosaic.ValueIdx

variable (m : (ℓ : Loc nD τ sig) → Buf (Elt Ideal) ℓ) (ρ : Dev nD → PrngReg)

/-- The network over the plain gather along the edges' sources and destinations and the scatter-add into the
    destinations, at the kernel program's argument arrays on device c. -/
def kout (c : Dev nD) : S800000.Idx → EReal :=
  Cert.Gnn.out
    (fun x => rowGather x (srcOf (m ((c : Thread nD τ).loc main_arg1))))
    (fun x => rowGather x (dstOf (m ((c : Thread nD τ).loc main_arg1))))
    (fun u => scatAdd (dstOf (m ((c : Thread nD τ).loc main_arg1))) u)
    (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))

/-- The result buffer's final contents: the network over the fill-mode gathers. -/
theorem result_fill (c : Dev nD) :
    (W21 (F := Ideal) m ρ c (Proc.devRef .tc main_v97) : S800000.Idx → EReal)
      = Cert.Gnn.out
          (fun x => takeFill x (srcOf (m ((c : Thread nD τ).loc main_arg1))))
          (fun x => takeFill x (dstOf (m ((c : Thread nD τ).loc main_arg1))))
          (fun u => scatAdd (dstOf (m ((c : Thread nD τ).loc main_arg1))) u)
          (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9))
          (m ((c : Thread nD τ).loc main_arg10)) (m ((c : Thread nD τ).loc main_arg11)) (m ((c : Thread nD τ).loc main_arg12)) := by
  rw [trace4 m ρ c, trace3 m ρ c, trace2 m ρ c, trace1 m ρ c]
  rfl

/-- Under the precondition every edge endpoint is a node: the index table's entries lie in [0, 50000). -/
theorem endpoints (hpre : Cert.Pre_KernelIdeal m) (c : Dev nD) (r : Fin 2) (e : Fin 800000) :
    0 ≤ ((m ((c : Thread nD τ).loc main_arg1) : IVec S2x800000 32) (ix2 r e)).toInt
      ∧ ((m ((c : Thread nD τ).loc main_arg1) : IVec S2x800000 32) (ix2 r e)).toInt < 50000 :=
  Cert.Pre_finite_inputs.Range.idx_range _ _ _ _ _ _ _ _ _ _ _ _ _ (hpre c) r e

/-- With the endpoints in range the fill-mode gathers are the plain gathers, so the result is the network. -/
theorem result_eq (hpre : Cert.Pre_KernelIdeal m) (c : Dev nD) :
    (W21 (F := Ideal) m ρ c (Proc.devRef .tc main_v97) : S800000.Idx → EReal) = kout m c := by
  rw [result_fill m ρ c]
  have hs : (fun x => takeFill x (srcOf (m ((c : Thread nD τ).loc main_arg1))))
      = fun x => rowGather x (srcOf (m ((c : Thread nD τ).loc main_arg1))) :=
    funext fun x => takeFill_eq x _ (srcOf_range _ (endpoints m hpre c))
  have hd : (fun x => takeFill x (dstOf (m ((c : Thread nD τ).loc main_arg1))))
      = fun x => rowGather x (dstOf (m ((c : Thread nD τ).loc main_arg1))) :=
    funext fun x => takeFill_eq x _ (dstOf_range _ (endpoints m hpre c))
  rw [hs, hd]
  rfl

end Cert.Bridge

end
-- ==== Proof.lean ====
/-
  The claim: both printed programs run, their arguments unchanged; the idealized kernel program is the printed one
  read at exact arithmetic (no operation was rewritten); and at exact arithmetic the kernel program and the reference
  compute the same edge scores — three message-passing layers (edge message, sum into the destination node, a
  two-layer node update) and an edge scorer over the final node features — provided every edge endpoint is a node
  index in [0, 50000): outside that range the reference's row lookup reads a clamped row where the kernel's
  fill-mode lookup writes a filler, and inside it the two lookups are one operation.
-/
import proofs.«402358_j61787399520742_1_alg».proof.Defs
import proofs.«402358_j61787399520742_1_alg».proof.Proof.Gen.Kernel
import proofs.«402358_j61787399520742_1_alg».proof.Proof.Gen.Kernel.Skeleton
import proofs.«402358_j61787399520742_1_alg».proof.Proof.Gen.Kernel.Launch
import proofs.«402358_j61787399520742_1_alg».proof.Proof.Gen.Kernel.Points
import proofs.«402358_j61787399520742_1_alg».proof.Proof.Gen.Kernel.Frame
import proofs.«402358_j61787399520742_1_alg».proof.Proof.Gen.KernelIdeal
import proofs.«402358_j61787399520742_1_alg».proof.Proof.Gen.KernelIdeal.Skeleton
import proofs.«402358_j61787399520742_1_alg».proof.Proof.Gen.KernelIdeal.Launch
import proofs.«402358_j61787399520742_1_alg».proof.Proof.Gen.KernelIdeal.Points
import proofs.«402358_j61787399520742_1_alg».proof.Proof.Gen.KernelIdeal.Frame
import proofs.«402358_j61787399520742_1_alg».proof.Proof.Gen.ReferenceIdeal
import proofs.«402358_j61787399520742_1_alg».proof.Proof.Gen.Pre_finite_inputs
import proofs.«402358_j61787399520742_1_alg».proof.Proof.Gen.ReferenceIdeal.Run
import proofs.«402358_j61787399520742_1_alg».proof.Proof.Gen.ReferenceIdeal.Read
import proofs.«402358_j61787399520742_1_alg».proof.Proof.Bridge
import Idealize.ShloMosaic.Adequacy
import Idealize.ShloMosaic.Init

noncomputable section

namespace Cert.Proof

open Idealize.ShloMosaic Idealize.ShloMosaic.TcCoe Idealize.SL.Sem

/-- The kernel program runs, word for word, with its arguments unchanged. -/
theorem frame_k : Cert.frame_Kernel := fun m ρ _ => Cert.Kernel.Gen.frame m ρ

/-- The kernel program at exact arithmetic runs with its arguments unchanged. -/
theorem frame_ki : Cert.frame_KernelIdeal := fun m ρ _ => Cert.KernelIdeal.Gen.frame m ρ

/-- The reference runs with its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two runs end with one result: the kernel program's result buffer holds the network of its arguments
    (the trace, the endpoints in range), the reference's result is the same network of its own arguments (its
    operations read one at a time; its gather and scatter-add are the kernel's), and the arguments agree. -/
theorem algebraic : Cert.algebraic_KernelIdeal_ReferenceIdeal := by
  intro m ρ m' ρ' hpre hagree
  refine ⟨Cert.Bridge.kout m, ?_, ?_⟩
  · exact (θ_run Cert.KernelIdeal.defs _ _).mono
      (fun _ h c => ⟨(h c).1.trans (Cert.Bridge.result_eq m ρ hpre c), (h c).2⟩)
      (Cert.KernelIdeal.Gen.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v145_eq, Cert.ReferenceIdeal.RefValue.ref_out,
      Cert.ReferenceIdeal.RefValue.GS_eq, Cert.ReferenceIdeal.RefValue.GD_eq, Cert.ReferenceIdeal.RefValue.SC_eq,
      h0, h1, h2, h3, h4, h5, h6, h7, h8, h9, h10, h11, h12]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
